-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x4096 : Shape := ⟨2, ![32000, 4096]⟩
abbrev S8x512x4096 : Shape := ⟨3, ![8, 512, 4096]⟩
abbrev S8x512 : Shape := ⟨2, ![8, 512]⟩
abbrev S32000 : Shape := ⟨1, ![32000]⟩
abbrev S_ : Shape := ⟨0, ![]⟩

class Facts : Prop where
  bcast_S_S32000x4096 : S_.BroadcastsInDim S32000x4096 (![] : Fin 0 → Fin S32000x4096.rank)
  reducesTo_S32000x4096_S_d0_1 : S32000x4096.ReducesTo [0, 1] S_
  h_S_ : 0 < S_.numel
  bcast_S_S8x512x4096 : S_.BroadcastsInDim S8x512x4096 (![] : Fin 0 → Fin S8x512x4096.rank)
  reducesTo_S8x512x4096_S_d0_1_2 : S8x512x4096.ReducesTo [0, 1, 2] S_
  bcast_S_S32000 : S_.BroadcastsInDim S32000 (![] : Fin 0 → Fin S32000.rank)
  reducesTo_S32000_S_d0 : S32000.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_arg5 : FVec F S32000 .f32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_v19 : FVec F S32000 .f32 := Host.absf main_arg5
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  let main_c_8 : IVec S_ 32 := constantI S_ 32 0#32
  let main_v24 : IVec S8x512 32 := broadcastInDim S8x512 ![] bcast_S_S8x512 main_c_8
  let main_v25 : IVec S8x512 1 := cmpi .sge main_arg2 main_v24
  let main_c_9 : IVec S_ 32 := constantI S_ 32 32000#32
  let main_v26 : IVec S8x512 32 := broadcastInDim S8x512 ![] bcast_S_S8x512 main_c_9
  let main_v27 : IVec S8x512 1 := cmpi .slt main_arg2 main_v26
  let main_v28 : IVec S8x512 1 := andi main_v25 main_v27
  let main_c_10 : IVec S_ 1 := constantI S_ 1 1#1
  let main_v29 : IVec S_ 1 := (fun x v => Host.reduce IntOp.andi x v reducesTo_S8x512_S_d0_1 h_S_) main_v28 main_c_10
  let main_v30 : IVec S_ 1 := andi main_v23 main_v29
  main_v30

def fn {F : FTy → Type} [FloatOps F] (main_arg0 : FVec F S32000x4096 .f32) (main_arg1 : FVec F S8x512x4096 .f32) (main_arg2 : IVec S8x512 32) (main_arg3 : FVec F S32000 .f32) (main_arg4 : FVec F S32000x4096 .f32) (main_arg5 : FVec F S32000 .f32) : IVec S_ 1 :=
  let main_v0 : FVec F S32000x4096 .f32 := Host.absf main_arg0
  let main_cst : FVec F S_ .f32 := constant S_ .f32 0x7F800000#32
  let main_v1 : FVec F S32000x4096 .f32 := broadcastInDim S32000x4096 ![] bcast_S_S32000x4096 main_cst
  let main_v2 : IVec S32000x4096 1 := cmpf .olt main_v0 main_v1
  let main_c : IVec S_ 1 := constantI S_ 1 1#1
  let main_v3 : IVec S_ 1 := (fun x v => Host.reduce IntOp.andi x v reducesTo_S32000x4096_S_d0_1 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S32000x4096 .f32 := Host.absf main_arg4
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg2 main_arg5 main_v13 main_v16
-- ==== Kernel.lean ====
abbrev S32000x4096 : Shape := ⟨2, ![32000, 4096]⟩
abbrev S8x512x4096 : Shape := ⟨3, ![8, 512, 4096]⟩
abbrev S8x512 : Shape := ⟨2, ![8, 512]⟩
abbrev S32000 : Shape := ⟨1, ![32000]⟩
abbrev S4096x4096 : Shape := ⟨2, ![4096, 4096]⟩
abbrev S1x32000 : Shape := ⟨2, ![1, 32000]⟩
abbrev S4096x1 : Shape := ⟨2, ![4096, 1]⟩
abbrev S2x4096x1 : Shape := ⟨3, ![2, 4096, 1]⟩
abbrev S2048x4096 : Shape := ⟨2, ![2048, 4096]⟩
abbrev S256x4096 : Shape := ⟨2, ![256, 4096]⟩
abbrev S1x256 : Shape := ⟨2, ![1, 256]⟩
abbrev S2048x1 : Shape := ⟨2, ![2048, 1]⟩
abbrev S2x2048x1 : Shape := ⟨3, ![2, 2048, 1]⟩
abbrev S2048x256 : Shape := ⟨2, ![2048, 256]⟩
abbrev S2048 : Shape := ⟨1, ![2048]⟩
abbrev S1x2048x1 : Shape := ⟨3, ![1, 2048, 1]⟩
abbrev S1x4096x1 : Shape := ⟨3, ![1, 4096, 1]⟩
abbrev S4096 : Shape := ⟨1, ![4096]⟩
abbrev S_ : Shape := ⟨0, ![]⟩
abbrev S8 : Shape := ⟨1, ![8]⟩
abbrev S4 : Shape := ⟨1, ![4]⟩
abbrev S4x512 : Shape := ⟨2, ![4, 512]⟩

abbrev nBuf : Space → Nat
  | .hbm => 67
  | .vmem => 18
  | .smem => 0
  | _ => 0

abbrev bufTy : (tb : Table) → Fin (tcTables nBuf tb) → BufTy
  | .hbm, ⟨0, _⟩ => ⟨S32000x4096, .f32⟩
  | .hbm, ⟨1, _⟩ => ⟨S8x512x4096, .f32⟩
  | .hbm, ⟨2, _⟩ => ⟨S8x512, .i32⟩
  | .hbm, ⟨3, _⟩ => ⟨S32000, .f32⟩
  | .hbm, ⟨4, _⟩ => ⟨S32000x4096, .f32⟩
  | .hbm, ⟨5, _⟩ => ⟨S32000, .f32⟩
  | .hbm, ⟨6, _⟩ => ⟨S8x512x4096, .bf16⟩
  | .hbm, ⟨7, _⟩ => ⟨S4096x4096, .bf16⟩
  | .hbm, ⟨8, _⟩ => ⟨S1x32000, .f32⟩
  | .hbm, ⟨9, _⟩ => ⟨S1x32000, .f32⟩
  | .hbm, ⟨10, _⟩ => ⟨S4096x1, .i32⟩
  | .hbm, ⟨11, _⟩ => ⟨S2x4096x1, .f32⟩
  | .hbm, ⟨12, _⟩ => ⟨S1x4096x1, .f32⟩
  | .hbm, ⟨13, _⟩ => ⟨S4096, .f32⟩
  | .hbm, ⟨14, _⟩ => ⟨S8x512, .f32⟩
  | .hbm, ⟨15, _⟩ => ⟨S1x4096x1, .f32⟩
  | .hbm, ⟨16, _⟩ => ⟨S4096, .f32⟩
  | .hbm, ⟨17, _⟩ => ⟨S8x512, .f32⟩
  | .hbm, ⟨18, _⟩ => ⟨S_, .i32⟩
  | .hbm, ⟨19, _⟩ => ⟨S8x512, .i32⟩
  | .hbm, ⟨20, _⟩ => ⟨S8x512, .i1⟩
  | .hbm, ⟨21, _⟩ => ⟨S8x512, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .i1⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S2048x4096, .bf16⟩
  | .local _ .vmem, ⟨1, _⟩ => ⟨S256x4096, .f32⟩
  | .local _ .vmem, ⟨2, _⟩ => ⟨S256x4096, .f32⟩
  | .local _ .vmem, ⟨3, _⟩ => ⟨S1x256, .f32⟩
  | .local _ .vmem, ⟨4, _⟩ => ⟨S1x256, .f32⟩
  | .local _ .vmem, ⟨5, _⟩ => ⟨S256x4096, .f32⟩
  | .local _ .vmem, ⟨6, _⟩ => ⟨S256x4096, .f32⟩
  | .local _ .vmem, ⟨7, _⟩ => ⟨S1x256, .f32⟩
  | .local _ .vmem, ⟨8, _⟩ => ⟨S1x256, .f32⟩
  | .local _ .vmem, ⟨9, _⟩ => ⟨S2048x1, .i32⟩
  | .local _ .vmem, ⟨10, _⟩ => ⟨S2x2048x1, .f32⟩
  | .local _ .vmem, ⟨11, _⟩ => ⟨S2x2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | _, _ => ⟨S32000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v87 : BitVec 1 := Scalar.cmpi .eq arg1 c124_i32
  let v88 : BitVec 32 := Scalar.extui v87
  let c0_i32_49 : BitVec 32 := 0#32
  let v89 : BitVec 1 := Scalar.cmpi .ne v88 c0_i32_49
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S8x512x4096_S4096x4096 : S8x512x4096.ShapeCasts S4096x4096
  shapeCasts_S32000_S1x32000 : S32000.ShapeCasts S1x32000
  shapeCasts_S8x512_S4096x1 : S8x512.ShapeCasts S4096x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  iota_S2048x256_d1_w32 : S2048x256.Iotas .tc 32 [1]
  broadcasts_S2048x1_S2048x256 : S2048x1.Broadcasts S2048x256
  reduces_S2048x256_S2048 : S2048x256.Reduces [1] S2048
  shapeCasts_S2048_S2048x1 : S2048.ShapeCasts S2048x1
  natLt_1_32 : 1 < 32
  inb_S2x2048x1_S1x2048x1_0_0_0 : ∀ a, (![0, 0, 0] : Fin 3 → Nat) a + S1x2048x1.size a ≤ S2x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S2x2048x1_S1x2048x1_1_0_0 : ∀ a, (![1, 0, 0] : Fin 3 → Nat) a + S1x2048x1.size a ≤ S2x2048x1.size a
  slices_S2x4096x1_S1x4096x1_0_0_0 : S2x4096x1.Slices ![0, 0, 0] S1x4096x1
  shapeCasts_S1x4096x1_S4096 : S1x4096x1.ShapeCasts S4096
  shapeCasts_S4096_S8x512 : S4096.ShapeCasts S8x512
  slices_S2x4096x1_S1x4096x1_1_0_0 : S2x4096x1.Slices ![1, 0, 0] S1x4096x1
  bcast_S_S8x512 : S_.BroadcastsInDim S8x512 (![] : Fin 0 → Fin S8x512.rank)
  reducesTo_S8x512_S8_d1 : S8x512.ReducesTo [1] S8
  h_S_ : 0 < S_.numel
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  reducesTo_S4_S_d0 : S4.ReducesTo [0] S_
  bcast_S_S4 : S_.BroadcastsInDim S4 (![] : Fin 0 → Fin S4.rank)
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S4096x4096.size a
  hwx0_0 : ∀ i : grid0.Coords, EltTy.bits .bf16 = 32 ∨ (Rect.block (s := S4096x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .f32 = 32 ∨ (Rect.block (s := S32000x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x32000.size a
  hwx0_2 : ∀ i : grid0.Coords, EltTy.bits .f32 = 32 ∨ (Rect.block (s := S1x32000) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .f32 = 32 ∨ (Rect.block (s := S32000x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x32000.size a
  hwx0_4 : ∀ i : grid0.Coords, EltTy.bits .f32 = 32 ∨ (Rect.block (s := S1x32000) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S4096x1.size a
  hwx0_5 : ∀ i : grid0.Coords, EltTy.bits .i32 = 32 ∨ (Rect.block (s := S4096x1) S2048x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2048x1.size a ≤ S2x4096x1.size a
  hwx0_6 : ∀ i : grid0.Coords, EltTy.bits .f32 = 32 ∨ (Rect.block (s := S2x4096x1) S2x2048x1.size (cc0_transform_6 i) (hinb0_6 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2x2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32000x4096 : Shape := ⟨2, ![32000, 4096]⟩
abbrev S8x512x4096 : Shape := ⟨3, ![8, 512, 4096]⟩
abbrev S8x512 : Shape := ⟨2, ![8, 512]⟩
abbrev S32000 : Shape := ⟨1, ![32000]⟩
abbrev S_ : Shape := ⟨0, ![]⟩
abbrev S8x512x32000 : Shape := ⟨3, ![8, 512, 32000]⟩
abbrev S1x1x32000 : Shape := ⟨3, ![1, 1, 32000]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 146
  | .vmem => 0
  | .smem => 0
  | _ => 0

abbrev hbmTy0_0 (i : Nat) : BufTy := match i % 128 with
  | 0 => ⟨S32000x4096, .f32⟩
  | 1 => ⟨S8x512x4096, .f32⟩
  | 2 => ⟨S8x512, .i32⟩
  | 3 => ⟨S32000, .f32⟩
  | 4 => ⟨S32000x4096, .f32⟩
  | 5 => ⟨S32000, .f32⟩
  | 6 => ⟨S_, .i32⟩
  | 7 => ⟨S8x512, .i32⟩
  | 8 => ⟨S8x512, .i1⟩
  | 9 => ⟨S8x512, .f32⟩
  | 10 => ⟨S8x512x32000, .f32⟩
  | 11 => ⟨S1x1x32000, .f32⟩
  | 12 => ⟨S8x512x32000, .f32⟩
  | 13 => ⟨S8x512x32000, .f32⟩
  | 14 => ⟨S_, .f32⟩
  | 15 => ⟨S8x512, .f32⟩
  | 16 => ⟨S_, .f32⟩
  | 17 => ⟨S8x512, .f32⟩
  | 18 => ⟨S8x512, .f32⟩
  | 19 => ⟨S8x512x1, .f32⟩
  | 20 => ⟨S8x512x32000, .f32⟩
  | 21 => ⟨S8x512x32000, .f32⟩
  | 22 => ⟨S8x512x32000, .f32⟩
  | 23 => ⟨S_, .f32⟩
  | 24 => ⟨S8x512, .f32⟩
  | 25 => ⟨S8x512x1, .f32⟩
  | 26 => ⟨S8x512x1, .f32⟩
  | 27 => ⟨S8x512x32000, .f32⟩
  | 28 => ⟨S8x512x32000, .f32⟩
  | 29 => ⟨S8x512x1, .i32⟩
  | 30 => ⟨S_, .i32⟩
  | 31 => ⟨S8x512x1, .i32⟩
  | 32 => ⟨S8x512x1, .i1⟩
  | 33 => ⟨S_, .i32⟩
  | 34 => ⟨S8x512x1, .i32⟩
  | 35 => ⟨S8x512x1, .i32⟩
  | 36 => ⟨S8x512x1, .i32⟩
  | 37 => ⟨S8x512x1x1, .i32⟩
  | 38 => ⟨S1, .i32⟩
  | 39 => ⟨S_, .i32⟩
  | 40 => ⟨S8x512x1x1, .i32⟩
  | 41 => ⟨S8x512x1x1, .i1⟩
  | 42 => ⟨S1x1x1x1, .i32⟩
  | 43 => ⟨S8x512x1x1, .i32⟩
  | 44 => ⟨S8x512x1x1, .i1⟩
  | 45 => ⟨S8x512x1x1, .i1⟩
  | 46 => ⟨S_, .i1⟩
  | 47 => ⟨S8x512x1, .i1⟩
  | 48 => ⟨S8x512x1, .f32⟩
  | 49 => ⟨S_, .f32⟩
  | 50 => ⟨S8x512x1, .f32⟩
  | 51 => ⟨S8x512x1, .f32⟩
  | 52 => ⟨S8x512, .f32⟩
  | 53 => ⟨S8x512, .f32⟩
  | 54 => ⟨S_, .f32⟩
  | 55 => ⟨S8, .f32⟩
  | 56 => ⟨S4, .f32⟩
  | 57 => ⟨S4, .f32⟩
  | 58 => ⟨S8x512x32000, .f32⟩
  | 59 => ⟨S1x1x32000, .f32⟩
  | 60 => ⟨S8x512x32000, .f32⟩
  | 61 => ⟨S8x512x32000, .f32⟩
  | 62 => ⟨S_, .f32⟩
  | 63 => ⟨S8x512, .f32⟩
  | 64 => ⟨S_, .f32⟩
  | 65 => ⟨S8x512, .f32⟩
  | 66 => ⟨S8x512, .f32⟩
  | 67 => ⟨S8x512x1, .f32⟩
  | 68 => ⟨S8x512x32000, .f32⟩
  | 69 => ⟨S8x512x32000, .f32⟩
  | 70 => ⟨S8x512x32000, .f32⟩
  | 71 => ⟨S_, .f32⟩
  | 72 => ⟨S8x512, .f32⟩
  | 73 => ⟨S8x512x1, .f32⟩
  | 74 => ⟨S8x512x1, .f32⟩
  | 75 => ⟨S8x512x32000, .f32⟩
  | 76 => ⟨S8x512x32000, .f32⟩
  | 77 => ⟨S8x512x1, .i32⟩
  | 78 => ⟨S_, .i32⟩
  | 79 => ⟨S8x512x1, .i32⟩
  | 80 => ⟨S8x512x1, .i1⟩
  | 81 => ⟨S_, .i32⟩
  | 82 => ⟨S8x512x1, .i32⟩
  | 83 => ⟨S8x512x1, .i32⟩
  | 84 => ⟨S8x512x1, .i32⟩
  | 85 => ⟨S8x512x1x1, .i32⟩
  | 86 => ⟨S1, .i32⟩
  | 87 => ⟨S_, .i32⟩
  | 88 => ⟨S8x512x1x1, .i32⟩
  | 89 => ⟨S8x512x1x1, .i1⟩
  | 90 => ⟨S1x1x1x1, .i32⟩
  | 91 => ⟨S8x512x1x1, .i32⟩
  | 92 => ⟨S8x512x1x1, .i1⟩
  | 93 => ⟨S8x512x1x1, .i1⟩
  | 94 => ⟨S_, .i1⟩
  | 95 => ⟨S8x512x1, .i1⟩
  | 96 => ⟨S8x512x1, .f32⟩
  | 97 => ⟨S_, .f32⟩
  | 98 => ⟨S8x512x1, .f32⟩
  | 99 => ⟨S8x512x1, .f32⟩
  | 100 => ⟨S8x512, .f32⟩
  | 101 => ⟨S8x512, .f32⟩
  | 102 => ⟨S_, .f32⟩
  | 103 => ⟨S8, .f32⟩
  | 104 => ⟨S4, .f32⟩
  | 105 => ⟨S4, .f32⟩
  | 106 => ⟨S4x512, .f32⟩
  | 107 => ⟨S_, .f32⟩
  | 108 => ⟨S_, .f32⟩
  | 109 => ⟨S_, .f32⟩
  | 110 => ⟨S_, .f32⟩
  | 111 => ⟨S4x512, .f32⟩
  | 112 => ⟨S4x512, .f32⟩
  | 113 => ⟨S4x512, .f32⟩
  | 114 => ⟨S_, .f32⟩
  | 115 => ⟨S_, .f32⟩
  | 116 => ⟨S_, .f32⟩
  | 117 => ⟨S_, .f32⟩
  | 118 => ⟨S4, .f32⟩
  | 119 => ⟨S4, .f32⟩
  | 120 => ⟨S4, .f32⟩
  | 121 => ⟨S_, .f32⟩
  | 122 => ⟨S4, .f32⟩
  | 123 => ⟨S4, .f32⟩
  | 124 => ⟨S4, .f32⟩
  | 125 => ⟨S_, .f32⟩
  | 126 => ⟨S4, .f32⟩
  | 127 => ⟨S4, .f32⟩
  | _ => ⟨S32000x4096, .f32⟩

abbrev hbmTy0_1 (i : Nat) : BufTy := match i % 128 with
  | 0 => ⟨S4, .f32⟩
  | 1 => ⟨S4, .f32⟩
  | 2 => ⟨S4, .i1⟩
  | 3 => ⟨S4, .f32⟩
  | 4 => ⟨S4, .f32⟩
  | 5 => ⟨S4, .f32⟩
  | 6 => ⟨S4, .f32⟩
  | 7 => ⟨S4, .f32⟩
  | 8 => ⟨S4, .f32⟩
  | 9 => ⟨S4, .f32⟩
  | 10 => ⟨S4, .f32⟩
  | 11 => ⟨S4, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S32000x4096, .f32⟩

abbrev hbmTy (i : Nat) : BufTy := match i / 128 with
  | 0 => hbmTy0_0 i
  | 1 => hbmTy0_1 i
  | _ => ⟨S32000x4096, .f32⟩

abbrev bufTy : (tb : Table) → Fin (tcTables nBuf tb) → BufTy
  | .hbm, ⟨i, _⟩ => hbmTy i
  | _, _ => ⟨S32000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v7 : Ref sig .tc := ⟨.hbm, 28, rfl⟩
abbrev main_v8 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call2_cst : Ref sig .tc := ⟨.hbm, 62, rfl⟩
abbrev main_call2_v0 : Ref sig .tc := ⟨.hbm, 63, rfl⟩
abbrev main_call2_cst_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_cst_1 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_v19 : Ref sig .tc := ⟨.hbm, 76, rfl⟩
abbrev main_v20 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_0 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_cst_1 : Ref sig .tc := ⟨.hbm, 107, rfl⟩
abbrev main_v28 : Ref sig .tc := ⟨.hbm, 108, rfl⟩
abbrev main_cst_2 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_cst_3 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_4 : Ref sig .tc := ⟨.hbm, 121, rfl⟩
abbrev main_v39 : Ref sig .tc := ⟨.hbm, 122, rfl⟩
abbrev main_v40 : Ref sig .tc := ⟨.hbm, 123, rfl⟩
abbrev main_call4_v0 : Ref sig .tc := ⟨.hbm, 124, rfl⟩
abbrev main_call4_call0_cst : Ref sig .tc := ⟨.hbm, 125, rfl⟩
abbrev main_call4_call0_v0 : Ref sig .tc := ⟨.hbm, 126, rfl⟩
abbrev main_call4_call0_v1 : Ref sig .tc := ⟨.hbm, 127, rfl⟩
abbrev main_call4_call0_v2 : Ref sig .tc := ⟨.hbm, 128, rfl⟩
abbrev main_call4_call0_v3 : Ref sig .tc := ⟨.hbm, 129, rfl⟩
abbrev main_call4_call0_v4 : Ref sig .tc := ⟨.hbm, 130, rfl⟩
abbrev main_call4_call0_v5 : Ref sig .tc := ⟨.hbm, 131, rfl⟩
abbrev main_call4_call0_v6 : Ref sig .tc := ⟨.hbm, 132, rfl⟩
abbrev main_call4_call0_v7 : Ref sig .tc := ⟨.hbm, 133, rfl⟩
abbrev main_call4_call0_v8 : Ref sig .tc := ⟨.hbm, 134, rfl⟩
abbrev main_call4_call0_v9 : Ref sig .tc := ⟨.hbm, 135, rfl⟩
abbrev main_call4_call0_v10 : Ref sig .tc := ⟨.hbm, 136, rfl⟩
abbrev main_call4_call0_v11 : Ref sig .tc := ⟨.hbm, 137, rfl⟩
abbrev main_call4_v1 : Ref sig .tc := ⟨.hbm, 138, rfl⟩
abbrev main_v41 : Ref sig .tc := ⟨.hbm, 139, rfl⟩
abbrev main_cst_5 : Ref sig .tc := ⟨.hbm, 140, rfl⟩
abbrev main_v42 : Ref sig .tc := ⟨.hbm, 141, rfl⟩
abbrev main_v43 : Ref sig .tc := ⟨.hbm, 142, rfl⟩
abbrev main_cst_6 : Ref sig .tc := ⟨.hbm, 143, rfl⟩
abbrev main_v44 : Ref sig .tc := ⟨.hbm, 144, rfl⟩
abbrev main_v45 : Ref sig .tc := ⟨.hbm, 145, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S32000_S1x1x32000_2 : S32000.BroadcastsInDim S1x1x32000 (![2] : Fin 1 → Fin S1x1x32000.rank)
  bcast_S1x1x32000_S8x512x32000_0_1_2 : S1x1x32000.BroadcastsInDim S8x512x32000 (![0, 1, 2] : Fin 3 → Fin S8x512x32000.rank)
  reducesTo_S8x512x32000_S8x512_d2 : S8x512x32000.ReducesTo [2] S8x512
  h_S_ : 0 < S_.numel
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  bcast_S_S4 : S_.BroadcastsInDim S4 (![] : Fin 0 → Fin S4.rank)
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.TokenLogProb.lean ====
/-
  What both programs compute for one token, stated once over the extended reals and with no program in sight.

  A token is a row x of 4096 hidden features. Against a model (W, B), that is 32000 class rows of 4096 weights
  and a bias per class, its logits are a v = <x, W v> + B v, and its log-probability at the target class g is
  the log-softmax of the logits there: a g - log (sum over v of exp (a v)). When every input is a real number
  the logits are real and so is this value; tokLogp states it through EReal.toReal, so that it is one total
  function of the arrays. Both programs shift the logits before exponentiating (by the row maximum, or by a
  running maximum started at a large negative number); the value does not depend on the shift.
-/
import Idealize.ShloMosaic.PureOps.Ideal
import Idealize.ShloMosaic.Lib.ValueIdx

noncomputable section

namespace Cert.Dpo

open Idealize.ShloMosaic

/-- The shapes of the argument arrays and of a per-token array. -/
abbrev ShW : Shape := ⟨2, ![32000, 4096]⟩
abbrev ShX : Shape := ⟨3, ![8, 512, 4096]⟩
abbrev ShT : Shape := ⟨2, ![8, 512]⟩
abbrev ShB : Shape := ⟨1, ![32000]⟩

/-- An extended real that is a real number. -/
def IsReal (x : EReal) : Prop := ∃ r : ℝ, x = (r : EReal)

/-- The logit of the token with features x against class v of the model (W, B): the inner product of x with
    the class row, plus the class bias. -/
def logit (x : Fin 4096 → EReal) (W : Fin 32000 → Fin 4096 → EReal) (B : Fin 32000 → EReal) (v : Fin 32000) : EReal :=
  (∑ h : Fin 4096, x h * W v h) + B v

/-- The log-softmax of a real vector at class j: r j - log (sum over v of exp (r v)). -/
def logSoftmax (r : Fin 32000 → ℝ) (j : Fin 32000) : ℝ := r j - Real.log (∑ v : Fin 32000, Real.exp (r v))

/-- A token's log-probability at class g under the model (W, B): the log-softmax of its logits at g. -/
def tokLogp (x : Fin 4096 → EReal) (W : Fin 32000 → Fin 4096 → EReal) (B : Fin 32000 → EReal) (g : Fin 32000) : EReal :=
  ((logSoftmax (fun v => (logit x W B v).toReal) g : ℝ) : EReal)

/-- The class a target word names: its value as a natural number, reduced into the class range (under the
    precondition a target is already in range, and this is its value). -/
def classOf (w : BitVec 32) : Fin 32000 := ⟨w.toNat % 32000, Nat.mod_lt _ (by decide)⟩

/-- The per-token log-probabilities as an 8 by 512 array: token (b, t) has features X (b, t, .), target
    tgt (b, t), and is scored against the model (W, B). -/
def tokArr (X : ShX.Idx → EReal) (W : ShW.Idx → EReal) (B : ShB.Idx → EReal) (tgt : ShT.Idx → BitVec 32) : ShT.Idx → EReal :=
  fun i => tokLogp (fun h => X (ValueIdx.ix3 (i 0) (i 1) h)) (fun v h => W (ValueIdx.ix2 v h)) (fun v => B (ValueIdx.ix1 v))
    (classOf (tgt i))

/-- The array the kernel's one region leaves: plane 0 holds the policy model's per-token log-probabilities,
    plane 1 the reference model's, token (b, t) at row 512 * b + t. -/
def regionOut (X : ShX.Idx → EReal) (W : ShW.Idx → EReal) (B : ShB.Idx → EReal) (Wr : ShW.Idx → EReal) (Br : ShB.Idx → EReal)
    (tgt : ShT.Idx → BitVec 32) : (⟨3, ![2, 4096, 1]⟩ : Shape).Idx → EReal :=
  fun i =>
    if (i 0).val = 0 then
      tokArr X W B tgt (ValueIdx.ix2 ⟨(i 1).val / 512, by have h : (i 1).val < 4096 := (i 1).isLt; omega⟩ ⟨(i 1).val % 512, Nat.mod_lt _ (by decide)⟩)
    else
      tokArr X Wr Br tgt (ValueIdx.ix2 ⟨(i 1).val / 512, by have h : (i 1).val < 4096 := (i 1).isLt; omega⟩ ⟨(i 1).val % 512, Nat.mod_lt _ (by decide)⟩)

/-- What the precondition gives: every float input is a real number and every target is a class. -/
structure Good (X : ShX.Idx → EReal) (W : ShW.Idx → EReal) (B : ShB.Idx → EReal) (Wr : ShW.Idx → EReal) (Br : ShB.Idx → EReal)
    (tgt : ShT.Idx → BitVec 32) : Prop where
  realX : ∀ i, IsReal (X i)
  realW : ∀ i, IsReal (W i)
  realB : ∀ i, IsReal (B i)
  realWr : ∀ i, IsReal (Wr i)
  realBr : ∀ i, IsReal (Br i)
  tgtLt : ∀ i, (tgt i).toNat < 32000

end Cert.Dpo

end
-- ==== Proof.PreFacts.lean ====
/-
  The precondition, read back as facts about the arrays.

  The precondition tests, for each of the five float arrays, that every element x has |x| < +∞, and for the
  target array that every word is at least 0 and below 32000 as a signed number, and answers the conjunction of
  all of these. An extended real with max x (-x) < +∞ is neither infinity, so it is a real number; a 32-bit word
  in [0, 32000) signed has the same value unsigned. So where the precondition answers 1, every float input is a
  real number and every target is a class.
-/
import proofs.«414215_j57698590654887_3_alg».proof.Pre_finite_inputs
import proofs.«414215_j57698590654887_3_alg».proof.Proof.TokenLogProb
import Idealize.ShloMosaic.Lib.ReduceAll
import Idealize.ShloMosaic.Lib.StableHlo.Predicate

noncomputable section

namespace Cert.Dpo

open Idealize.ShloMosaic
open Cert.Pre_finite_inputs (S_ S32000x4096 S8x512x4096 S8x512 S32000)

/-- The rank-0 shape has exactly one index. -/
instance : Subsingleton S_.Idx := ⟨fun a b => funext fun d => d.elim0⟩

/-- The single-precision pattern with all exponent bits set and no fraction bit denotes +∞. -/
theorem ofBits_f32_inf : Ideal.ofBits .f32 0x7F800000#32 = (⊤ : EReal) := by
  simp [Ideal.ofBits, Ideal.ieee]

/-- An extended real whose absolute value max x (-x) lies below +∞ is neither infinity: it is a real number. -/
theorem isReal_of_abs_lt_top (x : EReal) (h : max x (-x) < ⊤) : IsReal x := by
  induction x using EReal.rec with
  | bot => simp at h
  | coe r => exact ⟨r, rfl⟩
  | top => simp at h

/-- One element of the test |a| < +∞: where it answers 1, the element is a real number. -/
theorem isReal_of_finite_elem {s : Shape} (a : FVec Ideal s .f32)
    (hb : S_.BroadcastsInDim s (![] : Fin 0 → Fin s.rank)) (i : s.Idx)
    (h : cmpf .olt (Host.absf a) (broadcastInDim s ![] hb (constant (F := Ideal) S_ .f32 0x7F800000#32)) i = 1#1) :
    IsReal (a i) := by
  have h' : BitVec.ofBool (decide (max (a i) (-(a i)) < Ideal.ofBits .f32 0x7F800000#32)) = 1#1 := h
  rw [ofBits_f32_inf, StableHlo.Predicate.ofBool_eq_one_iff, decide_eq_true_eq] at h'
  exact isReal_of_abs_lt_top _ h'

/-- A 32-bit word that is at least 0 and below 32000 as a signed number has a value below 32000. -/
theorem toNat_lt_of_signed_range (w : BitVec 32) (h0 : IntOp.cmpi .sge w 0#32 = 1#1)
    (h1 : IntOp.cmpi .slt w 32000#32 = 1#1) : w.toNat < 32000 := by
  have h0' : (0#32 : BitVec 32).sle w = true := (StableHlo.Predicate.ofBool_eq_one_iff _).1 h0
  have h1' : w.slt 32000#32 = true := (StableHlo.Predicate.ofBool_eq_one_iff _).1 h1
  simp only [BitVec.sle, BitVec.slt, decide_eq_true_eq] at h0' h1'
  have hw := w.isLt
  have z0 : (0#32 : BitVec 32).toInt = 0 := by decide
  have z1 : (32000#32 : BitVec 32).toInt = 32000 := by decide
  rw [z0, BitVec.toInt_eq_toNat_cond] at h0'
  rw [z1, BitVec.toInt_eq_toNat_cond] at h1'
  split at h0' <;> omega

/-- The precondition read back: where it answers 1, every float input is a real number and every target word
    is a class. -/
theorem good_of_pre [Cert.Pre_finite_inputs.Facts]
    (a0 : FVec Ideal Cert.Pre_finite_inputs.S32000x4096 .f32) (a1 : FVec Ideal Cert.Pre_finite_inputs.S8x512x4096 .f32)
    (a2 : IVec Cert.Pre_finite_inputs.S8x512 32) (a3 : FVec Ideal Cert.Pre_finite_inputs.S32000 .f32)
    (a4 : FVec Ideal Cert.Pre_finite_inputs.S32000x4096 .f32) (a5 : FVec Ideal Cert.Pre_finite_inputs.S32000 .f32)
    (h : Cert.Pre_finite_inputs.fn (F := Ideal) a0 a1 a2 a3 a4 a5 = fun _ => 1#1) :
    Cert.Dpo.Good a1 a0 a3 a4 a5 a2 := by
  have e := congrFun h ValueIdx.ix0
  unfold Cert.Pre_finite_inputs.fn Cert.Pre_finite_inputs.fn_part1 at e
  dsimp only at e
  simp only [andi, IntOp.andi_eq_one] at e
  obtain ⟨⟨⟨⟨⟨e0, e1⟩, e3⟩, e4⟩, e5⟩, e2⟩ := e
  refine ⟨fun i => ?_, fun i => ?_, fun i => ?_, fun i => ?_, fun i => ?_, fun i => ?_⟩
  · exact isReal_of_finite_elem a1 _ i (Host.reduce_andi_all _ _ _ _ _ e1 i)
  · exact isReal_of_finite_elem a0 _ i (Host.reduce_andi_all _ _ _ _ _ e0 i)
  · exact isReal_of_finite_elem a3 _ i (Host.reduce_andi_all _ _ _ _ _ e3 i)
  · exact isReal_of_finite_elem a4 _ i (Host.reduce_andi_all _ _ _ _ _ e4 i)
  · exact isReal_of_finite_elem a5 _ i (Host.reduce_andi_all _ _ _ _ _ e5 i)
  · have hi := Host.reduce_andi_all _ _ _ _ _ e2 i
    simp only [andi, IntOp.andi_eq_one] at hi
    exact toNat_lt_of_signed_range (a2 i) hi.1 hi.2

end Cert.Dpo

end
-- ==== Proof.KernelPieces.lean ====
import proofs.«414215_j57698590654887_3_alg».proof.Proof.Gen.KernelIdeal.Frame
import Idealize.ShloMosaic.Lib.Pipeline.Value
import Idealize.ShloMosaic.Lib.ValueIdx
import Idealize.ShloMosaic.Lib.Tactic

/-! What each control case of the kernel leaves in its six carried accumulators and in the output block,
    as compositions of the kernel's pure payloads: the running maximum, the running sum of exponentials and the
    running target logit of the policy and of the reference model, each updated from the value the point starts from. -/

set_option maxRecDepth 16384

noncomputable section

namespace Cert.KernelIdeal.Pieces

open Idealize.ShloMosaic Idealize.ShloMosaic.TcCoe Idealize.ShloMosaic.Tactic
open Idealize.SL Idealize.SL.Sem
open Cert.KernelIdeal.Gen

variable {F : FTy → Type} [FloatOps F]

/-- The zero offsets of a rank-two block, however spelt. -/
theorem hz2 : (![0, 0] : Fin 2 → Nat) = fun _ => 0 := funext fun a => by fin_cases a <;> rfl

/-- At a first chunk (the six accumulators are reset, then updated), the running maximum of the policy logits after the point is the update of the value the point starts from (the reset constant) by the chunk. -/
theorem sA_0 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_0 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay20 (k0_pay18 x0 x1 x2 k0_pay7) := by
  unfold Gen.sout0_A_0
  rw [View.read_writes_eq_canon _ _ _ (Gen.scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At a first chunk (the six accumulators are reset, then updated), the running sum of exponentials of the policy logits after the point is the update of the value the point starts from (the reset constant) by the chunk. -/
theorem sA_1 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_1 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay19 (k0_pay14 x0 x1 x2) (k0_pay18 x0 x1 x2 k0_pay7) k0_pay7 k0_pay8 := by
  unfold Gen.sout0_A_1
  rw [View.read_writes_eq_canon _ _ _ (Gen.scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At a first chunk (the six accumulators are reset, then updated), the running target logit of the policy after the point is the update of the value the point starts from (the reset constant) by the chunk. -/
theorem sA_2 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_2 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay21 (k0_pay17 i x0 x1 x2 x5) k0_pay9 := by
  unfold Gen.sout0_A_2
  rw [View.read_writes_eq_canon _ _ _ (Gen.scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At a first chunk (the six accumulators are reset, then updated), the running maximum of the reference logits after the point is the update of the value the point starts from (the reset constant) by the chunk. -/
theorem sA_3 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_3 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay2 (k0_pay23 (k0_pay15 x0 x3 x4) k0_pay10) := by
  unfold Gen.sout0_A_3
  rw [View.read_writes_eq_canon _ _ _ (Gen.scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At a first chunk (the six accumulators are reset, then updated), the running sum of exponentials of the reference logits after the point is the update of the value the point starts from (the reset constant) by the chunk. -/
theorem sA_4 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_4 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay1 (k0_pay15 x0 x3 x4) (k0_pay23 (k0_pay15 x0 x3 x4) k0_pay10) (k0_pay24 (k0_pay15 x0 x3 x4) k0_pay10 k0_pay10 k0_pay11) := by
  unfold Gen.sout0_A_4
  rw [View.read_writes_eq_canon _ _ _ (Gen.scover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At a first chunk (the six accumulators are reset, then updated), the running target logit of the reference model after the point is the update of the value the point starts from (the reset constant) by the chunk. -/
theorem sA_5 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) :
    Gen.sout0_A_5 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 =
      k0_pay3 (k0_pay22 (k0_pay15 x0 x3 x4) (k0_pay16 i x5)) k0_pay12 := by
  unfold Gen.sout0_A_5
  rw [View.read_writes_eq_canon _ _ _ (Gen.scover0_A_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5)]
  unfold Gen.kernelRun0_A
  dsimp only
  sl_unfold_words
  rw [View.canon_cons_unit_zero (S := S2048x1) hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]

/-- At an inner chunk, the running maximum of the policy logits after the point is the update of the value the point starts from by the chunk. -/
theorem sB_0 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_0 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay20 (k0_pay18 x0 x1 x2 xs0) := by
  unfold Gen.sout0_B_0
  rw [View.read_writes_eq_canon _ _ _ (Gen.scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At an inner chunk, the running sum of exponentials of the policy logits after the point is the update of the value the point starts from by the chunk. -/
theorem sB_1 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_1 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay19 (k0_pay14 x0 x1 x2) (k0_pay18 x0 x1 x2 xs0) xs0 xs1 := by
  unfold Gen.sout0_B_1
  rw [View.read_writes_eq_canon _ _ _ (Gen.scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At an inner chunk, the running target logit of the policy after the point is the update of the value the point starts from by the chunk. -/
theorem sB_2 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_2 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay21 (k0_pay17 i x0 x1 x2 x5) xs2 := by
  unfold Gen.sout0_B_2
  rw [View.read_writes_eq_canon _ _ _ (Gen.scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At an inner chunk, the running maximum of the reference logits after the point is the update of the value the point starts from by the chunk. -/
theorem sB_3 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_3 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay2 (k0_pay23 (k0_pay15 x0 x3 x4) xs3) := by
  unfold Gen.sout0_B_3
  rw [View.read_writes_eq_canon _ _ _ (Gen.scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At an inner chunk, the running sum of exponentials of the reference logits after the point is the update of the value the point starts from by the chunk. -/
theorem sB_4 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_4 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay1 (k0_pay15 x0 x3 x4) (k0_pay23 (k0_pay15 x0 x3 x4) xs3) (k0_pay24 (k0_pay15 x0 x3 x4) xs3 xs3 xs4) := by
  unfold Gen.sout0_B_4
  rw [View.read_writes_eq_canon _ _ _ (Gen.scover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At an inner chunk, the running target logit of the reference model after the point is the update of the value the point starts from by the chunk. -/
theorem sB_5 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : ¬cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_B_5 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay3 (k0_pay22 (k0_pay15 x0 x3 x4) (k0_pay16 i x5)) xs5 := by
  unfold Gen.sout0_B_5
  rw [View.read_writes_eq_canon _ _ _ (Gen.scover0_B_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running maximum of the policy logits after the point is the update of the value the point starts from by the chunk. -/
theorem sC_0 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_0 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay20 (k0_pay18 x0 x1 x2 xs0) := by
  unfold Gen.sout0_C_0
  rw [View.read_writes_eq_canon _ _ _ (Gen.scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running sum of exponentials of the policy logits after the point is the update of the value the point starts from by the chunk. -/
theorem sC_1 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_1 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay19 (k0_pay14 x0 x1 x2) (k0_pay18 x0 x1 x2 xs0) xs0 xs1 := by
  unfold Gen.sout0_C_1
  rw [View.read_writes_eq_canon _ _ _ (Gen.scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running target logit of the policy after the point is the update of the value the point starts from by the chunk. -/
theorem sC_2 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_2 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay21 (k0_pay17 i x0 x1 x2 x5) xs2 := by
  unfold Gen.sout0_C_2
  rw [View.read_writes_eq_canon _ _ _ (Gen.scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running maximum of the reference logits after the point is the update of the value the point starts from by the chunk. -/
theorem sC_3 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_3 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay2 (k0_pay23 (k0_pay15 x0 x3 x4) xs3) := by
  unfold Gen.sout0_C_3
  rw [View.read_writes_eq_canon _ _ _ (Gen.scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running sum of exponentials of the reference logits after the point is the update of the value the point starts from by the chunk. -/
theorem sC_4 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_4 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay1 (k0_pay15 x0 x3 x4) (k0_pay23 (k0_pay15 x0 x3 x4) xs3) (k0_pay24 (k0_pay15 x0 x3 x4) xs3 xs3 xs4) := by
  unfold Gen.sout0_C_4
  rw [View.read_writes_eq_canon _ _ _ (Gen.scover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- At a last chunk, the running target logit of the reference model after the point is the update of the value the point starts from by the chunk. -/
theorem sC_5 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) :
    Gen.sout0_C_5 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 =
      k0_pay3 (k0_pay22 (k0_pay15 x0 x3 x4) (k0_pay16 i x5)) xs5 := by
  unfold Gen.sout0_C_5
  rw [View.read_writes_eq_canon _ _ _ (Gen.scover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2]

/-- A block of two planes written plane by plane (plane 1 last, plane 0 before it) holds, at plane `p` and row `r`,
    the written plane's entry at row `r`: the two rectangles are the two planes, disjoint and covering. -/
theorem canon_two_planes (P0 P1 : Vec F S1x2048x1 .f32) (p : Fin 2) (r : Fin 2048) :
    View.canon (Val := Elt F)
        [(⟨Rect.unit (s := S2x2048x1) ![1, 0, 0] S1x2048x1.size inb_S2x2048x1_S1x2048x1_1_0_0, P1⟩ : View.Piece (Elt F) S2x2048x1 .f32),
         (⟨Rect.unit (s := S2x2048x1) ![0, 0, 0] S1x2048x1.size inb_S2x2048x1_S1x2048x1_0_0_0, P0⟩ : View.Piece (Elt F) S2x2048x1 .f32)]
        (ValueIdx.ix3 p r 0) =
      (if p.val = 0 then P0 else P1) (ValueIdx.ix3 0 r 0) := by
  match p with
  | ⟨1, _⟩ =>
    have e : (ValueIdx.ix3 (⟨1, by omega⟩ : Fin 2) r (0 : Fin 1) : S2x2048x1.Idx) =
        (Rect.unit (s := S2x2048x1) ![1, 0, 0] S1x2048x1.size inb_S2x2048x1_S1x2048x1_1_0_0).emb (ValueIdx.ix3 (0 : Fin 1) r (0 : Fin 1)) := by
      funext a
      refine Fin.ext ?_
      rw [Rect.emb_apply]
      match a with
      | ⟨0, _⟩ => rfl
      | ⟨1, _⟩ => simp
      | ⟨2, _⟩ => rfl
    rw [e, View.canon_cons_emb]
    rfl
  | ⟨0, _⟩ =>
    have hn : (ValueIdx.ix3 (⟨0, by omega⟩ : Fin 2) r (0 : Fin 1) : S2x2048x1.Idx) ∉
        (Rect.unit (s := S2x2048x1) ![1, 0, 0] S1x2048x1.size inb_S2x2048x1_S1x2048x1_1_0_0).set := by
      rw [Rect.mem_set_unit]
      intro h
      have h0 : (1 : Nat) ≤ 0 := (h (0 : Fin 3)).1
      exact Nat.not_succ_le_zero 0 h0
    have e : (ValueIdx.ix3 (⟨0, by omega⟩ : Fin 2) r (0 : Fin 1) : S2x2048x1.Idx) =
        (Rect.unit (s := S2x2048x1) ![0, 0, 0] S1x2048x1.size inb_S2x2048x1_S1x2048x1_0_0_0).emb (ValueIdx.ix3 (0 : Fin 1) r (0 : Fin 1)) := by
      funext a
      refine Fin.ext ?_
      rw [Rect.emb_apply]
      match a with
      | ⟨0, _⟩ => rfl
      | ⟨1, _⟩ => simp
      | ⟨2, _⟩ => rfl
    rw [View.canon_cons_of_not_mem
      (⟨Rect.unit (s := S2x2048x1) ![1, 0, 0] S1x2048x1.size inb_S2x2048x1_S1x2048x1_1_0_0, P1⟩ : View.Piece (Elt F) S2x2048x1 .f32)
      [(⟨Rect.unit (s := S2x2048x1) ![0, 0, 0] S1x2048x1.size inb_S2x2048x1_S1x2048x1_0_0_0, P0⟩ : View.Piece (Elt F) S2x2048x1 .f32)] hn,
      e, View.canon_cons_emb]
    rfl

/-- At a last chunk the output block holds, in plane 0, the masked log-probability of the target under the policy
    (target logit minus the log-sum-exp rebuilt from the updated maximum and sum), and in plane 1 the same for the reference model. -/
theorem oC_6 (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S1x256 .f32) (harg4 : arg4.IsWhole) (arg5 : Memref sig .tc .vmem S256x4096 .f32) (harg5 : arg5.IsWhole) (arg6 : Memref sig .tc .vmem S1x256 .f32) (harg6 : arg6.IsWhole) (arg7 : Memref sig .tc .vmem S2048x1 .i32) (harg7 : arg7.IsWhole) (arg8 : Memref sig .tc .vmem S2x2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (arg13 : Memref sig .tc .vmem S2048x1 .f32) (harg13 : arg13.IsWhole) (arg14 : Memref sig .tc .vmem S2048x1 .f32) (harg14 : arg14.IsWhole) (hc0 : ¬cond0_0 i) (hc1 : cond0_1 i)
    (x0 : Vec F S2048x4096 .bf16) (x1 : Vec F S256x4096 .f32) (x2 : Vec F S1x256 .f32) (x3 : Vec F S256x4096 .f32) (x4 : Vec F S1x256 .f32) (x5 : Vec F S2048x1 .i32) (xs0 : Vec F S2048x1 .f32) (xs1 : Vec F S2048x1 .f32) (xs2 : Vec F S2048x1 .f32) (xs3 : Vec F S2048x1 .f32) (xs4 : Vec F S2048x1 .f32) (xs5 : Vec F S2048x1 .f32) (p : Fin 2) (r : Fin 2048) :
    Gen.out0_C_6 (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5 (ValueIdx.ix3 p r 0) =
      (if p.val = 0 then
        k0_pay5 x5 (k0_pay21 (k0_pay17 i x0 x1 x2 x5) xs2) (k0_pay20 (k0_pay18 x0 x1 x2 xs0)) (k0_pay19 (k0_pay14 x0 x1 x2) (k0_pay18 x0 x1 x2 xs0) xs0 xs1)
      else
        k0_pay6 x5 (k0_pay3 (k0_pay22 (k0_pay15 x0 x3 x4) (k0_pay16 i x5)) xs5) (k0_pay2 (k0_pay23 (k0_pay15 x0 x3 x4) xs3)) (k0_pay1 (k0_pay15 x0 x3 x4) (k0_pay23 (k0_pay15 x0 x3 x4) xs3) (k0_pay24 (k0_pay15 x0 x3 x4) xs3 xs3 xs4))) (ValueIdx.ix3 0 r 0) := by
  unfold Gen.out0_C_6
  rw [View.read_writes_eq_canon _ _ _ (Gen.cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xs0 xs1 xs2 xs3 xs4 xs5)]
  unfold Gen.kernelRun0_C
  dsimp only
  sl_unfold_words
  simp only [View.readAt_eq_ld, harg2.read_unread, harg3.read_unread, harg4.read_unread, harg5.read_unread, harg6.read_unread, harg7.read_unread, harg9.read_unread, harg10.read_unread, harg11.read_unread, harg12.read_unread, harg13.read_unread, harg14.read_unread, View.ld_unit_zero (S := S2048x4096) hz2, View.ld_unit_zero (S := S256x4096) hz2, View.ld_unit_zero (S := S1x256) hz2, View.ld_unit_zero (S := S2048x1) hz2, View.readCov_unit_zero (S := S2048x1) _ hz2]
  exact canon_two_planes _ _ p r

end Cert.KernelIdeal.Pieces

end
-- ==== Proof.LibOnlineLogSumExp.lean ====
/-
  The online log-sum-exp recurrence, as pure mathematics on the extended reals.

  A row of 32000 real logits r is consumed in 125 chunks of 256. The running state is a triple
  (m, l, t): m the running maximum (started at any real number), l the sum of exp (r c - m) over the classes
  seen so far, t the logit of the target class if it has been seen and 0 otherwise. A chunk updates
  m' = max m (chunk maximum), l' = exp (m - m') * l + (sum over the chunk of exp (r c - m')), and adds to t the
  chunk's logit at the target class, if the target lies in the chunk. Rescaling by exp (m - m') turns a sum
  shifted by m into the same sum shifted by m', so after the last chunk l is the full sum shifted by the
  final m, and t - (m + log l) is the log-softmax of r at the target: the shift cancels, whatever it is.
-/
import proofs.«414215_j57698590654887_3_alg».proof.Proof.TokenLogProb

noncomputable section

namespace Cert.Dpo

open Idealize.ShloMosaic

/-- One chunk's update of the running (maximum, shifted sum, target logit) triple; chunk j holds the classes
    256 * j + k for k < 256, and g is the target class. -/
def chunkStep (a : ℕ → EReal) (g : ℕ) (j : ℕ) (s : EReal × EReal × EReal) : EReal × EReal × EReal :=
  let m' := max s.1 ((Finset.univ : Finset (Fin 256)).fold max (⊥ : EReal) (fun k => a (256 * j + k.val)))
  (m', Ideal.exp (s.1 - m') * s.2.1 + ∑ k : Fin 256, Ideal.exp (a (256 * j + k.val) - m'),
    s.2.2 + ∑ k : Fin 256, (if 256 * j + k.val = g then a (256 * j + k.val) else 0))

/-- The running triple after the first j chunks, from the running maximum m0 and empty sums. -/
def onlineState (a : ℕ → EReal) (g : ℕ) (m0 : EReal) : ℕ → EReal × EReal × EReal
  | 0 => (m0, 0, 0)
  | j + 1 => chunkStep a g j (onlineState a g m0 j)

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A one-hot choice between a real number and zero is the coercion of the same choice made among the reals. -/
theorem coe_ite_zero (p : Prop) [Decidable p] (x : ℝ) :
    (if p then ((x : ℝ) : EReal) else 0) = (((if p then x else 0) : ℝ) : EReal) := by
  split_ifs <;> simp

/-- The coercion of the reals into the extended reals is monotone, so it commutes with the maximum. -/
theorem coe_max_real (x y : ℝ) : ((max x y : ℝ) : EReal) = max (x : EReal) (y : EReal) :=
  EReal.coe_strictMono.monotone.map_max

/-- The maximum of two real numbers is one of them, hence real. -/
theorem max_isReal {x y : EReal} (hx : IsReal x) (hy : IsReal y) : IsReal (max x y) := by
  rcases max_choice x y with h | h <;> rw [h] <;> assumption

/-- The maximum of a nonempty finite family of real numbers, folded from the bottom element, is real. -/
theorem fold_max_bot_isReal_of_nonempty {ι : Type*} (s : Finset ι) (hs : s.Nonempty) (r : ι → ℝ) :
    IsReal (s.fold max (⊥ : EReal) (fun k => ((r k : ℝ) : EReal))) := by
  classical
  induction hs using Finset.Nonempty.cons_induction with
  | singleton a =>
    rw [Finset.fold_singleton, max_bot_right]
    exact ⟨r a, rfl⟩
  | cons a s ha hs ih =>
    rw [Finset.fold_cons]
    exact max_isReal ⟨r a, rfl⟩ ih

/-- The maximum of finitely many real numbers, folded from the bottom element over a nonempty index type or
    from a real start, is a real number. -/
theorem fold_max_bot_isReal {n : ℕ} (hn : 0 < n) (r : Fin n → ℝ) :
    IsReal ((Finset.univ : Finset (Fin n)).fold max (⊥ : EReal) (fun k => ((r k : ℝ) : EReal))) :=
  fold_max_bot_isReal_of_nonempty _ ⟨⟨0, hn⟩, Finset.mem_univ _⟩ r

/-- Shifting every exponent by s multiplies a sum of exponentials by exp (-s), so
    s + log (sum of exp (r v - s)) = log (sum of exp (r v)). -/
theorem real_log_sum_exp_shift {ι : Type*} (t : Finset ι) (ht : t.Nonempty) (r : ι → ℝ) (s : ℝ) :
    s + Real.log (∑ v ∈ t, Real.exp (r v - s)) = Real.log (∑ v ∈ t, Real.exp (r v)) := by
  have hS : 0 < ∑ v ∈ t, Real.exp (r v) := Finset.sum_pos (fun v _ => Real.exp_pos _) ht
  have h1 : ∑ v ∈ t, Real.exp (r v - s) = Real.exp (-s) * ∑ v ∈ t, Real.exp (r v) := by
    rw [Finset.mul_sum]
    refine Finset.sum_congr rfl (fun v _ => ?_)
    rw [← Real.exp_add]
    congr 1
    ring
  rw [h1, Real.log_mul (Real.exp_pos _).ne' hS.ne', Real.log_exp]
  ring

/-- Rescaling a sum of exponentials shifted by M by the factor exp (M - M') shifts it by M' instead. -/
theorem real_rescale_sum_exp {ι : Type*} (t : Finset ι) (r : ι → ℝ) (M M' : ℝ) :
    Real.exp (M - M') * ∑ c ∈ t, Real.exp (r c - M) = ∑ c ∈ t, Real.exp (r c - M') := by
  rw [Finset.mul_sum]
  refine Finset.sum_congr rfl (fun c _ => ?_)
  rw [← Real.exp_add]
  congr 1
  ring

/-- A chunk's update of a triple of real numbers is a triple of real numbers: the new maximum M' is real, the
    new sum is exp (M - M') * L plus the chunk's exponentials shifted by M', and the target logit gains the
    chunk's one-hot sum. -/
theorem chunkStep_real (r : ℕ → ℝ) (g j : ℕ) (M L T : ℝ) :
    ∃ M' : ℝ, chunkStep (fun c => ((r c : ℝ) : EReal)) g j ((M : EReal), (L : EReal), (T : EReal))
      = ((M' : EReal),
          ((Real.exp (M - M') * L + ∑ k : Fin 256, Real.exp (r (256 * j + k.val) - M') : ℝ) : EReal),
          ((T + ∑ k : Fin 256, (if 256 * j + k.val = g then r (256 * j + k.val) else 0) : ℝ) : EReal)) := by
  obtain ⟨C, hC⟩ := fold_max_bot_isReal (n := 256) (by norm_num) (fun k => r (256 * j + k.val))
  have hC' : (Finset.univ : Finset (Fin 256)).fold max (⊥ : EReal)
      (fun k => ((r (256 * j + k.val) : ℝ) : EReal)) = (C : EReal) := hC
  refine ⟨max M C, ?_⟩
  simp only [chunkStep]
  rw [hC', ← coe_max_real]
  generalize max M C = M'
  simp only [← EReal.coe_sub, Ideal.exp_coe, ← EReal.coe_mul, ← coe_finset_sum, ← EReal.coe_add,
    coe_ite_zero]

/-- The invariant of the recurrence on real logits: after j chunks the running maximum is a real number M,
    the running sum is the sum of exp (r c - M) over the classes c < 256 * j seen so far, and the target
    logit is the one-hot sum over those classes. -/
theorem onlineState_real (r : ℕ → ℝ) (g : ℕ) (m0 : ℝ) (j : ℕ) :
    ∃ M : ℝ, onlineState (fun c => ((r c : ℝ) : EReal)) g (m0 : EReal) j
      = ((M : EReal), ((∑ c ∈ Finset.range (256 * j), Real.exp (r c - M) : ℝ) : EReal),
          ((∑ c ∈ Finset.range (256 * j), (if c = g then r c else 0) : ℝ) : EReal)) := by
  induction j with
  | zero => exact ⟨m0, by simp [onlineState]⟩
  | succ j ih =>
    obtain ⟨M, hM⟩ := ih
    obtain ⟨M', hM'⟩ := chunkStep_real r g j M (∑ c ∈ Finset.range (256 * j), Real.exp (r c - M))
      (∑ c ∈ Finset.range (256 * j), (if c = g then r c else 0))
    refine ⟨M', ?_⟩
    rw [onlineState, hM, hM']
    have e : 256 * (j + 1) = 256 * j + 256 := by ring
    rw [e, Finset.sum_range_add, Finset.sum_range_add, real_rescale_sum_exp,
      Fin.sum_univ_eq_sum_range (fun k => Real.exp (r (256 * j + k) - M')) 256,
      Fin.sum_univ_eq_sum_range (fun k => if 256 * j + k = g then r (256 * j + k) else 0) 256]

/-- After all 125 chunks of a row of real logits, started at any real running maximum, the target logit minus
    (running maximum plus the logarithm of the running sum) is the row's log-softmax at the target class. -/
theorem online_final (r : ℕ → ℝ) (g : ℕ) (hg : g < 32000) (m0 : ℝ) :
    (onlineState (fun c => ((r c : ℝ) : EReal)) g (m0 : EReal) 125).2.2
        - ((onlineState (fun c => ((r c : ℝ) : EReal)) g (m0 : EReal) 125).1
            + Ideal.log (onlineState (fun c => ((r c : ℝ) : EReal)) g (m0 : EReal) 125).2.1)
      = ((logSoftmax (fun v => r v.val) ⟨g, hg⟩ : ℝ) : EReal) := by
  obtain ⟨M, hM⟩ := onlineState_real r g m0 125
  have e : 256 * 125 = 32000 := by norm_num
  rw [e] at hM
  rw [hM]
  show ((∑ c ∈ Finset.range 32000, (if c = g then r c else 0) : ℝ) : EReal)
      - ((M : EReal) + Ideal.log ((∑ c ∈ Finset.range 32000, Real.exp (r c - M) : ℝ) : EReal))
    = ((r g - Real.log (∑ v : Fin 32000, Real.exp (r v.val)) : ℝ) : EReal)
  have hne : (Finset.range 32000).Nonempty := ⟨0, Finset.mem_range.mpr (by norm_num)⟩
  have hpos : 0 < ∑ c ∈ Finset.range 32000, Real.exp (r c - M) :=
    Finset.sum_pos (fun _ _ => Real.exp_pos _) hne
  rw [Finset.sum_ite_eq' (Finset.range 32000) g r, if_pos (Finset.mem_range.mpr hg), Ideal.log_coe,
    if_neg (not_le.mpr hpos), ← EReal.coe_add, ← EReal.coe_sub,
    real_log_sum_exp_shift (Finset.range 32000) hne r M,
    Fin.sum_univ_eq_sum_range (fun c => Real.exp (r c)) 32000]

/-- The log-softmax with the logits shifted by any real number s before exponentiating, as the reference
    computes it with s the row maximum: ((r j - s) - log (sum of exp (r v - s))) is the log-softmax. -/
theorem logSoftmax_shift (r : Fin 32000 → ℝ) (s : ℝ) (j : Fin 32000) :
    (((r j : ℝ) : EReal) - (s : EReal)) - Ideal.log (∑ v : Fin 32000, Ideal.exp (((r v : ℝ) : EReal) - (s : EReal)))
      = ((logSoftmax r j : ℝ) : EReal) := by
  have hne : (Finset.univ : Finset (Fin 32000)).Nonempty := ⟨⟨0, by norm_num⟩, Finset.mem_univ _⟩
  have hpos : 0 < ∑ v : Fin 32000, Real.exp (r v - s) := Finset.sum_pos (fun _ _ => Real.exp_pos _) hne
  have h1 : ∑ v : Fin 32000, Ideal.exp (((r v : ℝ) : EReal) - (s : EReal))
      = ((∑ v : Fin 32000, Real.exp (r v - s) : ℝ) : EReal) := by
    rw [coe_finset_sum]
    refine Finset.sum_congr rfl (fun v _ => ?_)
    rw [← EReal.coe_sub, Ideal.exp_coe]
  rw [h1, Ideal.log_coe, if_neg (not_le.mpr hpos), ← EReal.coe_sub, ← EReal.coe_sub]
  rw [EReal.coe_eq_coe_iff]
  unfold logSoftmax
  rw [← real_log_sum_exp_shift Finset.univ hne r s]
  ring

/-- A real extended real is the coercion of its real part. -/
theorem isReal_coe_toReal {x : EReal} (h : IsReal x) : x = ((x.toReal : ℝ) : EReal) := by
  obtain ⟨r, rfl⟩ := h
  rw [EReal.toReal_coe]

/-- The sum of two real numbers is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem isReal_sum {ι : Type*} (s : Finset ι) {f : ι → EReal} (hf : ∀ i, IsReal (f i)) :
    IsReal (∑ i ∈ s, f i) := by
  choose fr hfr using hf
  refine ⟨∑ i ∈ s, fr i, ?_⟩
  rw [coe_finset_sum]
  exact Finset.sum_congr rfl (fun i _ => hfr i)

/-- A finite sum of products of real numbers, plus a real number, is a real number: the logits are real. -/
theorem logit_isReal {x : Fin 4096 → EReal} {W : Fin 32000 → Fin 4096 → EReal} {B : Fin 32000 → EReal}
    (hx : ∀ h, IsReal (x h)) (hW : ∀ v h, IsReal (W v h)) (hB : ∀ v, IsReal (B v)) (v : Fin 32000) :
    logit x W B v = (((logit x W B v).toReal : ℝ) : EReal) := by
  apply isReal_coe_toReal
  unfold logit
  exact isReal_add (isReal_sum _ (fun h => isReal_mul (hx h) (hW v h))) (hB v)

end Cert.Dpo

end
-- ==== Proof.KernelRow.lean ====
/-
  The kernel's arithmetic read one row at a time.

  A grid point sees a block of 2048 tokens (rows) and a chunk of 256 classes (columns). Every value the point
  computes is a vector over the block; read at a row ρ (and a column k of the chunk) it is a scalar formula on the
  extended reals: a chunk logit is the inner product of the token's 4096 features with the class's weight row, plus the
  class's bias; the new running maximum is the old one against the chunk's maximum; the new running sum is the old
  one rescaled by exp (old maximum - new maximum), plus the chunk's exponentials shifted by the new maximum; the target
  logit gains the chunk's logit at the target class, chosen by the mask "this column's class is the target".
  Put together, a row's three running values move by exactly one step of the online log-sum-exp recurrence.
-/
import proofs.«414215_j57698590654887_3_alg».proof.Proof.Gen.KernelIdeal.Skeleton
import proofs.«414215_j57698590654887_3_alg».proof.Proof.LibOnlineLogSumExp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen

/-! ## Layout and reduction read at a row -/

/-- A column vector broadcast along the chunk reads its row's one entry at every column. -/
theorem bcastCol_apply {α : Type} (m : S2048x1.Idx → α) (h : S2048x1.Broadcasts S2048x256) (ρ : Fin 2048) (k : Fin 256) :
    broadcastTo S2048x256 m h (ix2 ρ k) = m (ix2 ρ (0 : Fin 1)) := by
  refine broadcastTo_apply m h (ix2 ρ k) (ix2 ρ (0 : Fin 1)) fun ax => ?_
  match ax with
  | ⟨0, _⟩ => rfl
  | ⟨1, _⟩ => rfl

/-- A vector over the rows cast to a column reads its row's entry. -/
theorem colCast_apply {α : Type} (v : S2048.Idx → α) (h : S2048.ShapeCasts S2048x1) (ρ : Fin 2048) :
    shapeCast S2048x1 v h (ix2 ρ (0 : Fin 1)) = v (ix1 ρ) :=
  shapeCast_apply v h _ _ (by
    rw [Shape.rowMajor_val_one, Shape.rowMajor_val_two]
    show ρ.val = ρ.val * 1 + 0
    omega)

/-- The sum along the chunk, cast to a column and read at row ρ, is the sum of the row's 256 entries. -/
theorem rowSum_apply (v : FVec Ideal S2048x256 .f32) (h : S2048x256.Reduces [1] S2048) (hφ : FKind.Formats .f32)
    (hacc : (0x00000000#32 : BitVec 32) = FKind.add.neutral .f32 hφ) (hc : S2048.ShapeCasts S2048x1) (ρ : Fin 2048) :
    shapeCast S2048x1 (multiReduction .add [1] S2048 v 0x00000000#32 h hφ hacc) hc (ix2 ρ (0 : Fin 1))
      = ∑ k : Fin 256, v (ix2 ρ k) := by
  refine (colCast_apply _ hc ρ).trans ?_
  refine (Ideal.multiReduction_add_single v _ h hφ hacc (ix1 ρ)).trans ?_
  refine Finset.sum_congr rfl fun k _ => congrArg v ?_
  funext a
  match a with
  | ⟨0, _⟩ => rfl
  | ⟨1, _⟩ => rfl

/-- The word 0xFF800000 encodes the bottom element. -/
theorem ofBits_negInf : Ideal.ofBits .f32 0xFF800000#32 = (⊥ : EReal) := by
  simp [Ideal.ofBits, Ideal.ieee]

/-- The maximum along the chunk, cast to a column and read at row ρ, is the maximum of the row's 256 entries, folded
    from the bottom element. -/
theorem rowMax_apply (v : FVec Ideal S2048x256 .f32) (h : S2048x256.Reduces [1] S2048) (hφ : FKind.Formats .f32)
    (hacc : (0xFF800000#32 : BitVec 32) = FKind.maximumf.neutral .f32 hφ) (hc : S2048.ShapeCasts S2048x1) (ρ : Fin 2048) :
    shapeCast S2048x1 (multiReduction .maximumf [1] S2048 v 0xFF800000#32 h hφ hacc) hc (ix2 ρ (0 : Fin 1))
      = (Finset.univ : Finset (Fin 256)).fold max (⊥ : EReal) (fun k => v (ix2 ρ k)) := by
  refine (colCast_apply _ hc ρ).trans ?_
  refine (Ideal.multiReduction_maximumf_single v _ h hφ hacc (ix1 ρ)).trans ?_
  show (Finset.univ : Finset (Fin 256)).fold max (Ideal.ofBits .f32 0xFF800000#32) (v ∘ h.lift (ix1 ρ)) = _
  rw [ofBits_negInf]
  refine congrArg (fun f => (Finset.univ : Finset (Fin 256)).fold max (⊥ : EReal) f) ?_
  funext k
  refine congrArg v ?_
  funext a
  match a with
  | ⟨0, _⟩ => rfl
  | ⟨1, _⟩ => rfl

/-! ## The chunk logits -/

/-- The logit of row ρ of the token block against class k of the chunk: the inner product of the token's features
    with the class's weight row, plus the class's bias. -/
def chunkLogit (x0 : Vec Ideal S2048x4096 .bf16) (x1 : Vec Ideal S256x4096 .f32) (x2 : Vec Ideal S1x256 .f32)
    (ρ : Fin 2048) (k : Fin 256) : EReal :=
  (∑ h : Fin 4096, (x0 (ix2 ρ h) : EReal) * (x1 (ix2 k h) : EReal)) + (x2 (ix2 (0 : Fin 1) k) : EReal)

/-- The product contracts one axis, of extent 4096. -/
theorem dot_contr_rank : dot_S2048x4096_S256x4096_S2048x256_1_1_0_0_n_n.contr.rank = 1 := rfl

theorem dot_contr_size :
    dot_S2048x4096_S256x4096_S2048x256_1_1_0_0_n_n.contr.size ⟨0, by rw [dot_contr_rank]; exact Nat.one_pos⟩ = 4096 := rfl

/-- The left operand is read at the result's row … -/
theorem lhs_dot_0 (j : S2048x256.Idx) (q : dot_S2048x4096_S256x4096_S2048x256_1_1_0_0_n_n.contr.Idx) :
    (dot_S2048x4096_S256x4096_S2048x256_1_1_0_0_n_n.lhsIdx j q 0).val = (j 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl

/-- … and at the contraction position on its feature axis. -/
theorem lhs_dot_1 (j : S2048x256.Idx) (q : dot_S2048x4096_S256x4096_S2048x256_1_1_0_0_n_n.contr.Idx) :
    (dot_S2048x4096_S256x4096_S2048x256_1_1_0_0_n_n.lhsIdx j q 1).val
      = (q ⟨0, by rw [dot_contr_rank]; exact Nat.one_pos⟩).val :=
  DotDims.lhsIdx_val_of_single dot_S2048x4096_S256x4096_S2048x256_1_1_0_0_n_n (cl := 1) rfl j q

/-- The right operand is read at the result's column on its class axis … -/
theorem rhs_dot_0 (j : S2048x256.Idx) (q : dot_S2048x4096_S256x4096_S2048x256_1_1_0_0_n_n.contr.Idx) :
    (dot_S2048x4096_S256x4096_S2048x256_1_1_0_0_n_n.rhsIdx j q 0).val = (j 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl

/-- … and at the contraction position on its feature axis. -/
theorem rhs_dot_1 (j : S2048x256.Idx) (q : dot_S2048x4096_S256x4096_S2048x256_1_1_0_0_n_n.contr.Idx) :
    (dot_S2048x4096_S256x4096_S2048x256_1_1_0_0_n_n.rhsIdx j q 1).val
      = (q ⟨0, by rw [dot_contr_rank]; exact Nat.one_pos⟩).val :=
  DotDims.rhsIdx_val_of_single dot_S2048x4096_S256x4096_S2048x256_1_1_0_0_n_n (cr := 1) rfl j q

/-- The matrix product into a zero accumulator, read at (ρ, k): the inner product over the 4096 features of row ρ
    of the left operand with row k of the right operand. -/
theorem dotRow_apply (x : FVec Ideal S2048x4096 .bf16) (w : FVec Ideal S256x4096 .bf16) (ρ : Fin 2048) (k : Fin 256) :
    matmul dot_S2048x4096_S256x4096_S2048x256_1_1_0_0_n_n none x w (constant (F := Ideal) S2048x256 .f32 0x00000000#32)
        (ix2 ρ k)
      = ∑ h : Fin 4096, x (ix2 ρ h) * w (ix2 k h) := by
  refine (Ideal.matmul_constant_zero_apply dot_S2048x4096_S256x4096_S2048x256_1_1_0_0_n_n none x w (ix2 ρ k)).trans ?_
  refine (Equiv.sum_comp
    (contrEquiv1 dot_S2048x4096_S256x4096_S2048x256_1_1_0_0_n_n 4096 dot_contr_rank dot_contr_size).symm _).symm.trans ?_
  refine Finset.sum_congr rfl fun h _ => ?_
  have hl : dot_S2048x4096_S256x4096_S2048x256_1_1_0_0_n_n.lhsIdx (ix2 ρ k)
      ((contrEquiv1 dot_S2048x4096_S256x4096_S2048x256_1_1_0_0_n_n 4096 dot_contr_rank dot_contr_size).symm h)
        = ix2 ρ h := by
    funext a
    refine Fin.ext ?_
    have hq := contrEquiv1_symm_val dot_S2048x4096_S256x4096_S2048x256_1_1_0_0_n_n 4096 dot_contr_rank dot_contr_size h
    match a with
    | ⟨0, _⟩ => exact lhs_dot_0 _ _
    | ⟨1, _⟩ => exact (lhs_dot_1 _ _).trans hq
  have hr : dot_S2048x4096_S256x4096_S2048x256_1_1_0_0_n_n.rhsIdx (ix2 ρ k)
      ((contrEquiv1 dot_S2048x4096_S256x4096_S2048x256_1_1_0_0_n_n 4096 dot_contr_rank dot_contr_size).symm h)
        = ix2 k h := by
    funext a
    refine Fin.ext ?_
    have hq := contrEquiv1_symm_val dot_S2048x4096_S256x4096_S2048x256_1_1_0_0_n_n 4096 dot_contr_rank dot_contr_size h
    match a with
    | ⟨0, _⟩ => exact rhs_dot_0 _ _
    | ⟨1, _⟩ => exact (rhs_dot_1 _ _).trans hq
  exact congrArg₂ (fun a b : EReal => a * b) (congrArg x hl) (congrArg w hr)

/-- The policy model's chunk logits at (ρ, k): the matrix product contracts the feature axis of both operands, the
    narrowing of the weights is the identity on extended reals, and the bias row is broadcast down the rows. -/
theorem pay14_apply (x0 : Vec Ideal S2048x4096 .bf16) (x1 : Vec Ideal S256x4096 .f32) (x2 : Vec Ideal S1x256 .f32)
    (ρ : Fin 2048) (k : Fin 256) :
    k0_pay14 (F := Ideal) x0 x1 x2 (ix2 ρ k) = chunkLogit x0 x1 x2 ρ k := by
  unfold k0_pay14 k0_pay13
  refine (congrArg₂ (fun a b : EReal => a + b) (dotRow_apply _ _ ρ k)
    ((broadcastTo_1b_ab_apply _ _ ρ k).trans (congrFun (shapeCast_self x2 _) _))).trans ?_
  unfold chunkLogit
  refine congrArg (fun z => z + (x2 (ix2 (0 : Fin 1) k) : EReal)) (Finset.sum_congr rfl fun h _ => ?_)
  rw [shapeCast_self]
  rfl

/-- The reference model's chunk logits at (ρ, k): the same formula on the reference model's weights and bias. -/
theorem pay15_apply (x0 : Vec Ideal S2048x4096 .bf16) (x3 : Vec Ideal S256x4096 .f32) (x4 : Vec Ideal S1x256 .f32)
    (ρ : Fin 2048) (k : Fin 256) :
    k0_pay15 (F := Ideal) x0 x3 x4 (ix2 ρ k) = chunkLogit x0 x3 x4 ρ k := by
  unfold k0_pay15 k0_pay13
  refine (congrArg₂ (fun a b : EReal => a + b) (dotRow_apply _ _ ρ k)
    ((broadcastTo_1b_ab_apply _ _ ρ k).trans (congrFun (shapeCast_self x4 _) _))).trans ?_
  unfold chunkLogit
  refine congrArg (fun z => z + (x4 (ix2 (0 : Fin 1) k) : EReal)) (Finset.sum_congr rfl fun h _ => ?_)
  rw [shapeCast_self]
  rfl
/-! ## The target mask -/

/-- The class number of column k of chunk j as a 32-bit word: below 2 ^ 32 nothing wraps. -/
theorem classWord (j k : ℕ) (hj : j < 125) (hk : k < 256) :
    IntOp.addi (Scalar.muli (BitVec.ofNat 32 j) 256#32) (BitVec.ofNat 32 k) = BitVec.ofNat 32 (256 * j + k) := by
  show BitVec.ofNat 32 j * 256#32 + BitVec.ofNat 32 k = _
  apply BitVec.eq_of_toNat_eq
  simp only [BitVec.toNat_add, BitVec.toNat_mul, BitVec.toNat_ofNat, Nat.reducePow, Nat.reduceMod]
  omega

/-- The vector of class numbers, chunk offset plus column, read at (ρ, k). -/
theorem classIdx_apply (j : ℕ) (hj : j < 125) (h : S2048x256.Iotas .tc 32 [1]) (ρ : Fin 2048) (k : Fin 256) :
    addi (broadcast S2048x256 (Scalar.muli (BitVec.ofNat 32 j) 256#32)) (iota .tc S2048x256 32 [1] h) (ix2 ρ k)
      = BitVec.ofNat 32 (256 * j + k.val) := by
  show IntOp.addi (Scalar.muli (BitVec.ofNat 32 j) 256#32) (iota .tc S2048x256 32 [1] h (ix2 ρ k)) = _
  rw [iota_single_apply]
  exact classWord j k.val hj k.isLt

/-- A word built from a number below 2 ^ 32 equals a word exactly when the number is the word's value. -/
theorem cmpi_eq_ofNat (n : ℕ) (hn : n < 2 ^ 32) (w : BitVec 32) :
    IntOp.cmpi .eq (BitVec.ofNat 32 n) w = if n = w.toNat then 1#1 else 0#1 := by
  show BitVec.ofBool (BitVec.ofNat 32 n == w) = _
  by_cases h : n = w.toNat
  · rw [if_pos h]
    have e : BitVec.ofNat 32 n = w := by
      apply BitVec.eq_of_toNat_eq
      rw [BitVec.toNat_ofNat, h]
      exact Nat.mod_eq_of_lt w.isLt
    rw [e, beq_self_eq_true]; rfl
  · rw [if_neg h]
    have e : (BitVec.ofNat 32 n == w) = false := by
      rw [beq_eq_false_iff_ne]
      intro e
      apply h
      rw [← e, BitVec.toNat_ofNat]
      exact (Nat.mod_eq_of_lt hn).symm
    rw [e]; rfl

/-- The mask at (ρ, k) is set exactly when the class of column k of chunk j, 256 * j + k, is row ρ's target: the
    class number is below 2 ^ 32, so the word arithmetic does not wrap, and equal words are equal numbers. -/
theorem pay16_apply (i : grid0.Coords) (hi : (i 1).val < 125) (x5 : Vec Ideal S2048x1 .i32) (ρ : Fin 2048) (k : Fin 256) :
    k0_pay16 (F := Ideal) i x5 (ix2 ρ k)
      = (if 256 * (i 1).val + k.val = (x5 (ix2 ρ (0 : Fin 1)) : BitVec 32).toNat then 1#1 else 0#1) := by
  unfold k0_pay16
  refine (congrArg₂ (fun a b => IntOp.cmpi .eq a b) (classIdx_apply (i 1).val hi _ ρ k)
    ((bcastCol_apply _ _ ρ k).trans (congrFun (shapeCast_self x5 _) _))).trans ?_
  exact cmpi_eq_ofNat _ (by have := k.isLt; omega) _

/-! ## The chunk's logit at the target -/

/-- A select on a decided bit is the choice itself. -/
theorem select_ite {α : Type} (c : Prop) [Decidable c] (a b : α) :
    Scalar.select (if c then 1#1 else 0#1) a b = if c then a else b := by
  by_cases h : c
  · rw [if_pos h, if_pos h]; exact select_one a b
  · rw [if_neg h, if_neg h]; exact select_zero a b

/-- A masked row sum: the sum over the chunk of the logits the mask keeps. -/
theorem pay22_apply (lr : FVec Ideal S2048x256 .f32) (mt : IVec S2048x256 1) (ρ : Fin 2048) :
    k0_pay22 (F := Ideal) lr mt (ix2 ρ (0 : Fin 1))
      = ∑ k : Fin 256, (if mt (ix2 ρ k) = 1#1 then (lr (ix2 ρ k) : EReal) else 0) := by
  unfold k0_pay22
  refine (rowSum_apply _ _ _ _ _ ρ).trans ?_
  refine Finset.sum_congr rfl fun k _ => ?_
  show (if mt (ix2 ρ k) = 1 then (lr (ix2 ρ k) : EReal) else Ideal.ofBits .f32 0x00000000#32) = _
  rw [Ideal.ofBits_zero_f32]
  rfl

/-- The policy model's chunk logit at the target class of row ρ, or 0 when the target is not in the chunk. -/
theorem pay17_apply (i : grid0.Coords) (hi : (i 1).val < 125) (x0 : Vec Ideal S2048x4096 .bf16)
    (x1 : Vec Ideal S256x4096 .f32) (x2 : Vec Ideal S1x256 .f32) (x5 : Vec Ideal S2048x1 .i32) (ρ : Fin 2048) :
    k0_pay17 (F := Ideal) i x0 x1 x2 x5 (ix2 ρ (0 : Fin 1))
      = ∑ k : Fin 256, (if 256 * (i 1).val + k.val = (x5 (ix2 ρ (0 : Fin 1)) : BitVec 32).toNat
          then chunkLogit x0 x1 x2 ρ k else 0) := by
  unfold k0_pay17
  refine (rowSum_apply _ _ _ _ _ ρ).trans ?_
  refine Finset.sum_congr rfl fun k _ => ?_
  show Scalar.select (k0_pay16 (F := Ideal) i x5 (ix2 ρ k)) (k0_pay14 (F := Ideal) x0 x1 x2 (ix2 ρ k))
      (Ideal.ofBits .f32 0x00000000#32) = _
  rw [pay16_apply i hi, pay14_apply, Ideal.ofBits_zero_f32]
  exact select_ite _ _ _

/-! ## The running maximum -/

/-- The new running maximum of row ρ: the old one against the maximum of the row's logits over the chunk. -/
theorem pay23_apply (lr : FVec Ideal S2048x256 .f32) (s : Vec Ideal S2048x1 .f32) (ρ : Fin 2048) :
    k0_pay23 (F := Ideal) lr s (ix2 ρ (0 : Fin 1))
      = max (s (ix2 ρ (0 : Fin 1)) : EReal)
          ((Finset.univ : Finset (Fin 256)).fold max (⊥ : EReal) (fun k => (lr (ix2 ρ k) : EReal))) := by
  unfold k0_pay23
  exact congrArg (fun z => max (s (ix2 ρ (0 : Fin 1)) : EReal) z) (rowMax_apply lr _ _ _ _ ρ)

/-- The policy model's new running maximum of row ρ. -/
theorem pay18_apply (x0 : Vec Ideal S2048x4096 .bf16) (x1 : Vec Ideal S256x4096 .f32) (x2 : Vec Ideal S1x256 .f32)
    (s : Vec Ideal S2048x1 .f32) (ρ : Fin 2048) :
    k0_pay18 (F := Ideal) x0 x1 x2 s (ix2 ρ (0 : Fin 1))
      = max (s (ix2 ρ (0 : Fin 1)) : EReal)
          ((Finset.univ : Finset (Fin 256)).fold max (⊥ : EReal) (fun k => chunkLogit x0 x1 x2 ρ k)) := by
  have e : k0_pay18 (F := Ideal) x0 x1 x2 s = k0_pay23 (F := Ideal) (k0_pay14 (F := Ideal) x0 x1 x2) s := rfl
  rw [e, pay23_apply]
  exact congrArg (fun f => max (s (ix2 ρ (0 : Fin 1)) : EReal) ((Finset.univ : Finset (Fin 256)).fold max (⊥ : EReal) f))
    (funext fun k => pay14_apply x0 x1 x2 ρ k)

/-! ## The running sum -/

/-- The new running sum of row ρ: the old sum rescaled from the old maximum to the new one, plus the chunk's
    exponentials shifted by the new maximum. -/
theorem pay19_apply (lp : FVec Ideal S2048x256 .f32) (mNew : FVec Ideal S2048x1 .f32) (mOld lOld : Vec Ideal S2048x1 .f32)
    (ρ : Fin 2048) :
    k0_pay19 (F := Ideal) lp mNew mOld lOld (ix2 ρ (0 : Fin 1))
      = Ideal.exp ((mOld (ix2 ρ (0 : Fin 1)) : EReal) - mNew (ix2 ρ (0 : Fin 1))) * (lOld (ix2 ρ (0 : Fin 1)) : EReal)
        + ∑ k : Fin 256, Ideal.exp ((lp (ix2 ρ k) : EReal) - mNew (ix2 ρ (0 : Fin 1))) := by
  unfold k0_pay19
  rw [shapeCast_self]
  refine (congrArg (fun z => Ideal.exp ((mOld (ix2 ρ (0 : Fin 1)) : EReal) - mNew (ix2 ρ (0 : Fin 1)))
      * (lOld (ix2 ρ (0 : Fin 1)) : EReal) + z) (rowSum_apply _ _ _ _ _ ρ)).trans ?_
  refine congrArg (fun z => Ideal.exp ((mOld (ix2 ρ (0 : Fin 1)) : EReal) - mNew (ix2 ρ (0 : Fin 1)))
      * (lOld (ix2 ρ (0 : Fin 1)) : EReal) + z) (Finset.sum_congr rfl fun k _ => ?_)
  exact congrArg (fun z => Ideal.exp ((lp (ix2 ρ k) : EReal) - z)) (bcastCol_apply mNew _ ρ k)

/-- The reference model's new running sum of row ρ: the rescaled old sum plus the chunk's shifted exponentials. -/
theorem pay1_apply (lr : FVec Ideal S2048x256 .f32) (mNew part : FVec Ideal S2048x1 .f32) (ρ : Fin 2048) :
    k0_pay1 (F := Ideal) lr mNew part (ix2 ρ (0 : Fin 1))
      = (part (ix2 ρ (0 : Fin 1)) : EReal)
        + ∑ k : Fin 256, Ideal.exp ((lr (ix2 ρ k) : EReal) - mNew (ix2 ρ (0 : Fin 1))) := by
  unfold k0_pay1
  rw [shapeCast_self]
  refine (congrArg (fun z => (part (ix2 ρ (0 : Fin 1)) : EReal) + z) (rowSum_apply _ _ _ _ _ ρ)).trans ?_
  refine congrArg (fun z => (part (ix2 ρ (0 : Fin 1)) : EReal) + z) (Finset.sum_congr rfl fun k _ => ?_)
  exact congrArg (fun z => Ideal.exp ((lr (ix2 ρ k) : EReal) - z)) (bcastCol_apply mNew _ ρ k)

/-- The reference model's rescaled old sum of row ρ. -/
theorem pay24_apply (lr : FVec Ideal S2048x256 .f32) (s3 s3' s4 : Vec Ideal S2048x1 .f32) (ρ : Fin 2048) :
    k0_pay24 (F := Ideal) lr s3 s3' s4 (ix2 ρ (0 : Fin 1))
      = Ideal.exp ((s3' (ix2 ρ (0 : Fin 1)) : EReal) - k0_pay23 (F := Ideal) lr s3 (ix2 ρ (0 : Fin 1)))
          * (s4 (ix2 ρ (0 : Fin 1)) : EReal) := by
  unfold k0_pay24
  rfl

/-! ## Stores that only reshape, and the target logit's update -/

/-- A cast between equal shapes changes nothing. -/
theorem pay20_apply (m : FVec Ideal S2048x1 .f32) (j : S2048x1.Idx) : k0_pay20 (F := Ideal) m j = m j := by
  unfold k0_pay20
  rw [shapeCast_self]

/-- A cast between equal shapes changes nothing. -/
theorem pay2_apply (m : FVec Ideal S2048x1 .f32) (j : S2048x1.Idx) : k0_pay2 (F := Ideal) m j = m j := by
  unfold k0_pay2
  rw [shapeCast_self]

/-- The policy model's target logit gains the chunk's. -/
theorem pay21_apply (c : FVec Ideal S2048x1 .f32) (old : Vec Ideal S2048x1 .f32) (j : S2048x1.Idx) :
    k0_pay21 (F := Ideal) c old j = (old j : EReal) + c j := by
  unfold k0_pay21
  rw [shapeCast_self]
  rfl

/-- The reference model's target logit gains the chunk's. -/
theorem pay3_apply (c : FVec Ideal S2048x1 .f32) (old : Vec Ideal S2048x1 .f32) (j : S2048x1.Idx) :
    k0_pay3 (F := Ideal) c old j = (old j : EReal) + c j := by
  unfold k0_pay3
  rw [shapeCast_self]
  rfl

/-! ## The reset values -/

/-- The running maximum starts at the real number the word 0xFF333332 encodes. -/
theorem pay7_apply (j : S2048x1.Idx) : (k0_pay7 (F := Ideal)) j = Ideal.ofBits .f32 0xFF333332#32 := by
  unfold k0_pay7
  rw [shapeCast_self]
  rfl

/-- The running sum starts at 0. -/
theorem pay8_apply (j : S2048x1.Idx) : (k0_pay8 (F := Ideal)) j = (0 : EReal) := by
  unfold k0_pay8
  rw [shapeCast_self]
  exact Ideal.ofBits_zero_f32

/-- The target logit starts at 0. -/
theorem pay9_apply (j : S2048x1.Idx) : (k0_pay9 (F := Ideal)) j = (0 : EReal) := by
  unfold k0_pay9
  rw [shapeCast_self]
  exact Ideal.ofBits_zero_f32

/-- The reference model's running maximum starts at the same real number. -/
theorem pay10_apply (j : S2048x1.Idx) : (k0_pay10 (F := Ideal)) j = Ideal.ofBits .f32 0xFF333332#32 := by
  unfold k0_pay10
  rw [shapeCast_self]
  rfl

/-- The reference model's running sum starts at 0. -/
theorem pay11_apply (j : S2048x1.Idx) : (k0_pay11 (F := Ideal)) j = (0 : EReal) := by
  unfold k0_pay11
  rw [shapeCast_self]
  exact Ideal.ofBits_zero_f32

/-- The reference model's target logit starts at 0. -/
theorem pay12_apply (j : S2048x1.Idx) : (k0_pay12 (F := Ideal)) j = (0 : EReal) := by
  unfold k0_pay12
  rw [shapeCast_self]
  exact Ideal.ofBits_zero_f32

/-! ## The output -/

/-- A bit widened to a word and read as a signed number is 1 when set and 0 when clear. -/
theorem bitToReal (b : BitVec 1) : (((b.setWidth 32).toInt : ℝ) : EReal) = if b = 1#1 then (1 : EReal) else 0 := by
  rcases BitVec.eq_zero_or_eq_one b with rfl | rfl
  · rw [if_neg (by decide)]
    have : ((0#1 : BitVec 1).setWidth 32).toInt = 0 := by decide
    rw [this]; simp
  · rw [if_pos rfl]
    have : ((1#1 : BitVec 1).setWidth 32).toInt = 1 := by decide
    rw [this]; simp

/-- The weight of row ρ in the output: 0 when its target is the ignored word -100, else 1. -/
theorem pay4_apply (x5 : Vec Ideal S2048x1 .i32) (ρ : Fin 2048) :
    k0_pay4 (F := Ideal) x5 (ix2 ρ (0 : Fin 1))
      = (if (x5 (ix2 ρ (0 : Fin 1)) : BitVec 32) = 4294967196#32 then (0 : EReal) else 1) := by
  unfold k0_pay4
  rw [shapeCast_self]
  show ((((IntOp.cmpi .ne (x5 (ix2 ρ (0 : Fin 1)) : BitVec 32) 4294967196#32).setWidth 32).toInt : ℝ) : EReal) = _
  rw [bitToReal]
  by_cases h : (x5 (ix2 ρ (0 : Fin 1)) : BitVec 32) = 4294967196#32
  · rw [if_pos h, h]
    exact if_neg (by decide)
  · rw [if_neg h]
    refine if_pos ?_
    show BitVec.ofBool ((x5 (ix2 ρ (0 : Fin 1)) : BitVec 32) != 4294967196#32) = 1#1
    rw [bne_iff_ne.mpr h]
    rfl

/-- Plane 0 of the output at row ρ: target logit minus (running maximum plus the logarithm of the running sum),
    times the row's weight. -/
theorem pay5_apply (x5 : Vec Ideal S2048x1 .i32) (t m l : Vec Ideal S2048x1 .f32) (ρ : Fin 2048) :
    k0_pay5 (F := Ideal) x5 t m l (ix3 (0 : Fin 1) ρ (0 : Fin 1))
      = ((t (ix2 ρ (0 : Fin 1)) : EReal) - ((m (ix2 ρ (0 : Fin 1)) : EReal) + Ideal.log (l (ix2 ρ (0 : Fin 1)))))
          * k0_pay4 (F := Ideal) x5 (ix2 ρ (0 : Fin 1)) := by
  unfold k0_pay5
  refine (shapeCast_ab_1ab_apply _ _ (0 : Fin 1) ρ (0 : Fin 1)).trans ?_
  rfl

/-- Plane 1 of the output at row ρ: the same formula on the reference model's running values. -/
theorem pay6_apply (x5 : Vec Ideal S2048x1 .i32) (t m l : Vec Ideal S2048x1 .f32) (ρ : Fin 2048) :
    k0_pay6 (F := Ideal) x5 t m l (ix3 (0 : Fin 1) ρ (0 : Fin 1))
      = ((t (ix2 ρ (0 : Fin 1)) : EReal) - ((m (ix2 ρ (0 : Fin 1)) : EReal) + Ideal.log (l (ix2 ρ (0 : Fin 1)))))
          * k0_pay4 (F := Ideal) x5 (ix2 ρ (0 : Fin 1)) := by
  unfold k0_pay6
  refine (shapeCast_ab_1ab_apply _ _ (0 : Fin 1) ρ (0 : Fin 1)).trans ?_
  rfl

/-! ## The row step -/

/-- One step of the recurrence with its new maximum named: whatever M is known to equal the old maximum against
    the chunk's, the step's triple is (M, the old sum rescaled to M plus the chunk's exponentials shifted by M,
    the old target logit plus the chunk's one-hot sum). -/
theorem chunkStep_eq (a : ℕ → EReal) (g j : ℕ) (m l t M : EReal)
    (hM : M = max m ((Finset.univ : Finset (Fin 256)).fold max (⊥ : EReal) (fun k => a (256 * j + k.val)))) :
    Cert.Dpo.chunkStep a g j (m, l, t)
      = (M, Ideal.exp (m - M) * l + ∑ k : Fin 256, Ideal.exp (a (256 * j + k.val) - M),
          t + ∑ k : Fin 256, (if 256 * j + k.val = g then a (256 * j + k.val) else 0)) := by
  subst hM
  rfl

/-- A choice on a decided bit is the choice on the deciding proposition. -/
theorem ite_bit {α : Type} (c : Prop) [Decidable c] (a b : α) :
    (if (if c then (1#1 : BitVec 1) else 0#1) = 1#1 then a else b) = if c then a else b := by
  by_cases h : c
  · rw [if_pos h, if_pos h, if_pos rfl]
  · rw [if_neg h, if_neg h, if_neg (by decide)]

/-- One grid point moves row ρ's policy triple (running maximum, running sum, target logit) by one step of the
    online recurrence on chunk j = i 1, for any logit function a that agrees with the chunk's logits on the
    chunk's classes 256 * j + k. -/
theorem rowStep_p (i : grid0.Coords) (hi : (i 1).val < 125) (x0 : Vec Ideal S2048x4096 .bf16)
    (x1 : Vec Ideal S256x4096 .f32) (x2 : Vec Ideal S1x256 .f32) (x5 : Vec Ideal S2048x1 .i32)
    (s0 s1 s2 : Vec Ideal S2048x1 .f32) (ρ : Fin 2048) (a : ℕ → EReal)
    (ha : ∀ k : Fin 256, a (256 * (i 1).val + k.val) = chunkLogit x0 x1 x2 ρ k) :
    ((k0_pay20 (F := Ideal) (k0_pay18 (F := Ideal) x0 x1 x2 s0) (ix2 ρ (0 : Fin 1)) : EReal),
      (k0_pay19 (F := Ideal) (k0_pay14 (F := Ideal) x0 x1 x2) (k0_pay18 (F := Ideal) x0 x1 x2 s0) s0 s1
        (ix2 ρ (0 : Fin 1)) : EReal),
      (k0_pay21 (F := Ideal) (k0_pay17 (F := Ideal) i x0 x1 x2 x5) s2 (ix2 ρ (0 : Fin 1)) : EReal))
      = Cert.Dpo.chunkStep a (x5 (ix2 ρ (0 : Fin 1)) : BitVec 32).toNat (i 1).val
          ((s0 (ix2 ρ (0 : Fin 1)) : EReal), (s1 (ix2 ρ (0 : Fin 1)) : EReal), (s2 (ix2 ρ (0 : Fin 1)) : EReal)) := by
  have hm : (k0_pay18 (F := Ideal) x0 x1 x2 s0 (ix2 ρ (0 : Fin 1)) : EReal)
      = max (s0 (ix2 ρ (0 : Fin 1)) : EReal)
          ((Finset.univ : Finset (Fin 256)).fold max (⊥ : EReal) (fun k => a (256 * (i 1).val + k.val))) :=
    (pay18_apply x0 x1 x2 s0 ρ).trans
      (congrArg (fun f => max (s0 (ix2 ρ (0 : Fin 1)) : EReal) ((Finset.univ : Finset (Fin 256)).fold max (⊥ : EReal) f))
        (funext fun k => (ha k).symm))
  rw [chunkStep_eq a _ _ _ _ _ _ hm]
  refine Prod.ext ?_ (Prod.ext ?_ ?_)
  · exact pay20_apply (k0_pay18 (F := Ideal) x0 x1 x2 s0) (ix2 ρ (0 : Fin 1))
  · show k0_pay19 (F := Ideal) (k0_pay14 (F := Ideal) x0 x1 x2) (k0_pay18 (F := Ideal) x0 x1 x2 s0) s0 s1
        (ix2 ρ (0 : Fin 1)) = _
    rw [pay19_apply]
    congr 1
    exact Finset.sum_congr rfl fun k _ => by rw [pay14_apply, ha k]
  · show k0_pay21 (F := Ideal) (k0_pay17 (F := Ideal) i x0 x1 x2 x5) s2 (ix2 ρ (0 : Fin 1)) = _
    rw [pay21_apply, pay17_apply i hi]
    congr 1
    exact Finset.sum_congr rfl fun k _ => by rw [ha k]

/-- The same for the reference model's triple, whose new sum is computed in two pieces. -/
theorem rowStep_r (i : grid0.Coords) (hi : (i 1).val < 125) (x0 : Vec Ideal S2048x4096 .bf16)
    (x3 : Vec Ideal S256x4096 .f32) (x4 : Vec Ideal S1x256 .f32) (x5 : Vec Ideal S2048x1 .i32)
    (s3 s4 s5 : Vec Ideal S2048x1 .f32) (ρ : Fin 2048) (a : ℕ → EReal)
    (ha : ∀ k : Fin 256, a (256 * (i 1).val + k.val) = chunkLogit x0 x3 x4 ρ k) :
    ((k0_pay2 (F := Ideal) (k0_pay23 (F := Ideal) (k0_pay15 (F := Ideal) x0 x3 x4) s3) (ix2 ρ (0 : Fin 1)) : EReal),
      (k0_pay1 (F := Ideal) (k0_pay15 (F := Ideal) x0 x3 x4) (k0_pay23 (F := Ideal) (k0_pay15 (F := Ideal) x0 x3 x4) s3)
        (k0_pay24 (F := Ideal) (k0_pay15 (F := Ideal) x0 x3 x4) s3 s3 s4) (ix2 ρ (0 : Fin 1)) : EReal),
      (k0_pay3 (F := Ideal) (k0_pay22 (F := Ideal) (k0_pay15 (F := Ideal) x0 x3 x4) (k0_pay16 (F := Ideal) i x5)) s5
        (ix2 ρ (0 : Fin 1)) : EReal))
      = Cert.Dpo.chunkStep a (x5 (ix2 ρ (0 : Fin 1)) : BitVec 32).toNat (i 1).val
          ((s3 (ix2 ρ (0 : Fin 1)) : EReal), (s4 (ix2 ρ (0 : Fin 1)) : EReal), (s5 (ix2 ρ (0 : Fin 1)) : EReal)) := by
  have hm : (k0_pay23 (F := Ideal) (k0_pay15 (F := Ideal) x0 x3 x4) s3 (ix2 ρ (0 : Fin 1)) : EReal)
      = max (s3 (ix2 ρ (0 : Fin 1)) : EReal)
          ((Finset.univ : Finset (Fin 256)).fold max (⊥ : EReal) (fun k => a (256 * (i 1).val + k.val))) :=
    (pay23_apply (k0_pay15 (F := Ideal) x0 x3 x4) s3 ρ).trans
      (congrArg (fun f => max (s3 (ix2 ρ (0 : Fin 1)) : EReal) ((Finset.univ : Finset (Fin 256)).fold max (⊥ : EReal) f))
        (funext fun k => (pay15_apply x0 x3 x4 ρ k).trans (ha k).symm))
  rw [chunkStep_eq a _ _ _ _ _ _ hm]
  refine Prod.ext ?_ (Prod.ext ?_ ?_)
  · exact pay2_apply (k0_pay23 (F := Ideal) (k0_pay15 (F := Ideal) x0 x3 x4) s3) (ix2 ρ (0 : Fin 1))
  · show k0_pay1 (F := Ideal) (k0_pay15 (F := Ideal) x0 x3 x4) (k0_pay23 (F := Ideal) (k0_pay15 (F := Ideal) x0 x3 x4) s3)
        (k0_pay24 (F := Ideal) (k0_pay15 (F := Ideal) x0 x3 x4) s3 s3 s4) (ix2 ρ (0 : Fin 1)) = _
    rw [pay1_apply, pay24_apply]
    congr 1
    exact Finset.sum_congr rfl fun k _ => by rw [pay15_apply, ha k]
  · show k0_pay3 (F := Ideal) (k0_pay22 (F := Ideal) (k0_pay15 (F := Ideal) x0 x3 x4) (k0_pay16 (F := Ideal) i x5)) s5
        (ix2 ρ (0 : Fin 1)) = _
    rw [pay3_apply, pay22_apply]
    congr 1
    refine Finset.sum_congr rfl fun k _ => ?_
    rw [pay16_apply i hi, pay15_apply, ha k]
    exact ite_bit _ _ _

end Cert.KernelIdeal.Row

end
-- ==== Proof.KernelBlocks.lean ====
/-
  Where each block the kernel reads lies in the argument arrays.

  The grid is 2 blocks of 2048 tokens by 125 chunks of 256 classes, the chunk running fastest: point t has token
  block t / 125 and class chunk t % 125. A block's coordinate on an axis is its block index times the block's
  extent plus the coordinate inside the block. So row ρ of point t's token blocks is token 2048 * (t / 125) + ρ,
  which (the 8 sequences of 512 tokens being merged row-major) is token (token % 512) of sequence (token / 512);
  and row or column k of its class blocks is class 256 * (t % 125) + k. The features are narrowed before the
  kernel reads them, which on the extended reals is the identity; the biases are read as a row and the targets
  as a column, which moves no element.
-/
import proofs.«414215_j57698590654887_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Blocks

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ)

/-- The grid has 250 points. -/
theorem point_lt (t : Fin cfg0.N) : t.val < 250 := lt_of_lt_of_eq t.isLt N_0

/-- The windows' block indices over the grid of 2 token blocks by 125 class chunks, the chunk running fastest:
    the token windows (0 and 5) sit at block t / 125, the class windows (1 to 4) at chunk t % 125. -/
theorem index_facts : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = 0 ∧ win0_2.index t (1 : Fin 2) = t.val % 125
    ∧ win0_3.index t (0 : Fin 2) = t.val % 125 ∧ win0_3.index t (1 : Fin 2) = 0
    ∧ win0_4.index t (0 : Fin 2) = 0 ∧ win0_4.index t (1 : Fin 2) = t.val % 125
    ∧ win0_5.index t (0 : Fin 2) = t.val / 125 ∧ win0_5.index t (1 : Fin 2) = 0 :=
  (by decide +kernel : ∀ t : Fin grid0.N, _)

/-- The six argument arrays as launched, each at its literal type. -/
abbrev aX (c : Dev nD) : Vec Ideal S8x512x4096 .f32 := m ((c.tc : Thread nD τ).loc main_arg1)
abbrev aW (c : Dev nD) : Vec Ideal S32000x4096 .f32 := m ((c.tc : Thread nD τ).loc main_arg0)
abbrev aB (c : Dev nD) : Vec Ideal S32000 .f32 := m ((c.tc : Thread nD τ).loc main_arg3)
abbrev aWr (c : Dev nD) : Vec Ideal S32000x4096 .f32 := m ((c.tc : Thread nD τ).loc main_arg4)
abbrev aBr (c : Dev nD) : Vec Ideal S32000 .f32 := m ((c.tc : Thread nD τ).loc main_arg5)
abbrev aT (c : Dev nD) : Vec Ideal S8x512 .i32 := m ((c.tc : Thread nD τ).loc main_arg2)

/-- The arrays the region's windows stage, each at its literal type. -/
abbrev vX (c : Dev nD) : Vec Ideal S4096x4096 .bf16 := V m c main_v1
abbrev vW (c : Dev nD) : Vec Ideal S32000x4096 .f32 := V m c main_arg0
abbrev vB (c : Dev nD) : Vec Ideal S1x32000 .f32 := V m c main_v2
abbrev vWr (c : Dev nD) : Vec Ideal S32000x4096 .f32 := V m c main_arg4
abbrev vBr (c : Dev nD) : Vec Ideal S1x32000 .f32 := V m c main_v3
abbrev vT (c : Dev nD) : Vec Ideal S4096x1 .i32 := V m c main_v4

/-- The windows' blocks at a grid point, each at its literal type. -/
abbrev xblk (c : Dev nD) (t : Fin cfg0.N) : Vec Ideal S2048x4096 .bf16 := Gen.iblk m c 0 t
abbrev wblk (c : Dev nD) (t : Fin cfg0.N) : Vec Ideal S256x4096 .f32 := Gen.iblk m c 1 t
abbrev bblk (c : Dev nD) (t : Fin cfg0.N) : Vec Ideal S1x256 .f32 := Gen.iblk m c 2 t
abbrev wrblk (c : Dev nD) (t : Fin cfg0.N) : Vec Ideal S256x4096 .f32 := Gen.iblk m c 3 t
abbrev brblk (c : Dev nD) (t : Fin cfg0.N) : Vec Ideal S1x256 .f32 := Gen.iblk m c 4 t
abbrev tblk (c : Dev nD) (t : Fin cfg0.N) : Vec Ideal S2048x1 .i32 := Gen.iblk m c 5 t

/-- The token features as the region finds them: narrowed (the identity on extended reals), then the two token
    axes merged. -/
theorem vX_eq (c : Dev nD) :
    vX m c = shapeCast S4096x4096 (truncf (F := Ideal) .bf16 (aX m c) bitsLt_bf16_f32) shapeCasts_S8x512x4096_S4096x4096 := by
  show StableHlo.after hostOps0 (fun b => m (c, b)) (Proc.devRef .tc main_v1) = _
  after_results
  rfl

/-- The biases as the region finds them: a row vector. -/
theorem vB_eq (c : Dev nD) : vB m c = shapeCast S1x32000 (aB m c) shapeCasts_S32000_S1x32000 := by
  show StableHlo.after hostOps0 (fun b => m (c, b)) (Proc.devRef .tc main_v2) = _
  after_results
  rfl

theorem vBr_eq (c : Dev nD) : vBr m c = shapeCast S1x32000 (aBr m c) shapeCasts_S32000_S1x32000 := by
  show StableHlo.after hostOps0 (fun b => m (c, b)) (Proc.devRef .tc main_v3) = _
  after_results
  rfl

/-- The targets as the region finds them: the two token axes merged, as a column. -/
theorem vT_eq (c : Dev nD) : vT m c = shapeCast S4096x1 (aT m c) shapeCasts_S8x512_S4096x1 := by
  show StableHlo.after hostOps0 (fun b => m (c, b)) (Proc.devRef .tc main_v4) = _
  after_results
  rfl

theorem vW_eq (c : Dev nD) : vW m c = aW m c := V_main_arg0 m c
theorem vWr_eq (c : Dev nD) : vWr m c = aWr m c := V_main_arg4 m c

/-- Row ρ of token block t / 125 is token 2048 * (t / 125) + ρ, which is row (token % 512) of sequence
    (token / 512): the block of features read there. -/
theorem xblk_apply (c : Dev nD) (t : Fin cfg0.N) (ρ : Fin 2048) (h : Fin 4096) :
    xblk m c t (ix2 ρ h)
      = m ((c.tc : Thread nD τ).loc main_arg1)
          (ix3 (⟨(2048 * (t.val / 125) + ρ.val) / 512, by have := point_lt t; omega⟩ : Fin 8)
            (⟨(2048 * (t.val / 125) + ρ.val) % 512, by omega⟩ : Fin 512) h) := by
  have ht := point_lt t
  obtain ⟨e0, e1, -⟩ := index_facts t
  have h1 : xblk m c t (ix2 ρ h) = vX m c (ix2 (⟨2048 * (t.val / 125) + ρ.val, by omega⟩ : Fin 4096) h) := by
    show V m c main_v1 (((cfg0.win 0).blk t).view.emb (ix2 ρ h)) = V m c main_v1 _
    refine congrArg _ ?_
    funext a
    apply Fin.ext
    match a with
    | ⟨0, _⟩ => show win0_0.index t (0 : Fin 2) * 2048 + 1 * ρ.val = 2048 * (t.val / 125) + ρ.val; omega
    | ⟨1, _⟩ => show win0_0.index t (1 : Fin 2) * 4096 + 1 * h.val = h.val; omega
  rw [h1, vX_eq]
  refine (shapeCast_apply _ _ _ _ ?_).trans rfl
  rw [Shape.rowMajor_val_three, Shape.rowMajor_val_two]
  show ((2048 * (t.val / 125) + ρ.val) / 512 * 512 + (2048 * (t.val / 125) + ρ.val) % 512) * 4096 + h.val
    = (2048 * (t.val / 125) + ρ.val) * 4096 + h.val
  omega

/-- Row k of class chunk t % 125 is class 256 * (t % 125) + k: the block of weights read there. -/
theorem wblk_apply (c : Dev nD) (t : Fin cfg0.N) (k : Fin 256) (h : Fin 4096) :
    wblk m c t (ix2 k h)
      = m ((c.tc : Thread nD τ).loc main_arg0) (ix2 (⟨256 * (t.val % 125) + k.val, by omega⟩ : Fin 32000) h) := by
  obtain ⟨-, -, e0, e1, -⟩ := index_facts t
  have h1 : wblk m c t (ix2 k h) = vW m c (ix2 (⟨256 * (t.val % 125) + k.val, by omega⟩ : Fin 32000) h) := by
    show V m c main_arg0 (((cfg0.win 1).blk t).view.emb (ix2 k h)) = V m c main_arg0 _
    refine congrArg _ ?_
    funext a
    apply Fin.ext
    match a with
    | ⟨0, _⟩ => show win0_1.index t (0 : Fin 2) * 256 + 1 * k.val = 256 * (t.val % 125) + k.val; omega
    | ⟨1, _⟩ => show win0_1.index t (1 : Fin 2) * 4096 + 1 * h.val = h.val; omega
  rw [h1, vW_eq]

/-- The same for the reference model's weights. -/
theorem wrblk_apply (c : Dev nD) (t : Fin cfg0.N) (k : Fin 256) (h : Fin 4096) :
    wrblk m c t (ix2 k h)
      = m ((c.tc : Thread nD τ).loc main_arg4) (ix2 (⟨256 * (t.val % 125) + k.val, by omega⟩ : Fin 32000) h) := by
  obtain ⟨-, -, -, -, -, -, e0, e1, -⟩ := index_facts t
  have h1 : wrblk m c t (ix2 k h) = vWr m c (ix2 (⟨256 * (t.val % 125) + k.val, by omega⟩ : Fin 32000) h) := by
    show V m c main_arg4 (((cfg0.win 3).blk t).view.emb (ix2 k h)) = V m c main_arg4 _
    refine congrArg _ ?_
    funext a
    apply Fin.ext
    match a with
    | ⟨0, _⟩ => show win0_3.index t (0 : Fin 2) * 256 + 1 * k.val = 256 * (t.val % 125) + k.val; omega
    | ⟨1, _⟩ => show win0_3.index t (1 : Fin 2) * 4096 + 1 * h.val = h.val; omega
  rw [h1, vWr_eq]

/-- Column k of class chunk t % 125 of the bias row is the bias of class 256 * (t % 125) + k. -/
theorem bblk_apply (c : Dev nD) (t : Fin cfg0.N) (k : Fin 256) :
    bblk m c t (ix2 (0 : Fin 1) k)
      = m ((c.tc : Thread nD τ).loc main_arg3) (ix1 (⟨256 * (t.val % 125) + k.val, by omega⟩ : Fin 32000)) := by
  obtain ⟨-, -, -, -, e0, e1, -⟩ := index_facts t
  have h1 : bblk m c t (ix2 (0 : Fin 1) k)
      = vB m c (ix2 (0 : Fin 1) (⟨256 * (t.val % 125) + k.val, by omega⟩ : Fin 32000)) := by
    show V m c main_v2 (((cfg0.win 2).blk t).view.emb (ix2 (0 : Fin 1) k)) = V m c main_v2 _
    refine congrArg _ ?_
    funext a
    apply Fin.ext
    match a with
    | ⟨0, _⟩ => show win0_2.index t (0 : Fin 2) * 1 + 1 * (0 : Fin 1).val = (0 : Fin 1).val; omega
    | ⟨1, _⟩ => show win0_2.index t (1 : Fin 2) * 256 + 1 * k.val = 256 * (t.val % 125) + k.val; omega
  rw [h1, vB_eq]
  exact shapeCast_a_1a_apply _ _ _ _

/-- The same for the reference model's biases. -/
theorem brblk_apply (c : Dev nD) (t : Fin cfg0.N) (k : Fin 256) :
    brblk m c t (ix2 (0 : Fin 1) k)
      = m ((c.tc : Thread nD τ).loc main_arg5) (ix1 (⟨256 * (t.val % 125) + k.val, by omega⟩ : Fin 32000)) := by
  obtain ⟨-, -, -, -, -, -, -, -, e0, e1, -⟩ := index_facts t
  have h1 : brblk m c t (ix2 (0 : Fin 1) k)
      = vBr m c (ix2 (0 : Fin 1) (⟨256 * (t.val % 125) + k.val, by omega⟩ : Fin 32000)) := by
    show V m c main_v3 (((cfg0.win 4).blk t).view.emb (ix2 (0 : Fin 1) k)) = V m c main_v3 _
    refine congrArg _ ?_
    funext a
    apply Fin.ext
    match a with
    | ⟨0, _⟩ => show win0_4.index t (0 : Fin 2) * 1 + 1 * (0 : Fin 1).val = (0 : Fin 1).val; omega
    | ⟨1, _⟩ => show win0_4.index t (1 : Fin 2) * 256 + 1 * k.val = 256 * (t.val % 125) + k.val; omega
  rw [h1, vBr_eq]
  exact shapeCast_a_1a_apply _ _ _ _

/-- Row ρ of token block t / 125 of the target column is the target of token 2048 * (t / 125) + ρ, which is
    row (token % 512) of sequence (token / 512). -/
theorem tblk_apply (c : Dev nD) (t : Fin cfg0.N) (ρ : Fin 2048) :
    tblk m c t (ix2 ρ (0 : Fin 1))
      = m ((c.tc : Thread nD τ).loc main_arg2)
          (ix2 (⟨(2048 * (t.val / 125) + ρ.val) / 512, by have := point_lt t; omega⟩ : Fin 8)
            (⟨(2048 * (t.val / 125) + ρ.val) % 512, by omega⟩ : Fin 512)) := by
  have ht := point_lt t
  obtain ⟨-, -, -, -, -, -, -, -, -, -, e0, e1⟩ := index_facts t
  have h1 : tblk m c t (ix2 ρ (0 : Fin 1))
      = vT m c (ix2 (⟨2048 * (t.val / 125) + ρ.val, by omega⟩ : Fin 4096) (0 : Fin 1)) := by
    show V m c main_v4 (((cfg0.win 5).blk t).view.emb (ix2 ρ (0 : Fin 1))) = V m c main_v4 _
    refine congrArg _ ?_
    funext a
    apply Fin.ext
    match a with
    | ⟨0, _⟩ => show win0_5.index t (0 : Fin 2) * 2048 + 1 * ρ.val = 2048 * (t.val / 125) + ρ.val; omega
    | ⟨1, _⟩ => show win0_5.index t (1 : Fin 2) * 1 + 1 * (0 : Fin 1).val = (0 : Fin 1).val; omega
  rw [h1, vT_eq]
  refine shapeCast_apply _ _ _ _ ?_
  rw [Shape.rowMajor_val_two, Shape.rowMajor_val_two]
  show (2048 * (t.val / 125) + ρ.val) / 512 * 512 + (2048 * (t.val / 125) + ρ.val) % 512
    = (2048 * (t.val / 125) + ρ.val) * 1 + (0 : Fin 1).val
  have : ((0 : Fin 1).val) = 0 := rfl
  omega

end Cert.KernelIdeal.Blocks

end
-- ==== Proof.KernelToken.lean ====
/-
  What a grid point's blocks hold for one token, and what the recurrence over the 125 class chunks ends at.

  Token q of the 4096 is token q % 512 of sequence q / 512; its features are a row of the feature array and its
  target a word of the target array. Point t of the grid reads token block t / 125 and class chunk t % 125, so
  row ρ of its token blocks is token 2048 * (t / 125) + ρ and entry k of its class blocks is class
  256 * (t % 125) + k: the chunk logit of row ρ against entry k is that token's logit at that class. After all
  125 chunks the online log-sum-exp recurrence on a row of real logits, from a real starting maximum, ends at
  the row's log-softmax at the target, which is the token's log-probability in the specification's array.
-/
import proofs.«414215_j57698590654887_3_alg».proof.Proof.Gen.KernelIdeal.Frame
import proofs.«414215_j57698590654887_3_alg».proof.Proof.KernelPieces
import proofs.«414215_j57698590654887_3_alg».proof.Proof.KernelRow
import proofs.«414215_j57698590654887_3_alg».proof.Proof.KernelBlocks
import proofs.«414215_j57698590654887_3_alg».proof.Proof.LibOnlineLogSumExp
import Idealize.ShloMosaic.Lib.Pipeline.Value
import Idealize.ShloMosaic.Lib.ValueIdx
import Idealize.ShloMosaic.Lib.Tactic

set_option maxRecDepth 16384

noncomputable section

namespace Cert.KernelIdeal.Token

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Blocks

variable (m : (ℓ : Loc nD τ sig) → Buf (Elt Ideal) ℓ)

/-! ## A token's logits and target, read off the argument arrays -/

/-- Token q of the 4096 is token q % 512 of sequence q / 512. -/
abbrev tb (q : Fin 4096) : Fin 8 := ⟨q.val / 512, by have := q.isLt; omega⟩
abbrev tp (q : Fin 4096) : Fin 512 := ⟨q.val % 512, Nat.mod_lt _ (by decide)⟩

/-- Token q's 4096 features. -/
def feat (c : Dev nD) (q : Fin 4096) : Fin 4096 → EReal := fun h => aX m c (ix3 (tb q) (tp q) h)

/-- Token q's target word. -/
def tword (c : Dev nD) (q : Fin 4096) : BitVec 32 := aT m c (ix2 (tb q) (tp q))

/-- The logits of a token with features x against the model (W, B), as a function of the class number: 0 beyond
    the 32000 classes, where the recurrence never looks. -/
def logitsN (x : Fin 4096 → EReal) (W : Dpo.ShW.Idx → EReal) (B : Dpo.ShB.Idx → EReal) : ℕ → EReal :=
  fun cl => if h : cl < 32000 then Dpo.logit x (fun v h => W (ix2 v h)) (fun v => B (ix1 v)) ⟨cl, h⟩ else 0

/-- The value both running maxima start from. -/
abbrev m0 : EReal := Ideal.ofBits .f32 0xFF333332#32

/-- It is a real number: its exponent field is neither all zeros nor all ones. -/
theorem m0_real : ∃ r : ℝ, m0 = (r : EReal) := by
  have h1 : ¬ ((0xFF333332#32 : BitVec 32).extractLsb' 23 8).toNat = 2 ^ 8 - 1 := by decide
  have h2 : ¬ ((0xFF333332#32 : BitVec 32).extractLsb' 23 8).toNat = 0 := by decide
  show ∃ r : ℝ, Ideal.ieee 8 23 (0xFF333332#32 : BitVec 32) = (r : EReal)
  unfold Ideal.ieee
  simp only []
  rw [if_neg h1, if_neg h2]
  exact ⟨_, rfl⟩

/-! ## After all 125 chunks: the token's log-probability -/

/-- With real inputs every entry of the logit function is a real number: a logit below 32000, 0 beyond. -/
theorem logitsN_real (x : Fin 4096 → EReal) (W : Dpo.ShW.Idx → EReal) (B : Dpo.ShB.Idx → EReal)
    (hx : ∀ h, Dpo.IsReal (x h)) (hW : ∀ i, Dpo.IsReal (W i)) (hB : ∀ i, Dpo.IsReal (B i)) :
    logitsN x W B = fun cl => (((logitsN x W B cl).toReal : ℝ) : EReal) := by
  funext cl
  unfold logitsN
  by_cases hc : cl < 32000
  · simp only [dif_pos hc]
    exact Dpo.logit_isReal hx (fun v h => hW _) (fun v => hB _) ⟨cl, hc⟩
  · simp only [dif_neg hc]
    rw [EReal.toReal_zero, EReal.coe_zero]

/-- With real inputs and a target that is a class, the final triple of the recurrence gives
    target logit - (maximum + log sum) = the log-softmax of the token's logits at the target; the weight of a
    target that is a class (hence not the ignored word) is 1. -/
theorem final_value (x : Fin 4096 → EReal) (W : Dpo.ShW.Idx → EReal) (B : Dpo.ShB.Idx → EReal)
    (hx : ∀ h, Dpo.IsReal (x h)) (hW : ∀ i, Dpo.IsReal (W i)) (hB : ∀ i, Dpo.IsReal (B i))
    (w : BitVec 32) (hw : w.toNat < 32000) :
    ((Dpo.onlineState (logitsN x W B) w.toNat m0 125).2.2
        - ((Dpo.onlineState (logitsN x W B) w.toNat m0 125).1
            + Ideal.log (Dpo.onlineState (logitsN x W B) w.toNat m0 125).2.1))
      * (if w = 4294967196#32 then (0 : EReal) else 1)
      = Dpo.tokLogp x (fun v h => W (ix2 v h)) (fun v => B (ix1 v)) (Dpo.classOf w) := by
  -- the target is a class, so it is not the ignored word, whose value is 4294967196
  have hne : w ≠ 4294967196#32 := by
    intro e
    rw [e] at hw
    exact absurd hw (by decide)
  rw [if_neg hne, mul_one]
  -- the logits are real numbers and so is the starting maximum
  obtain ⟨m0r, hm0⟩ := m0_real
  rw [hm0, logitsN_real x W B hx hW hB, Dpo.online_final (fun cl => (logitsN x W B cl).toReal) w.toNat hw m0r]
  -- the class the target names is its value
  have hcl : Dpo.classOf w = ⟨w.toNat, hw⟩ := Fin.ext (Nat.mod_eq_of_lt hw)
  rw [hcl]
  unfold Dpo.tokLogp
  -- on the 32000 classes the logit function is the token's logits
  have hfun : (fun v : Fin 32000 => (logitsN x W B v.val).toReal)
      = fun v : Fin 32000 => (Dpo.logit x (fun v h => W (ix2 v h)) (fun v => B (ix1 v)) v).toReal := by
    funext v
    unfold logitsN
    simp only [dif_pos v.isLt]
  rw [hfun]

/-! ## The grid's chunk coordinate -/

/-- The chunk coordinate of point t is t % 125. -/
theorem coords_1 : ∀ t : Fin cfg0.N, (grid0.coords t 1).val = t.val % 125 :=
  (by decide +kernel : ∀ t : Fin grid0.N, (grid0.coords t 1).val = t.val % 125)

/-! ## The blocks a point reads are the token's logits on the point's chunk -/

theorem chunk_p (c : Dev nD) (t : Fin cfg0.N) (ρ : Fin 2048) (q : Fin 4096) (hq : q.val = 2048 * (t.val / 125) + ρ.val)
    (k : Fin 256) :
    logitsN (feat m c q) (aW m c) (aB m c) (256 * (grid0.coords t 1).val + k.val)
      = Row.chunkLogit (xblk m c t) (wblk m c t) (bblk m c t) ρ k := by
  have ht := point_lt t
  have hk := k.isLt
  obtain ⟨qv, hqv⟩ := q
  dsimp only at hq
  subst hq
  rw [coords_1 t]
  have hcl : 256 * (t.val % 125) + k.val < 32000 := by omega
  unfold logitsN
  rw [dif_pos hcl]
  unfold Dpo.logit Row.chunkLogit
  rw [bblk_apply]
  refine congrArg₂ (· + ·) (Finset.sum_congr rfl (fun h _ => ?_)) rfl
  rw [xblk_apply, wblk_apply]
  rfl

theorem chunk_r (c : Dev nD) (t : Fin cfg0.N) (ρ : Fin 2048) (q : Fin 4096) (hq : q.val = 2048 * (t.val / 125) + ρ.val)
    (k : Fin 256) :
    logitsN (feat m c q) (aWr m c) (aBr m c) (256 * (grid0.coords t 1).val + k.val)
      = Row.chunkLogit (xblk m c t) (wrblk m c t) (brblk m c t) ρ k := by
  have ht := point_lt t
  have hk := k.isLt
  obtain ⟨qv, hqv⟩ := q
  dsimp only at hq
  subst hq
  rw [coords_1 t]
  have hcl : 256 * (t.val % 125) + k.val < 32000 := by omega
  unfold logitsN
  rw [dif_pos hcl]
  unfold Dpo.logit Row.chunkLogit
  rw [brblk_apply]
  refine congrArg₂ (· + ·) (Finset.sum_congr rfl (fun h _ => ?_)) rfl
  rw [xblk_apply, wrblk_apply]
  rfl

theorem tgt_blk (c : Dev nD) (t : Fin cfg0.N) (ρ : Fin 2048) (q : Fin 4096) (hq : q.val = 2048 * (t.val / 125) + ρ.val) :
    (tblk m c t (ix2 ρ (0 : Fin 1)) : BitVec 32) = tword m c q := by
  obtain ⟨qv, hqv⟩ := q
  dsimp only at hq
  subst hq
  rw [tblk_apply]
  rfl

/-! ## The specification's array at a token -/

/-- The specification's array at plane p, token q: the policy model's log-probability in plane 0, the reference
    model's in plane 1. -/
theorem regionOut_apply (c : Dev nD) (p : Fin 2) (q : Fin 4096) :
    Dpo.regionOut (aX m c) (aW m c) (aB m c) (aWr m c) (aBr m c) (aT m c) (ix3 p q (0 : Fin 1))
      = if p.val = 0 then
          Dpo.tokLogp (feat m c q) (fun v h => aW m c (ix2 v h)) (fun v => aB m c (ix1 v)) (Dpo.classOf (tword m c q))
        else
          Dpo.tokLogp (feat m c q) (fun v h => aWr m c (ix2 v h)) (fun v => aBr m c (ix1 v)) (Dpo.classOf (tword m c q)) := by
  unfold Dpo.regionOut Dpo.tokArr feat tword
  rfl

end Cert.KernelIdeal.Token

end
-- ==== Proof.KernelCover.lean ====
/-
  From the blocks the kernel writes back to the array its one region leaves.

  The region runs over a grid of 2 x 125 points; point t works on block n = t / 125 of 2048 tokens and on
  chunk v = t % 125 of the classes. The output array has 2 planes of 4096 rows and 1 column; its window is the
  2 x 2048 x 1 block at block index (0, n, 0), that is, rows 2048 * n .. 2048 * n + 2047 of both planes. The
  block is stored, and written back, only at the last chunk of each token block: at the two points with
  t % 125 = 124. If at each of those two points the block holds a function G of the array index read at
  plane p, row 2048 * (t / 125) + r, column 0, then the array ends holding G: row r of the 4096 lies in the
  block of the point 125 * (r / 2048) + 124, and the two blocks together cover the array.
-/
import proofs.«414215_j57698590654887_3_alg».proof.Proof.Gen.KernelIdeal.Frame
import proofs.«414215_j57698590654887_3_alg».proof.Proof.TokenLogProb
import Idealize.ShloMosaic.Lib.Pipeline.Value
import Idealize.ShloMosaic.Lib.ValueIdx

noncomputable section

namespace Cert.KernelIdeal.Cover

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The grid has 250 points, so a point's token block is 0 or 1 and its rows lie inside the 4096. -/
theorem row_lt (t : Fin cfg0.N) (r : Fin 2048) : 2048 * (t.val / 125) + r.val < 4096 := by
  have h : t.val < 250 := lt_of_lt_of_eq t.isLt N_0
  have := r.isLt
  omega

/-- The window's block index at point t, decided over the grid: plane block 0, token block t / 125, column block 0. -/
theorem index6 : ∀ t : Fin cfg0.N, win0_6.index t (0 : Fin 3) = 0 ∧ win0_6.index t (1 : Fin 3) = t.val / 125
    ∧ win0_6.index t (2 : Fin 3) = 0 :=
  (by decide +kernel : ∀ t : Fin grid0.N, _)

/-- What a point that writes back writes is its block of G: the block's entry (p, r, 0) sits at plane p,
    row 2048 * (t / 125) + r, column 0 of the array (a block coordinate is block index * block size + the
    coordinate inside the block). -/
theorem flushed6_eq (c : Dev nD) (G : (⟨3, ![2, 4096, 1]⟩ : Shape).Idx → EReal)
    (hC : ∀ (t : Fin cfg0.N), t.val % 125 = 124 → ∀ (p : Fin 2) (r : Fin 2048),
      (Gen.outsAt0 m c t.val t.isLt).1 (ValueIdx.ix3 p r 0)
        = G (ValueIdx.ix3 p ⟨2048 * (t.val / 125) + r.val, row_lt t r⟩ 0))
    (t : Fin cfg0.N) (hf : (cfg0.win 6).flush t = true) :
    (dats m 0 c).flushed 6 t = ((cfg0.win 6).blk t).view.read (Elt Ideal) G := by
  have h124 : t.val % 125 = 124 := (flush0_6 t).mp hf
  show (cfg0.win 6).cut (grid0.coords t) ((dats m 0 c).after 6 t) = _
  rw [after0_6]
  funext j
  have hp : (j 0).val < 2 := (j 0).isLt
  have hr : (j 1).val < 2048 := (j 1).isLt
  have hq : (j 2).val < 1 := (j 2).isLt
  obtain ⟨i0, i1, i2⟩ := index6 t
  have e1 : (cfg0.win 6).xinj (grid0.coords t) j
      = ValueIdx.ix3 (⟨(j 0).val, hp⟩ : Fin 2) (⟨(j 1).val, hr⟩ : Fin 2048) (0 : Fin 1) := by
    funext a; apply Fin.ext
    match a with
    | ⟨0, _⟩ => rfl
    | ⟨1, _⟩ => rfl
    | ⟨2, _⟩ => show (j 2).val = 0; omega
  have e2 : ((cfg0.win 6).blk t).view.emb j
      = ValueIdx.ix3 (⟨(j 0).val, hp⟩ : Fin 2)
          (⟨2048 * (t.val / 125) + (j 1).val, row_lt t ⟨(j 1).val, hr⟩⟩ : Fin 4096) (0 : Fin 1) := by
    funext a; apply Fin.ext
    match a with
    | ⟨0, _⟩ => show win0_6.index t (0 : Fin 3) * 2 + 1 * (j 0).val = (j 0).val; omega
    | ⟨1, _⟩ => show win0_6.index t (1 : Fin 3) * 2048 + 1 * (j 1).val = 2048 * (t.val / 125) + (j 1).val; omega
    | ⟨2, _⟩ => show win0_6.index t (2 : Fin 3) * 1 + 1 * (j 2).val = 0; omega
  show (Gen.outsAt0 m c t.val t.isLt).1 ((cfg0.win 6).xinj (grid0.coords t) j) = G (((cfg0.win 6).blk t).view.emb j)
  exact (congrArg (Gen.outsAt0 m c t.val t.isLt).1 e1).trans
    ((hC t h124 ⟨(j 0).val, hp⟩ ⟨(j 1).val, hr⟩).trans (congrArg G e2).symm)

/-- An index of the array is in point t's block iff each coordinate is in the block's range on its axis. -/
theorem mem_blk6 (t : Fin cfg0.N) (i : S2x4096x1.Idx) :
    i ∈ ((cfg0.win 6).blk t).view.set ↔ ∀ a : Fin 3, win0_6.index t a * S2x2048x1.size a ≤ (i a).val
      ∧ (i a).val < win0_6.index t a * S2x2048x1.size a + S2x2048x1.size a := by
  show i ∈ ((View.whole main_v5).slice (win0_6.rect t)).set ↔ _
  rw [View.set_slice_whole, Rect.mem_set_unit]
  exact Iff.rfl

/-- Every index of the array lies in the block of a point that writes back: row r in that of the point
    125 * (r / 2048) + 124, the last chunk of token block r / 2048. -/
theorem covered6 (i : S2x4096x1.Idx) :
    ∃ t : Fin cfg0.N, (cfg0.win 6).flush t = true ∧ i ∈ ((cfg0.win 6).blk t).view.set := by
  have h0 : (i 0).val < 2 := (i 0).isLt
  have h1 : (i 1).val < 4096 := (i 1).isLt
  have h2 : (i 2).val < 1 := (i 2).isLt
  have hN : 125 * ((i 1).val / 2048) + 124 < cfg0.N := lt_of_lt_of_eq (by omega) N_0.symm
  refine ⟨⟨125 * ((i 1).val / 2048) + 124, hN⟩, (flush0_6 _).mpr (by show (125 * ((i 1).val / 2048) + 124) % 125 = 124; omega), ?_⟩
  rw [mem_blk6]
  obtain ⟨i0, i1, i2⟩ := index6 ⟨125 * ((i 1).val / 2048) + 124, hN⟩
  have i1' : win0_6.index ⟨125 * ((i 1).val / 2048) + 124, hN⟩ (1 : Fin 3) = (i 1).val / 2048 := by
    rw [i1]; show (125 * ((i 1).val / 2048) + 124) / 125 = (i 1).val / 2048; omega
  intro a
  match a with
  | ⟨0, _⟩ =>
    show win0_6.index ⟨125 * ((i 1).val / 2048) + 124, hN⟩ (0 : Fin 3) * 2 ≤ (i 0).val
      ∧ (i 0).val < win0_6.index ⟨125 * ((i 1).val / 2048) + 124, hN⟩ (0 : Fin 3) * 2 + 2
    omega
  | ⟨1, _⟩ =>
    show win0_6.index ⟨125 * ((i 1).val / 2048) + 124, hN⟩ (1 : Fin 3) * 2048 ≤ (i 1).val
      ∧ (i 1).val < win0_6.index ⟨125 * ((i 1).val / 2048) + 124, hN⟩ (1 : Fin 3) * 2048 + 2048
    omega
  | ⟨2, _⟩ =>
    show win0_6.index ⟨125 * ((i 1).val / 2048) + 124, hN⟩ (2 : Fin 3) * 1 ≤ (i 2).val
      ∧ (i 2).val < win0_6.index ⟨125 * ((i 1).val / 2048) + 124, hN⟩ (2 : Fin 3) * 1 + 1
    omega

/-- If at each of the two points that write their block back the block holds G read at plane p, row
    2048 * (t / 125) + r, column 0, the array ends holding G: every write-back writes a block of G, and the
    blocks written back cover the array. -/
theorem final6_of_caseC (c : Dev nD) (G : (⟨3, ![2, 4096, 1]⟩ : Shape).Idx → EReal)
    (hC : ∀ (t : Fin cfg0.N), t.val % 125 = 124 → ∀ (p : Fin 2) (r : Fin 2048),
      (Gen.outsAt0 m c t.val t.isLt).1 (ValueIdx.ix3 p r 0)
        = G (ValueIdx.ix3 p ⟨2048 * (t.val / 125) + r.val, row_lt t r⟩ 0)) :
    (Gen.dats m 0 c).arrAt 6 cfg0.N = G :=
  (dats m 0 c).arrAt_eq_of_cover 6 G (fun t hf => flushed6_eq m c G hC t hf) covered6

end Cert.KernelIdeal.Cover

end
-- ==== Proof.KernelRegion.lean ====
/-
  What the kernel's one region leaves in its output, token by token.

  The grid is 2 blocks of 2048 tokens by 125 chunks of 256 classes, the chunk running fastest, so row ρ of the
  token block n = t / 125 of point t is token q = 2048 * n + ρ. Over the 125 points of a block the kernel carries,
  for the policy model and for the reference model, one triple per row: the running maximum of the token's logits,
  the running sum of their exponentials shifted by that maximum, and the running logit at the token's target. The
  block's first point starts each triple at (m0, 0, 0), m0 a large negative real number; every point moves it by one
  step of the online log-sum-exp recurrence on the point's chunk. Hence, by induction on the point, after point t the
  triple of row ρ is the recurrence's state after the first t % 125 + 1 chunks of token q's 32000 logits; the
  induction hypothesis is only ever used inside a block, where the token does not change.

  At a block's last point, t % 125 = 124, the kernel stores for each row
  (target logit - (maximum + log sum)) * weight, the weight being 1 unless the target is the ignored word, which a
  target that is a class never is. After all 125 chunks, for real inputs, this is the log-softmax of the token's
  logits at its target, whatever m0 was: the token's log-probability, in plane 0 under the policy model and in plane 1
  under the reference model. Only these two last points write the output array back, each its own half of the rows.
-/
import proofs.«414215_j57698590654887_3_alg».proof.Proof.Gen.KernelIdeal.Frame
import proofs.«414215_j57698590654887_3_alg».proof.Proof.KernelPieces
import proofs.«414215_j57698590654887_3_alg».proof.Proof.KernelRow
import proofs.«414215_j57698590654887_3_alg».proof.Proof.LibOnlineLogSumExp
import proofs.«414215_j57698590654887_3_alg».proof.Proof.KernelBlocks
import proofs.«414215_j57698590654887_3_alg».proof.Proof.KernelToken
import proofs.«414215_j57698590654887_3_alg».proof.Proof.KernelCover
import Idealize.ShloMosaic.Lib.ValueIdx

set_option maxRecDepth 16384

noncomputable section

namespace Cert.KernelIdeal.RegionValue

open Idealize.ShloMosaic Idealize.ShloMosaic.TcCoe Idealize.ShloMosaic.ValueIdx
open Idealize.SL Idealize.SL.Sem
open Cert.KernelIdeal Cert.KernelIdeal.Gen Cert.KernelIdeal.Blocks Cert.KernelIdeal.Token

variable (m : (ℓ : Loc nD τ sig) → Buf (Elt Ideal) ℓ)

/-! ## What each case leaves in the six carried values -/

/-- What the point before t left (the six carried values are its components 2 to 7). -/
abbrev prev (c : Dev nD) (t : Fin cfg0.N) :=
  outsAt0 m c (t.val - 1) (Nat.lt_of_le_of_lt (Nat.sub_le t.val 1) t.isLt)

/-- At the first point of a token block the six carried values are the update, by the point's chunk, of the
    start values (m0, 0, 0) of each model. -/
theorem scr_A (c : Dev nD) (t : Fin cfg0.N) (h0 : t.val % 125 = 0) :
    (outsAt0 m c t.val t.isLt).2 =
      (k0_pay20 (F := Ideal) (k0_pay18 (F := Ideal) (xblk m c t) (wblk m c t) (bblk m c t) (k0_pay7 (F := Ideal))),
       k0_pay19 (F := Ideal) (k0_pay14 (F := Ideal) (xblk m c t) (wblk m c t) (bblk m c t)) (k0_pay18 (F := Ideal) (xblk m c t) (wblk m c t) (bblk m c t) (k0_pay7 (F := Ideal))) (k0_pay7 (F := Ideal)) (k0_pay8 (F := Ideal)),
       k0_pay21 (F := Ideal) (k0_pay17 (F := Ideal) (grid0.coords t) (xblk m c t) (wblk m c t) (bblk m c t) (tblk m c t)) (k0_pay9 (F := Ideal)),
       k0_pay2 (F := Ideal) (k0_pay23 (F := Ideal) (k0_pay15 (F := Ideal) (xblk m c t) (wrblk m c t) (brblk m c t)) (k0_pay10 (F := Ideal))),
       k0_pay1 (F := Ideal) (k0_pay15 (F := Ideal) (xblk m c t) (wrblk m c t) (brblk m c t)) (k0_pay23 (F := Ideal) (k0_pay15 (F := Ideal) (xblk m c t) (wrblk m c t) (brblk m c t)) (k0_pay10 (F := Ideal))) (k0_pay24 (F := Ideal) (k0_pay15 (F := Ideal) (xblk m c t) (wrblk m c t) (brblk m c t)) (k0_pay10 (F := Ideal)) (k0_pay10 (F := Ideal)) (k0_pay11 (F := Ideal))),
       k0_pay3 (F := Ideal) (k0_pay22 (F := Ideal) (k0_pay15 (F := Ideal) (xblk m c t) (wrblk m c t) (brblk m c t)) (k0_pay16 (F := Ideal) (grid0.coords t) (tblk m c t))) (k0_pay12 (F := Ideal))) := by
  have h1 : ¬ t.val % 125 = 124 := by omega
  rw [outsAt0_A m c t h0 h1]
  dsimp only
  rw [Pieces.sA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t),
    Pieces.sA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t),
    Pieces.sA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t),
    Pieces.sA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t),
    Pieces.sA_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t),
    Pieces.sA_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (xblk m c t) (wblk m c t) (bblk m c t) (wrblk m c t) (brblk m c t) (tblk m c t)]

/-- At every later point of the block they are the update, by the point's chunk, of what the point before left. -/
theorem scr_step (c : Dev nD) (t : Fin cfg0.N) (h0 : ¬ t.val % 125 = 0) :
    (outsAt0 m c t.val t.isLt).2 =
      (k0_pay20 (F := Ideal) (k0_pay18 (F := Ideal) (xblk m c t) (wblk m c t) (bblk m c t) (prev m c t).2.1),
       k0_pay19 (F := Ideal) (k0_pay14 (F := Ideal) (xblk m c t) (wblk m c t) (bblk m c t)) (k0_pay18 (F := Ideal) (xblk m c t) (wblk m c t) (bblk m c t) (prev m c t).2.1) (prev m c t).2.1 (prev m c t).2.2.1,
       k0_pay21 (F := Ideal) (k0_pay17 (F := Ideal) (grid0.coords t) (xblk m c t) (wblk m c t) (bblk m c t) (tblk m c t)) (prev m c t).2.2.2.1,
       k0_pay2 (F := Ideal) (k0_pay23 (F := Ideal) (k0_pay15 (F := Ideal) (xblk m c t) (wrblk m c t) (brblk m c t)) (prev m c t).2.2.2.2.1),
       k0_pay1 (F := Ideal) (k0_pay15 (F := Ideal) (xblk m c t) (wrblk m c t) (brblk m c t)) (k0_pay23 (F := Ideal) (k0_pay15 (F := Ideal) (xblk m c t) (wrblk m c t) (brblk m c t)) (prev m c t).2.2.2.2.1) (k0_pay24 (F := Ideal) (k0_pay15 (F := Ideal) (xblk m c t) (wrblk m c t) (brblk m c t)) (prev m c t).2.2.2.2.1 (prev m c t).2.2.2.2.1 (prev m c t).2.2.2.2.2.1),
       k0_pay3 (F := Ideal) (k0_pay22 (F := Ideal) (k0_pay15 (F := Ideal) (xblk m c t) (wrblk m c t) (brblk m c t)) (k0_pay16 (F := Ideal) (grid0.coords t) (tblk m c t))) (prev m c t).2.2.2.2.2.2) := by
  by_cases h1 : t.val % 125 = 124
  · rw [outsAt0_C m c t h0 h1]
    dsimp only
    rw [Pieces.sC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sC_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sC_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2]
  · rw [outsAt0_B m c t h0 h1]
    dsimp only
    rw [Pieces.sB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sB_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2,
      Pieces.sB_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2]

/-! ## The invariant: after point n, row ρ's triples are the recurrence's state after n % 125 + 1 chunks -/

/-- Row ρ of the block of point n is token q = 2048 * (n / 125) + ρ. After point n the policy triple (running
    maximum, running sum, target logit) of that row is the state of the online recurrence on the token's policy
    logits after the first n % 125 + 1 chunks, and the reference triple the same on its reference logits. By
    induction on the point: a block's first point starts from (m0, 0, 0); every other point steps the state
    the point before left, which belongs to the same token. -/
theorem inv (c : Dev nD) (n : ℕ) : ∀ (hn : n < cfg0.N) (ρ : Fin 2048) (q : Fin 4096), q.val = 2048 * (n / 125) + ρ.val →
    (((outsAt0 m c n hn).2.1 (ix2 ρ (0 : Fin 1)) : EReal), ((outsAt0 m c n hn).2.2.1 (ix2 ρ (0 : Fin 1)) : EReal),
        ((outsAt0 m c n hn).2.2.2.1 (ix2 ρ (0 : Fin 1)) : EReal))
      = Dpo.onlineState (logitsN (feat m c q) (aW m c) (aB m c)) (tword m c q).toNat m0 (n % 125 + 1)
    ∧ (((outsAt0 m c n hn).2.2.2.2.1 (ix2 ρ (0 : Fin 1)) : EReal), ((outsAt0 m c n hn).2.2.2.2.2.1 (ix2 ρ (0 : Fin 1)) : EReal),
        ((outsAt0 m c n hn).2.2.2.2.2.2 (ix2 ρ (0 : Fin 1)) : EReal))
      = Dpo.onlineState (logitsN (feat m c q) (aWr m c) (aBr m c)) (tword m c q).toNat m0 (n % 125 + 1) := by
  induction n using Nat.strong_induction_on with
  | _ n ih =>
    intro hn ρ q hq
    have hN : n < 250 := point_lt ⟨n, hn⟩
    have hi : (grid0.coords ⟨n, hn⟩ 1).val < 125 := by rw [coords_1]; exact Nat.mod_lt _ (by decide)
    have hap := chunk_p m c ⟨n, hn⟩ ρ q hq
    have har := chunk_r m c ⟨n, hn⟩ ρ q hq
    have htg := tgt_blk m c ⟨n, hn⟩ ρ q hq
    have hc1 : (grid0.coords ⟨n, hn⟩ 1).val = n % 125 := coords_1 ⟨n, hn⟩
    by_cases h0 : n % 125 = 0
    · rw [scr_A m c ⟨n, hn⟩ h0]
      dsimp only
      constructor
      · refine (Row.rowStep_p (grid0.coords ⟨n, hn⟩) hi (xblk m c ⟨n, hn⟩) (wblk m c ⟨n, hn⟩) (bblk m c ⟨n, hn⟩) (tblk m c ⟨n, hn⟩) (k0_pay7 (F := Ideal)) (k0_pay8 (F := Ideal)) (k0_pay9 (F := Ideal)) ρ _ hap).trans ?_
        rw [Row.pay7_apply, Row.pay8_apply, Row.pay9_apply, htg, hc1, h0]
        rfl
      · refine (Row.rowStep_r (grid0.coords ⟨n, hn⟩) hi (xblk m c ⟨n, hn⟩) (wrblk m c ⟨n, hn⟩) (brblk m c ⟨n, hn⟩) (tblk m c ⟨n, hn⟩) (k0_pay10 (F := Ideal)) (k0_pay11 (F := Ideal)) (k0_pay12 (F := Ideal)) ρ _ har).trans ?_
        rw [Row.pay10_apply, Row.pay11_apply, Row.pay12_apply, htg, hc1, h0]
        rfl
    · have hq' : q.val = 2048 * ((n - 1) / 125) + ρ.val := by omega
      obtain ⟨ihp, ihr⟩ := ih (n - 1) (by omega) (by omega) ρ q hq'
      have e : (n - 1) % 125 + 1 = n % 125 := by omega
      rw [e] at ihp ihr
      rw [scr_step m c ⟨n, hn⟩ h0]
      dsimp only
      constructor
      · refine (Row.rowStep_p (grid0.coords ⟨n, hn⟩) hi (xblk m c ⟨n, hn⟩) (wblk m c ⟨n, hn⟩) (bblk m c ⟨n, hn⟩) (tblk m c ⟨n, hn⟩) (prev m c ⟨n, hn⟩).2.1 (prev m c ⟨n, hn⟩).2.2.1 (prev m c ⟨n, hn⟩).2.2.2.1 ρ _ hap).trans ?_
        rw [htg, hc1]
        refine (congrArg (Dpo.chunkStep _ _ (n % 125)) ihp).trans ?_
        rfl
      · refine (Row.rowStep_r (grid0.coords ⟨n, hn⟩) hi (xblk m c ⟨n, hn⟩) (wrblk m c ⟨n, hn⟩) (brblk m c ⟨n, hn⟩) (tblk m c ⟨n, hn⟩) (prev m c ⟨n, hn⟩).2.2.2.2.1 (prev m c ⟨n, hn⟩).2.2.2.2.2.1 (prev m c ⟨n, hn⟩).2.2.2.2.2.2 ρ _ har).trans ?_
        rw [htg, hc1]
        refine (congrArg (Dpo.chunkStep _ _ (n % 125)) ihr).trans ?_
        rfl

/-! ## The output block after a token block's last point -/

/-- At a block's last point the output block's plane 0 is computed from the policy triple the point leaves and
    plane 1 from the reference triple. -/
theorem out_C (c : Dev nD) (t : Fin cfg0.N) (h1 : t.val % 125 = 124) (p : Fin 2) (ρ : Fin 2048) :
    (outsAt0 m c t.val t.isLt).1 (ix3 p ρ (0 : Fin 1)) =
      (if p.val = 0 then
        k0_pay5 (F := Ideal) (tblk m c t) (k0_pay21 (F := Ideal) (k0_pay17 (F := Ideal) (grid0.coords t) (xblk m c t) (wblk m c t) (bblk m c t) (tblk m c t)) (prev m c t).2.2.2.1) (k0_pay20 (F := Ideal) (k0_pay18 (F := Ideal) (xblk m c t) (wblk m c t) (bblk m c t) (prev m c t).2.1)) (k0_pay19 (F := Ideal) (k0_pay14 (F := Ideal) (xblk m c t) (wblk m c t) (bblk m c t)) (k0_pay18 (F := Ideal) (xblk m c t) (wblk m c t) (bblk m c t) (prev m c t).2.1) (prev m c t).2.1 (prev m c t).2.2.1)
      else
        k0_pay6 (F := Ideal) (tblk m c t) (k0_pay3 (F := Ideal) (k0_pay22 (F := Ideal) (k0_pay15 (F := Ideal) (xblk m c t) (wrblk m c t) (brblk m c t)) (k0_pay16 (F := Ideal) (grid0.coords t) (tblk m c t))) (prev m c t).2.2.2.2.2.2) (k0_pay2 (F := Ideal) (k0_pay23 (F := Ideal) (k0_pay15 (F := Ideal) (xblk m c t) (wrblk m c t) (brblk m c t)) (prev m c t).2.2.2.2.1)) (k0_pay1 (F := Ideal) (k0_pay15 (F := Ideal) (xblk m c t) (wrblk m c t) (brblk m c t)) (k0_pay23 (F := Ideal) (k0_pay15 (F := Ideal) (xblk m c t) (wrblk m c t) (brblk m c t)) (prev m c t).2.2.2.2.1) (k0_pay24 (F := Ideal) (k0_pay15 (F := Ideal) (xblk m c t) (wrblk m c t) (brblk m c t)) (prev m c t).2.2.2.2.1 (prev m c t).2.2.2.2.1 (prev m c t).2.2.2.2.2.1))) (ix3 (0 : Fin 1) ρ (0 : Fin 1)) := by
  have h0 : ¬ t.val % 125 = 0 := by omega
  rw [outsAt0_C m c t h0 h1]
  dsimp only
  exact Pieces.oC_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (xblk m c t) (wblk m c t) (bblk m c t) (wrblk m c t) (brblk m c t) (tblk m c t) (prev m c t).2.1 (prev m c t).2.2.1 (prev m c t).2.2.2.1 (prev m c t).2.2.2.2.1 (prev m c t).2.2.2.2.2.1 (prev m c t).2.2.2.2.2.2 p ρ

/-- Under the precondition, at a block's last point row ρ of the output block holds token q's log-probability
    under the policy model in plane 0 and under the reference model in plane 1: the triples are the recurrence's
    state after all 125 chunks, and the stored value is target logit - (maximum + log sum) with weight 1. -/
theorem caseC_tok (c : Dev nD) (hg : Dpo.Good (aX m c) (aW m c) (aB m c) (aWr m c) (aBr m c) (aT m c)) (t : Fin cfg0.N) (h1 : t.val % 125 = 124) (p : Fin 2) (ρ : Fin 2048)
    (q : Fin 4096) (hq : q.val = 2048 * (t.val / 125) + ρ.val) :
    (outsAt0 m c t.val t.isLt).1 (ix3 p ρ (0 : Fin 1)) = Dpo.regionOut (aX m c) (aW m c) (aB m c) (aWr m c) (aBr m c) (aT m c) (ix3 p q (0 : Fin 1)) := by
  have h0 : ¬ t.val % 125 = 0 := by omega
  obtain ⟨Hp, Hr⟩ := inv m c t.val t.isLt ρ q hq
  rw [scr_step m c t h0] at Hp Hr
  dsimp only at Hp Hr
  have e125 : t.val % 125 + 1 = 125 := by omega
  rw [e125] at Hp Hr
  have htg := tgt_blk m c t ρ q hq
  rw [regionOut_apply, out_C m c t h1 p ρ]
  by_cases hp : p.val = 0
  · rw [if_pos hp, if_pos hp]
    refine (Row.pay5_apply (tblk m c t) (k0_pay21 (F := Ideal) (k0_pay17 (F := Ideal) (grid0.coords t) (xblk m c t) (wblk m c t) (bblk m c t) (tblk m c t)) (prev m c t).2.2.2.1) (k0_pay20 (F := Ideal) (k0_pay18 (F := Ideal) (xblk m c t) (wblk m c t) (bblk m c t) (prev m c t).2.1)) (k0_pay19 (F := Ideal) (k0_pay14 (F := Ideal) (xblk m c t) (wblk m c t) (bblk m c t)) (k0_pay18 (F := Ideal) (xblk m c t) (wblk m c t) (bblk m c t) (prev m c t).2.1) (prev m c t).2.1 (prev m c t).2.2.1) ρ).trans ?_
    rw [Row.pay4_apply, htg]
    have e1 := congrArg Prod.fst Hp
    have e2 := congrArg (fun s : EReal × EReal × EReal => s.2.1) Hp
    have e3 := congrArg (fun s : EReal × EReal × EReal => s.2.2) Hp
    dsimp only at e1 e2 e3
    rw [e3, e1, e2]
    exact final_value (feat m c q) (aW m c) (aB m c) (fun h => hg.realX _) hg.realW hg.realB (tword m c q) (hg.tgtLt _)
  · rw [if_neg hp, if_neg hp]
    refine (Row.pay6_apply (tblk m c t) (k0_pay3 (F := Ideal) (k0_pay22 (F := Ideal) (k0_pay15 (F := Ideal) (xblk m c t) (wrblk m c t) (brblk m c t)) (k0_pay16 (F := Ideal) (grid0.coords t) (tblk m c t))) (prev m c t).2.2.2.2.2.2) (k0_pay2 (F := Ideal) (k0_pay23 (F := Ideal) (k0_pay15 (F := Ideal) (xblk m c t) (wrblk m c t) (brblk m c t)) (prev m c t).2.2.2.2.1)) (k0_pay1 (F := Ideal) (k0_pay15 (F := Ideal) (xblk m c t) (wrblk m c t) (brblk m c t)) (k0_pay23 (F := Ideal) (k0_pay15 (F := Ideal) (xblk m c t) (wrblk m c t) (brblk m c t)) (prev m c t).2.2.2.2.1) (k0_pay24 (F := Ideal) (k0_pay15 (F := Ideal) (xblk m c t) (wrblk m c t) (brblk m c t)) (prev m c t).2.2.2.2.1 (prev m c t).2.2.2.2.1 (prev m c t).2.2.2.2.2.1)) ρ).trans ?_
    rw [Row.pay4_apply, htg]
    have e1 := congrArg Prod.fst Hr
    have e2 := congrArg (fun s : EReal × EReal × EReal => s.2.1) Hr
    have e3 := congrArg (fun s : EReal × EReal × EReal => s.2.2) Hr
    dsimp only at e1 e2 e3
    rw [e3, e1, e2]
    exact final_value (feat m c q) (aWr m c) (aBr m c) (fun h => hg.realX _) hg.realWr hg.realBr (tword m c q) (hg.tgtLt _)

/-- The same with the token spelled out: row ρ of the block of point t is row 2048 * (t / 125) + ρ of the array. -/
theorem caseC_out (c : Dev nD) (hg : Dpo.Good (aX m c) (aW m c) (aB m c) (aWr m c) (aBr m c) (aT m c)) :
    ∀ (t : Fin cfg0.N), t.val % 125 = 124 → ∀ (p : Fin 2) (ρ : Fin 2048),
      (outsAt0 m c t.val t.isLt).1 (ix3 p ρ (0 : Fin 1))
        = Dpo.regionOut (aX m c) (aW m c) (aB m c) (aWr m c) (aBr m c) (aT m c)
            (ix3 p (⟨2048 * (t.val / 125) + ρ.val, by have := point_lt t; have := ρ.isLt; omega⟩ : Fin 4096) (0 : Fin 1)) :=
  fun t h1 p ρ => caseC_tok m c hg t h1 p ρ _ rfl

/-! ## The output array after the run -/

/-- The two last points of the token blocks write back the two halves of the rows, each row holding its token's two
    log-probabilities: the output array ends as the specification's. -/
theorem final6 (c : Dev nD) (hg : Dpo.Good (aX m c) (aW m c) (aB m c) (aWr m c) (aBr m c) (aT m c)) : (dats m 0 c).arrAt 6 cfg0.N = Dpo.regionOut (aX m c) (aW m c) (aB m c) (aWr m c) (aBr m c) (aT m c) :=
  Cover.final6_of_caseC m c _ (caseC_out m c hg)

end Cert.KernelIdeal.RegionValue

end
-- ==== Proof.KernelTailDefs.lean ====
/-
  The host operations the kernel program runs after its one region, as functions of the arrays they read.

  The region leaves a 2 x 4096 x 1 array: plane 0 the policy model's per-token log-probabilities, plane 1
  the reference model's, token (b, t) at row 512 * b + t. The operations after it take each plane as an
  8 x 512 array, build the mask of the targets that are not the ignore value -100, sum each sequence's
  log-probabilities, split the eight sequences into the chosen four and the rejected four, and return
  the sum of two scalars: the negated total of the chosen policy log-probabilities divided by the mask
  count of the chosen half (at least one), and the mean over the four pairs of -log_sigmoid of 0.1 times
  ((chosen policy - chosen reference) - (rejected policy - rejected reference)).

  Each definition is the composition of the printed operations in the printed order, at the ideal instance.
-/
import proofs.«414215_j57698590654887_3_alg».proof.KernelIdeal
import Idealize.ShloMosaic.PureOps.Ideal

noncomputable section

namespace Cert.KernelIdeal.TailValue

open Idealize.ShloMosaic
open Cert.KernelIdeal Cert.KernelIdeal.Facts₀ Cert.KernelIdeal.Facts

variable [Cert.KernelIdeal.Facts]

/-- The mask of the targets: 1 where the target word is not -100, else 0. -/
def maskV (tgt : IVec S8x512 32) : FVec Ideal S8x512 .f32 :=
  uitofp (F := Ideal) .f32
    (cmpi .ne tgt (broadcastInDim (s := S_) S8x512 ![] bcast_S_S8x512 (constantI S_ 32 4294967196#32)))

/-- Plane 0 of the region's array, as an 8 x 512 array: the slice of the plane, flattened, then split
    into sequences. -/
def plane0V (out : FVec Ideal S2x4096x1 .f32) : FVec Ideal S8x512 .f32 :=
  shapeCast S8x512
    (shapeCast S4096 (extractStridedSlice S1x4096x1 ![0, 0, 0] out slices_S2x4096x1_S1x4096x1_0_0_0)
      shapeCasts_S1x4096x1_S4096)
    shapeCasts_S4096_S8x512

/-- Plane 1 of the region's array, as an 8 x 512 array. -/
def plane1V (out : FVec Ideal S2x4096x1 .f32) : FVec Ideal S8x512 .f32 :=
  shapeCast S8x512
    (shapeCast S4096 (extractStridedSlice S1x4096x1 ![1, 0, 0] out slices_S2x4096x1_S1x4096x1_1_0_0)
      shapeCasts_S1x4096x1_S4096)
    shapeCasts_S4096_S8x512

/-- The scalar zero, and the zero vector of four entries it broadcasts to. -/
def zero0 : FVec Ideal S_ .f32 := constant (F := Ideal) S_ .f32 0x00000000#32
def zero4 : FVec Ideal S4 .f32 := broadcastInDim (s := S_) S4 ![] bcast_S_S4 zero0

/-- softplus x = log (1 + exp x), computed as max x 0 + log1p (exp (-|x - 0|)), with the branch that
    returns x + 0 where x - 0 is not equal to itself. -/
def softplusV (x : FVec Ideal S4 .f32) : FVec Ideal S4 .f32 :=
  select (cmpf (F := Ideal) .une (subf (F := Ideal) x zero4) (subf (F := Ideal) x zero4))
    (addf (F := Ideal) x zero4)
    (addf (F := Ideal) (maximumf (F := Ideal) x zero4)
      (Host.log1p (F := Ideal) (Host.exp (F := Ideal) (Host.negf (F := Ideal)
        (Host.absf (F := Ideal) (subf (F := Ideal) x zero4))))))

/-- log_sigmoid x = -softplus (-x). -/
def logSigmoidV (x : FVec Ideal S4 .f32) : FVec Ideal S4 .f32 :=
  Host.negf (F := Ideal) (softplusV (Host.negf (F := Ideal) x))

/-- The sum of each of the eight sequences over its 512 tokens. -/
def rowSum (A : FVec Ideal S8x512 .f32) : FVec Ideal S8 .f32 :=
  Host.reduceAdd (F := Ideal) A zero0 reducesTo_S8x512_S8_d1 h_S_

/-- The first four sequences (the chosen half) and the last four (the rejected half). -/
def lo4 (v : FVec Ideal S8 .f32) : FVec Ideal S4 .f32 := extractStridedSlice S4 ![0] v slices_S8_S4_0
def hi4 (v : FVec Ideal S8 .f32) : FVec Ideal S4 .f32 := extractStridedSlice S4 ![4] v slices_S8_S4_4

/-- The sum of four entries. -/
def sum4 (v : FVec Ideal S4 .f32) : FVec Ideal S_ .f32 :=
  Host.reduceAdd (F := Ideal) v zero0 reducesTo_S4_S_d0 h_S_

/-- The number of unmasked tokens of the chosen half, at least one. -/
def maskCount (mask : FVec Ideal S8x512 .f32) : FVec Ideal S_ .f32 :=
  maximumf (F := Ideal)
    (Host.reduceAdd (F := Ideal) (extractStridedSlice S4x512 ![0, 0] mask slices_S8x512_S4x512_0_0) zero0
      reducesTo_S4x512_S_d0_1 h_S_)
    (constant (F := Ideal) S_ .f32 0x3F800000#32)

/-- The negated total of the chosen policy log-probabilities over the mask count. -/
def nllV (P mask : FVec Ideal S8x512 .f32) : FVec Ideal S_ .f32 :=
  Host.divf (F := Ideal) (Host.negf (F := Ideal) (sum4 (lo4 (rowSum P)))) (maskCount mask)

/-- 0.1 times ((chosen policy - chosen reference) - (rejected policy - rejected reference)), per pair. -/
def marginV (P R : FVec Ideal S8x512 .f32) : FVec Ideal S4 .f32 :=
  mulf (F := Ideal)
    (broadcastInDim (s := S_) S4 ![] bcast_S_S4 (constant (F := Ideal) S_ .f32 0x3DCCCCCD#32))
    (subf (F := Ideal)
      (subf (F := Ideal) (lo4 (rowSum P)) (lo4 (rowSum R)))
      (subf (F := Ideal) (hi4 (rowSum P)) (hi4 (rowSum R))))

/-- The mean over the four pairs of -log_sigmoid of the margin. -/
def dpoV (P R : FVec Ideal S8x512 .f32) : FVec Ideal S_ .f32 :=
  Host.divf (F := Ideal) (Host.negf (F := Ideal) (sum4 (logSigmoidV (marginV P R))))
    (constant (F := Ideal) S_ .f32 0x40800000#32)

/-- The program's result from the two planes and the mask. -/
def kerTail (P R mask : FVec Ideal S8x512 .f32) : FVec Ideal S_ .f32 :=
  addf (F := Ideal) (nllV P mask) (dpoV P R)

/-- The program's result from the region's array and the targets. -/
def kerOut (out : FVec Ideal S2x4096x1 .f32) (tgt : IVec S8x512 32) : FVec Ideal S_ .f32 :=
  kerTail (plane0V out) (plane1V out) (maskV tgt)

end Cert.KernelIdeal.TailValue

end
-- ==== Proof.KernelTail.lean ====
/-
  The value of the kernel program's result, read off its frame run.

  The frame run leaves, at the program's result, what the host operations after the region compute from the
  region's output array and the targets. Read in order they are the function kerOut of those two arrays. The
  region's array holds the two models' per-token log-probabilities, plane by plane, token (b, t) at row
  512 * b + t; slicing a plane and reading it as an 8 x 512 array gives the per-token array itself. Together:
  the program's result is kerTail of the two per-token arrays and the target mask.
-/
import proofs.«414215_j57698590654887_3_alg».proof.Proof.Gen.KernelIdeal.Frame
import proofs.«414215_j57698590654887_3_alg».proof.Proof.KernelTailDefs
import proofs.«414215_j57698590654887_3_alg».proof.Proof.TokenLogProb
import Idealize.ShloMosaic.Lib.Pipeline.Value
import Idealize.ShloMosaic.Lib.ValueIdx
import Idealize.ShloMosaic.Lib.StableHlo.Run

noncomputable section

namespace Cert.KernelIdeal.TailValue

open Idealize.ShloMosaic Idealize.ShloMosaic.TcCoe
open Idealize.SL Idealize.SL.Sem
open Idealize.ShloMosaic.Pipeline (Dat Cfg Window)
open Idealize.ShloMosaic.ValueIdx
open Cert.KernelIdeal.Gen

/-! ## The planes of the region's array -/

section Planes

variable (X : Cert.Dpo.ShX.Idx → EReal) (W : Cert.Dpo.ShW.Idx → EReal) (B : Cert.Dpo.ShB.Idx → EReal)
  (Wr : Cert.Dpo.ShW.Idx → EReal) (Br : Cert.Dpo.ShB.Idx → EReal) (tgt : Cert.Dpo.ShT.Idx → BitVec 32)

/-- Row 512 * b + t of 4096, for sequence b and position t. -/
abbrev rowOf (b : Fin 8) (t : Fin 512) : Fin 4096 := ⟨b.val * 512 + t.val, by have := b.isLt; have := t.isLt; omega⟩

/-- The region's array at plane p and row 512 * b + t is the per-token array of that plane's model at (b, t):
    the row's quotient and remainder by 512 are b and t. -/
theorem regionOut_row0 (b : Fin 8) (t : Fin 512) :
    Cert.Dpo.regionOut X W B Wr Br tgt (ix3 (0 : Fin 2) (rowOf b t) (0 : Fin 1)) = Cert.Dpo.tokArr X W B tgt (ix2 b t) := by
  unfold Cert.Dpo.regionOut
  rw [if_pos (by rfl)]
  refine congrArg (Cert.Dpo.tokArr X W B tgt) ?_
  have hb := b.isLt
  have ht := t.isLt
  refine congrArg₂ ix2 (Fin.ext ?_) (Fin.ext ?_)
  · show (b.val * 512 + t.val) / 512 = b.val
    omega
  · show (b.val * 512 + t.val) % 512 = t.val
    omega

theorem regionOut_row1 (b : Fin 8) (t : Fin 512) :
    Cert.Dpo.regionOut X W B Wr Br tgt (ix3 (1 : Fin 2) (rowOf b t) (0 : Fin 1)) = Cert.Dpo.tokArr X Wr Br tgt (ix2 b t) := by
  unfold Cert.Dpo.regionOut
  rw [if_neg (show ¬ ((ix3 (1 : Fin 2) (rowOf b t) (0 : Fin 1)) 0).val = 0 from Nat.one_ne_zero)]
  refine congrArg (Cert.Dpo.tokArr X Wr Br tgt) ?_
  have hb := b.isLt
  have ht := t.isLt
  refine congrArg₂ ix2 (Fin.ext ?_) (Fin.ext ?_)
  · show (b.val * 512 + t.val) / 512 = b.val
    omega
  · show (b.val * 512 + t.val) % 512 = t.val
    omega

/-- Plane 0 of an array of the region's shape, read at (b, t): the array at plane 0, row 512 * b + t. The
    8 x 512 array and the 4096 vector share row-major positions, as do the vector and the 1 x 4096 x 1 slice. -/
theorem plane0V_apply (out : FVec Ideal S2x4096x1 .f32) (b : Fin 8) (t : Fin 512) :
    plane0V out (ix2 b t) = out (ix3 (0 : Fin 2) (rowOf b t) (0 : Fin 1)) := by
  unfold plane0V
  refine (shapeCast_apply _ shapeCasts_S4096_S8x512 (ix2 b t) (ix1 (rowOf b t)) ?_).trans ?_
  · rw [Shape.rowMajor_val_one, Shape.rowMajor_val_two]; rfl
  refine (shapeCast_apply _ shapeCasts_S1x4096x1_S4096 (ix1 (rowOf b t)) (ix3 (0 : Fin 1) (rowOf b t) (0 : Fin 1)) ?_).trans ?_
  · rw [Shape.rowMajor_val_three, Shape.rowMajor_val_one]
    show (0 * 4096 + (b.val * 512 + t.val)) * 1 + 0 = b.val * 512 + t.val
    omega
  refine extractStridedSlice_apply _ out slices_S2x4096x1_S1x4096x1_0_0_0 _ (ix3 (0 : Fin 2) (rowOf b t) (0 : Fin 1)) ?_
  intro a
  fin_cases a
  · rfl
  · show b.val * 512 + t.val = 0 + (b.val * 512 + t.val)
    omega
  · rfl

theorem plane1V_apply (out : FVec Ideal S2x4096x1 .f32) (b : Fin 8) (t : Fin 512) :
    plane1V out (ix2 b t) = out (ix3 (1 : Fin 2) (rowOf b t) (0 : Fin 1)) := by
  unfold plane1V
  refine (shapeCast_apply _ shapeCasts_S4096_S8x512 (ix2 b t) (ix1 (rowOf b t)) ?_).trans ?_
  · rw [Shape.rowMajor_val_one, Shape.rowMajor_val_two]; rfl
  refine (shapeCast_apply _ shapeCasts_S1x4096x1_S4096 (ix1 (rowOf b t)) (ix3 (0 : Fin 1) (rowOf b t) (0 : Fin 1)) ?_).trans ?_
  · rw [Shape.rowMajor_val_three, Shape.rowMajor_val_one]
    show (0 * 4096 + (b.val * 512 + t.val)) * 1 + 0 = b.val * 512 + t.val
    omega
  refine extractStridedSlice_apply _ out slices_S2x4096x1_S1x4096x1_1_0_0 _ (ix3 (1 : Fin 2) (rowOf b t) (0 : Fin 1)) ?_
  intro a
  fin_cases a
  · rfl
  · show b.val * 512 + t.val = 0 + (b.val * 512 + t.val)
    omega
  · rfl

/-- Plane 0 of the region's array is the policy model's per-token array. -/
theorem plane0_regionOut : plane0V (Cert.Dpo.regionOut X W B Wr Br tgt) = Cert.Dpo.tokArr X W B tgt := by
  funext i
  rw [eq_ix2 i]
  exact (plane0V_apply _ (i 0) (i 1)).trans (regionOut_row0 X W B Wr Br tgt (i 0) (i 1))

/-- Plane 1 of the region's array is the reference model's per-token array. -/
theorem plane1_regionOut : plane1V (Cert.Dpo.regionOut X W B Wr Br tgt) = Cert.Dpo.tokArr X Wr Br tgt := by
  funext i
  rw [eq_ix2 i]
  exact (plane1V_apply _ (i 0) (i 1)).trans (regionOut_row1 X W B Wr Br tgt (i 0) (i 1))

/-- The program's result from the region's array is kerTail of the two per-token arrays and the mask. -/
theorem kerOut_regionOut :
    kerOut (Cert.Dpo.regionOut X W B Wr Br tgt) tgt
      = kerTail (Cert.Dpo.tokArr X W B tgt) (Cert.Dpo.tokArr X Wr Br tgt) (maskV tgt) := by
  unfold kerOut
  rw [plane0_regionOut, plane1_regionOut]

end Planes

/-! ## The host operations after the region -/

variable (m : (ℓ : Loc nD τ sig) → Buf (Elt Ideal) ℓ) (ρ : Dev nD → PrngReg)

set_option maxHeartbeats 1000000 in
/-- What the operations after the region leave at the program's result, for any proof data: kerOut of the
    region's output array as the data has it after the last point, and of the targets as launched. Each
    operation's result is its function of its operands' contents; the region's array is read where the run
    left it, the targets where no operation writes. -/
theorem tail_eq_of (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2] c main_v36
      = kerOut ((dats 0 c).arrAt 6 cfg0.N) (m ((c : Thread nD τ).loc main_arg2)) := by
  unfold Pipeline.afterTail₀
  show StableHlo.after _ _ (Proc.devRef .tc main_v36) = _
  simp only [hostOps1, hostOps1_1, hostOps1_2, List.flatten_cons, List.flatten_nil, List.append_nil, List.cons_append, List.nil_append]
  open StableHlo in after_results_simp
  have h5 : Pipeline.withArrays (cfgs 0).spec c (V0 m c) (fun w => (dats 0 c).arrAt w (cfgs 0).N) (Proc.devRef .tc main_v5)
      = (dats 0 c).arrAt 6 cfg0.N := Pipeline.withArrays_arr spec0 launch0.win.arr_inj c _ _ 6
  have h2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [h5, h2]
  generalize (dats 0 c).arrAt 6 cfg0.N = A
  generalize m ((c : Thread nD τ).loc main_arg2) = T
  rfl

/-- The same at the frame run's proof data. -/
theorem tail_eq (c : Dev nD) :
    Pipeline.afterTail₀ cfgs (dats m) 0 (V0 m) [hostOps1, hostOps1_1, hostOps1_2] c main_v36
      = kerOut ((dats m 0 c).arrAt 6 cfg0.N) (m ((c : Thread nD τ).loc main_arg2)) :=
  tail_eq_of m (dats m) c

/-! ## The run -/

/-- The kernel program runs, and ends with its result at kerTail of the two per-token arrays and the target mask
    and its six argument arrays as launched, given that the region's output array after the last point is the
    array of the two models' per-token log-probabilities. -/
theorem run_of
    (hfinal : ∀ c : Dev nD, (dats m 0 c).arrAt 6 cfg0.N
      = Cert.Dpo.regionOut (m ((c.tc : Thread nD τ).loc main_arg1)) (m ((c.tc : Thread nD τ).loc main_arg0))
          (m ((c.tc : Thread nD τ).loc main_arg3)) (m ((c.tc : Thread nD τ).loc main_arg4))
          (m ((c.tc : Thread nD τ).loc main_arg5)) (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v36)
        = kerTail
            (Cert.Dpo.tokArr (m ((c.tc : Thread nD τ).loc main_arg1)) (m ((c.tc : Thread nD τ).loc main_arg0))
              (m ((c.tc : Thread nD τ).loc main_arg3)) (m ((c.tc : Thread nD τ).loc main_arg2)))
            (Cert.Dpo.tokArr (m ((c.tc : Thread nD τ).loc main_arg1)) (m ((c.tc : Thread nD τ).loc main_arg4))
              (m ((c.tc : Thread nD τ).loc main_arg5)) (m ((c.tc : Thread nD τ).loc main_arg2)))
            (maskV (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v36 (Pipeline.mem_restRefs_of main_v36 (by decide) (by decide))).trans (tail_eq m c)).trans
        ((congrArg (fun A => kerOut A (m ((c.tc : Thread nD τ).loc main_arg2))) (hfinal c)).trans
          (kerOut_regionOut _ _ _ _ _ _)),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩)
    (run_main m ρ)

end Cert.KernelIdeal.TailValue

end
-- ==== Proof.ReferenceStages.lean ====
/-
  The reference program's host operations, grouped into the mathematical stages of the loss it computes, each
  stage the composition of the program's own operations in their printed order, read at the ideal instance
  (a float an extended real, every operation exact).

  For a batch of 8 sequences of 512 tokens, a token's features X (b, t, .) are scored against two linear models
  (the policy (W, B) and the reference (Wr, Br)): logits = X . W^T + B, the log-softmax over the 32000 classes,
  the entry at the token's target class, times a mask that is 0 where the target is the ignore index -100.
  The first four sequences are the chosen responses and the last four the rejected ones. The loss is the masked
  negative log-likelihood of the chosen tokens under the policy, divided by the number of unmasked chosen tokens
  (at least 1), plus the mean over the four pairs of -log sigmoid (0.1 * ((policy chosen - reference chosen) -
  (policy rejected - reference rejected))) of the per-sequence sums.
-/
import proofs.«414215_j57698590654887_3_alg».proof.ReferenceIdeal
import Idealize.ShloMosaic.PureOps.Ideal

noncomputable section

namespace Cert.ReferenceIdeal.RefRun

open Idealize.ShloMosaic
open Cert.ReferenceIdeal
open Cert.ReferenceIdeal.Facts₀ Cert.ReferenceIdeal.Facts

variable [Cert.ReferenceIdeal.Facts]

/-- The token mask: 1 where the target differs from the ignore index -100 (the word 4294967196), else 0. -/
def maskV (tgt : IVec S8x512 32) : FVec Ideal S8x512 .f32 :=
  uitofp (F := Ideal) .f32
    (cmpi .ne tgt (broadcastInDim S8x512 ![] bcast_S_S8x512 (constantI S_ 32 4294967196#32)))

/-- The logits of every token against every class: the contraction of the features with the class rows over the
    4096 hidden features, plus the class bias broadcast over the tokens. -/
def logitsV (X : FVec Ideal S8x512x4096 .f32) (W : FVec Ideal S32000x4096 .f32) (B : FVec Ideal S32000 .f32) :
    FVec Ideal S8x512x32000 .f32 :=
  addf (F := Ideal)
    (Host.dotGeneral (F := Ideal) dot_S8x512x4096_S32000x4096_S8x512x32000_2_1_01_0_n_n none X W)
    (broadcastInDim S8x512x32000 ![0, 1, 2] bcast_S1x1x32000_S8x512x32000_0_1_2
      (broadcastInDim S1x1x32000 ![2] bcast_S32000_S1x1x32000_2 B))

/-- The logits shifted by their row maximum (the maximum over the classes, started at minus infinity and taken
    once more against minus infinity): z - max z, the shift that keeps the exponentials at most 1. -/
def lsmShiftV (z : FVec Ideal S8x512x32000 .f32) : FVec Ideal S8x512x32000 .f32 :=
  subf (F := Ideal) z
    (broadcastInDim S8x512x32000 ![0, 1, 2] bcast_S8x512x1_S8x512x32000_0_1_2
      (broadcastInDim S8x512x1 ![0, 1] bcast_S8x512_S8x512x1_0_1
        (maximumf (F := Ideal)
          (broadcastInDim S8x512 ![] bcast_S_S8x512 (constant (F := Ideal) S_ .f32 0xFF800000#32))
          (Host.reduce (FloatOps.maximumf (F := Ideal)) z (constant (F := Ideal) S_ .f32 0xFF800000#32)
            reducesTo_S8x512x32000_S8x512_d2 h_S_))))

/-- The log-softmax over the classes: the shifted logits minus the logarithm of the sum of their exponentials. -/
def logSoftmaxV (z : FVec Ideal S8x512x32000 .f32) : FVec Ideal S8x512x32000 .f32 :=
  subf (F := Ideal) (lsmShiftV z)
    (broadcastInDim S8x512x32000 ![0, 1, 2] bcast_S8x512x1_S8x512x32000_0_1_2
      (Host.log (F := Ideal)
        (broadcastInDim S8x512x1 ![0, 1] bcast_S8x512_S8x512x1_0_1
          (Host.reduceAdd (F := Ideal) (Host.exp (F := Ideal) (lsmShiftV z))
            (constant (F := Ideal) S_ .f32 0x00000000#32) reducesTo_S8x512x32000_S8x512_d2 h_S_))))

/-- The class index the gather reads: a negative index counted from the end (32000 added), then given the
    trailing index-vector axis. -/
def takeIdxV (idx : IVec S8x512x1 32) : IVec S8x512x1x1 32 :=
  shapeCast S8x512x1x1
    (select
      (cmpi .slt idx (broadcastInDim S8x512x1 ![] bcast_S_S8x512x1 (constantI S_ 32 0#32)))
      (addi idx (broadcastInDim S8x512x1 ![] bcast_S_S8x512x1 (constantI S_ 32 32000#32)))
      idx)
    shapeCasts_S8x512x1_S8x512x1x1

/-- The entry of each token's row at its index: the gathered entry where the index lies in 0 .. 31999, and the
    fill value (the word 0x7FC00000) elsewhere. -/
def takeV (lp : FVec Ideal S8x512x32000 .f32) (idx : IVec S8x512x1 32) : FVec Ideal S8x512x1 .f32 :=
  select
    (Host.reduce IntOp.andi
      (andi
        (cmpi .sge (takeIdxV idx) (broadcastInDim S8x512x1x1 ![] bcast_S_S8x512x1x1 (constantI S_ 32 0#32)))
        (cmpi .sle (takeIdxV idx)
          (broadcastInDim S8x512x1x1 ![0, 1, 2, 3] bcast_S1x1x1x1_S8x512x1x1_0_1_2_3
            (broadcastInDim S1x1x1x1 ![3] bcast_S1_S1x1x1x1_3 (constantI S1 32 31999#32)))))
      (constantI S_ 1 1#1) reducesTo_S8x512x1x1_S8x512x1_d3 h_S_)
    (Host.gather gather_S8x512x32000_S8x512x1x1_S8x512x1_n_2_01_01_2_3_111 lp (takeIdxV idx))
    (broadcastInDim S8x512x1 ![] bcast_S_S8x512x1 (constant (F := Ideal) S_ .f32 0x7FC00000#32))

/-- The masked per-token log-probabilities of the targets under the model (W, B). -/
def tokV (X : FVec Ideal S8x512x4096 .f32) (W : FVec Ideal S32000x4096 .f32) (B : FVec Ideal S32000 .f32)
    (tgt : IVec S8x512 32) : FVec Ideal S8x512 .f32 :=
  mulf (F := Ideal)
    (shapeCast S8x512
      (takeV (logSoftmaxV (logitsV X W B)) (broadcastInDim S8x512x1 ![0, 1] bcast_S8x512_S8x512x1_0_1 tgt))
      shapeCasts_S8x512x1_S8x512)
    (maskV tgt)

/-- softplus a = log (1 + exp a), computed as max (a, 0) + log1p (exp (- |a - 0|)), with a + 0 where a - 0
    is not equal to itself. -/
def softplusV (a : FVec Ideal S4 .f32) : FVec Ideal S4 .f32 :=
  select
    (cmpf (F := Ideal) .une
      (subf (F := Ideal) a (broadcastInDim S4 ![] bcast_S_S4 (constant (F := Ideal) S_ .f32 0x00000000#32)))
      (subf (F := Ideal) a (broadcastInDim S4 ![] bcast_S_S4 (constant (F := Ideal) S_ .f32 0x00000000#32))))
    (addf (F := Ideal) a (broadcastInDim S4 ![] bcast_S_S4 (constant (F := Ideal) S_ .f32 0x00000000#32)))
    (addf (F := Ideal)
      (maximumf (F := Ideal) a (broadcastInDim S4 ![] bcast_S_S4 (constant (F := Ideal) S_ .f32 0x00000000#32)))
      (Host.log1p (F := Ideal)
        (Host.exp (F := Ideal)
          (Host.negf (F := Ideal)
            (Host.absf (F := Ideal)
              (subf (F := Ideal) a
                (broadcastInDim S4 ![] bcast_S_S4 (constant (F := Ideal) S_ .f32 0x00000000#32))))))))

/-- log sigmoid x = - softplus (- x). -/
def logSigmoidV (x : FVec Ideal S4 .f32) : FVec Ideal S4 .f32 :=
  Host.negf (F := Ideal) (softplusV (Host.negf (F := Ideal) x))

/-- The loss from the two arrays of masked per-token log-probabilities (policy P, reference R) and the mask:
    the per-sequence sums and their halves (chosen 0..3, rejected 4..7), the masked negative log-likelihood of
    the chosen half under the policy over the number of its unmasked tokens (at least 1), and the mean of
    - log sigmoid (0.1 * ((P chosen - R chosen) - (P rejected - R rejected))) over the four pairs; their sum. -/
def refTail (P R mask : FVec Ideal S8x512 .f32) : FVec Ideal S_ .f32 :=
  addf (F := Ideal)
    (Host.divf (F := Ideal)
      (Host.negf (F := Ideal)
        (Host.reduceAdd (F := Ideal)
          (mulf (F := Ideal)
            (extractStridedSlice S4x512 ![0, 0] P slices_S8x512_S4x512_0_0)
            (extractStridedSlice S4x512 ![0, 0] mask slices_S8x512_S4x512_0_0))
          (constant (F := Ideal) S_ .f32 0x00000000#32) reducesTo_S4x512_S_d0_1 h_S_))
      (maximumf (F := Ideal)
        (Host.reduceAdd (F := Ideal) (extractStridedSlice S4x512 ![0, 0] mask slices_S8x512_S4x512_0_0)
          (constant (F := Ideal) S_ .f32 0x00000000#32) reducesTo_S4x512_S_d0_1 h_S_)
        (constant (F := Ideal) S_ .f32 0x3F800000#32)))
    (Host.divf (F := Ideal)
      (Host.negf (F := Ideal)
        (Host.reduceAdd (F := Ideal)
          (logSigmoidV
            (mulf (F := Ideal)
              (broadcastInDim S4 ![] bcast_S_S4 (constant (F := Ideal) S_ .f32 0x3DCCCCCD#32))
              (subf (F := Ideal)
                (subf (F := Ideal)
                  (extractStridedSlice S4 ![0]
                    (Host.reduceAdd (F := Ideal) P (constant (F := Ideal) S_ .f32 0x00000000#32)
                      reducesTo_S8x512_S8_d1 h_S_) slices_S8_S4_0)
                  (extractStridedSlice S4 ![0]
                    (Host.reduceAdd (F := Ideal) R (constant (F := Ideal) S_ .f32 0x00000000#32)
                      reducesTo_S8x512_S8_d1 h_S_) slices_S8_S4_0))
                (subf (F := Ideal)
                  (extractStridedSlice S4 ![4]
                    (Host.reduceAdd (F := Ideal) P (constant (F := Ideal) S_ .f32 0x00000000#32)
                      reducesTo_S8x512_S8_d1 h_S_) slices_S8_S4_4)
                  (extractStridedSlice S4 ![4]
                    (Host.reduceAdd (F := Ideal) R (constant (F := Ideal) S_ .f32 0x00000000#32)
                      reducesTo_S8x512_S8_d1 h_S_) slices_S8_S4_4)))))
          (constant (F := Ideal) S_ .f32 0x00000000#32) reducesTo_S4_S_d0 h_S_))
      (constant (F := Ideal) S_ .f32 0x40800000#32))

/-- The reference's result from its six argument arrays: the features X, the policy model (W, B), the reference
    model (Wr, Br) and the targets. -/
def refOut (X : FVec Ideal S8x512x4096 .f32) (W : FVec Ideal S32000x4096 .f32) (B : FVec Ideal S32000 .f32)
    (Wr : FVec Ideal S32000x4096 .f32) (Br : FVec Ideal S32000 .f32) (tgt : IVec S8x512 32) :
    FVec Ideal S_ .f32 :=
  refTail (tokV X W B tgt) (tokV X Wr Br tgt) (maskV tgt)

end Cert.ReferenceIdeal.RefRun

end
-- ==== Proof.ReferenceOps.lean ====
-- Each list entry is the operation text OP of one printed line 'hlo rfl (OP) (fun _ => .ret ⟨⟩)' of @main in
-- proof/ReferenceIdeal.lean, verbatim and in order; a line 'fn_NAME.body ARGS RECORD' is replaced by fn_NAME.body's own
-- lines in order (recursively), 'φ.' read as 'RECORD.' and 'argK' as the K-th operand, an operand '(.of main_vN)' given
-- its tensor type '(.of main_vN : StableHlo.TRef sig TYPE)' from the function's signature. The 140 operations are cut
-- into eight consecutive lists of 8, 15, 25, 4, 4, 15, 25 and 44.
import proofs.«414215_j57698590654887_3_alg».proof.ReferenceIdeal

noncomputable section

namespace Cert.ReferenceIdeal.RefRun

open Cert.ReferenceIdeal Idealize.ShloMosaic Idealize.ShloMosaic.TcCoe Idealize.SL.Sem
open Cert.ReferenceIdeal.Facts₀ Cert.ReferenceIdeal.Facts

variable [Cert.ReferenceIdeal.Facts] {F : FTy → Type} [FloatOps F]

/-- The mask and the policy logits: the ignore index, its broadcast, the comparison, its conversion; the
    contraction, the bias twice broadcast, the sum. -/
abbrev opsA : List (HloOp τ sig (Elt F)) :=
  [
    StableHlo.nullary main_c (constantI S_ 32 4294967196#32),
    StableHlo.unary main_c main_v0 (broadcastInDim S8x512 ![] bcast_S_S8x512 : (⟨S_, .i32⟩ : BufTy).Contents (Elt F) → (⟨S8x512, .i32⟩ : BufTy).Contents (Elt F)),
    StableHlo.binary main_arg2 main_v0 main_v1 (cmpi .ne : (⟨S8x512, .i32⟩ : BufTy).Contents (Elt F) → (⟨S8x512, .i32⟩ : BufTy).Contents (Elt F) → (⟨S8x512, .i1⟩ : BufTy).Contents (Elt F)),
    StableHlo.unary main_v1 main_v2 (uitofp .f32 : (⟨S8x512, .i1⟩ : BufTy).Contents (Elt F) → (⟨S8x512, .f32⟩ : BufTy).Contents (Elt F)),
    StableHlo.binary main_arg1 main_arg0 main_v3 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.unary main_arg3 main_v4 (broadcastInDim S1x1x32000 ![2] bcast_S32000_S1x1x32000_2 : (⟨S32000, .f32⟩ : BufTy).Contents (Elt F) → (⟨S1x1x32000, .f32⟩ : BufTy).Contents (Elt F)),
    StableHlo.unary main_v4 main_v5 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v3 main_v5 main_v6 (addf : (⟨S8x512x32000, .f32⟩ : BufTy).Contents (Elt F) → (⟨S8x512x32000, .f32⟩ : BufTy).Contents (Elt F) → (⟨S8x512x32000, .f32⟩ : BufTy).Contents (Elt F)) ]

/-- The log-softmax of the policy logits: the first call's operations over its own buffers. -/
abbrev opsB : List (HloOp τ sig (Elt F)) :=
  [
    StableHlo.TRef.nullary main_call0.cst (constant S_ .f32 0xFF800000#32),
    StableHlo.TRef.binary (.of main_v6 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (.of main_v6 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf ]

/-- The policy entry at the target: the target given a trailing axis, the gather call's operations, the
    reshape, the product with the mask. -/
abbrev opsC : List (HloOp τ sig (Elt F)) :=
  [
    StableHlo.unary main_arg2 main_v8 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call1.c (constantI S_ 32 0#32),
    StableHlo.TRef.unary main_call1.c main_call1.v0 (broadcastInDim S8x512x1 ![] bcast_S_S8x512x1),
    StableHlo.TRef.binary (.of main_v8 : StableHlo.TRef sig ⟨S8x512x1, .i32⟩) main_call1.v0 main_call1.v1 (cmpi .slt),
    StableHlo.TRef.nullary main_call1.c_0 (constantI S_ 32 32000#32),
    StableHlo.TRef.unary main_call1.c_0 main_call1.v2 (broadcastInDim S8x512x1 ![] bcast_S_S8x512x1),
    StableHlo.TRef.binary (.of main_v8 : StableHlo.TRef sig ⟨S8x512x1, .i32⟩) main_call1.v2 main_call1.v3 addi,
    StableHlo.TRef.ternary main_call1.v1 main_call1.v3 (.of main_v8 : StableHlo.TRef sig ⟨S8x512x1, .i32⟩) main_call1.v4 select,
    StableHlo.TRef.reshape main_call1.v4 main_call1.v5 rfl shapeCasts_S8x512x1_S8x512x1x1,
    StableHlo.TRef.nullary main_call1.c_1 (constantI S1 32 31999#32),
    StableHlo.TRef.nullary main_call1.c_2 (constantI S_ 32 0#32),
    StableHlo.TRef.unary main_call1.c_2 main_call1.v6 (broadcastInDim S8x512x1x1 ![] bcast_S_S8x512x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S8x512x1x1 ![0, 1, 2, 3] bcast_S1x1x1x1_S8x512x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8x512x1x1_S8x512x1_d3 h_S_),
    StableHlo.TRef.binary (.of main_v7 : StableHlo.TRef sig ⟨S8x512x32000, .f32⟩) main_call1.v5 main_call1.v13 (fun x i => Host.gather gather_S8x512x32000_S8x512x1x1_S8x512x1_n_2_01_01_2_3_111 x i),
    StableHlo.TRef.nullary main_call1.cst (constant S_ .f32 0x7FC00000#32),
    StableHlo.TRef.unary main_call1.cst main_call1.v14 (broadcastInDim S8x512x1 ![] bcast_S_S8x512x1),
    StableHlo.TRef.ternary main_call1.v12 main_call1.v13 main_call1.v14 main_call1.v15 select,
    StableHlo.reshape main_v9 main_v10 rfl shapeCasts_S8x512x1_S8x512,
    StableHlo.binary main_v10 main_v2 main_v11 (mulf : (⟨S8x512, .f32⟩ : BufTy).Contents (Elt F) → (⟨S8x512, .f32⟩ : BufTy).Contents (Elt F) → (⟨S8x512, .f32⟩ : BufTy).Contents (Elt F)) ]

/-- The per-sequence sums of the policy array and their two halves. -/
abbrev opsD : List (HloOp τ sig (Elt F)) :=
  [
    StableHlo.nullary main_cst (constant S_ .f32 0x00000000#32),
    StableHlo.binary main_v11 main_cst main_v12 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v12 main_v13 ((extractStridedSlice S4 ![0] · slices_S8_S4_0) : (⟨S8, .f32⟩ : BufTy).Contents (Elt F) → (⟨S4, .f32⟩ : BufTy).Contents (Elt F)),
    StableHlo.unary main_v12 main_v14 ((extractStridedSlice S4 ![4] · slices_S8_S4_4) : (⟨S8, .f32⟩ : BufTy).Contents (Elt F) → (⟨S4, .f32⟩ : BufTy).Contents (Elt F)) ]

/-- The reference model's logits. -/
abbrev opsE : List (HloOp τ sig (Elt F)) :=
  [
    StableHlo.binary main_arg1 main_arg4 main_v15 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.unary main_arg5 main_v16 (broadcastInDim S1x1x32000 ![2] bcast_S32000_S1x1x32000_2 : (⟨S32000, .f32⟩ : BufTy).Contents (Elt F) → (⟨S1x1x32000, .f32⟩ : BufTy).Contents (Elt F)),
    StableHlo.unary main_v16 main_v17 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v15 main_v17 main_v18 (addf : (⟨S8x512x32000, .f32⟩ : BufTy).Contents (Elt F) → (⟨S8x512x32000, .f32⟩ : BufTy).Contents (Elt F) → (⟨S8x512x32000, .f32⟩ : BufTy).Contents (Elt F)) ]

/-- The log-softmax of the reference logits: the third call's operations. -/
abbrev opsF : List (HloOp τ sig (Elt F)) :=
  [
    StableHlo.TRef.nullary main_call2.cst (constant S_ .f32 0xFF800000#32),
    StableHlo.TRef.binary (.of main_v18 : StableHlo.TRef sig ⟨S8x512x32000, .f32⟩) main_call2.cst main_call2.v0 (fun x v => Host.reduce FloatOps.maximumf x v reducesTo_S8x512x32000_S8x512_d2 h_S_),
    StableHlo.TRef.nullary main_call2.cst_0 (constant S_ .f32 0xFF800000#32),
    StableHlo.TRef.unary main_call2.cst_0 main_call2.v1 (broadcastInDim S8x512 ![] bcast_S_S8x512),
    StableHlo.TRef.binary main_call2.v1 main_call2.v0 main_call2.v2 maximumf,
    StableHlo.TRef.unary main_call2.v2 main_call2.v3 (broadcastInDim S8x512x1 ![0, 1] bcast_S8x512_S8x512x1_0_1),
    StableHlo.TRef.unary main_call2.v3 main_call2.v4 (broadcastInDim S8x512x32000 ![0, 1, 2] bcast_S8x512x1_S8x512x32000_0_1_2),
    StableHlo.TRef.binary (.of main_v18 : StableHlo.TRef sig ⟨S8x512x32000, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S8x512x32000_S8x512_d2 h_S_),
    StableHlo.TRef.unary main_call2.v7 main_call2.v8 (broadcastInDim S8x512x1 ![0, 1] bcast_S8x512_S8x512x1_0_1),
    StableHlo.TRef.unary main_call2.v8 main_call2.v9 Host.log,
    StableHlo.TRef.unary main_call2.v9 main_call2.v10 (broadcastInDim S8x512x32000 ![0, 1, 2] bcast_S8x512x1_S8x512x32000_0_1_2),
    StableHlo.TRef.binary main_call2.v5 main_call2.v10 main_call2.v11 subf ]

/-- The reference entry at the target, reshaped and masked. -/
abbrev opsG : List (HloOp τ sig (Elt F)) :=
  [
    StableHlo.unary main_arg2 main_v20 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call3.c (constantI S_ 32 0#32),
    StableHlo.TRef.unary main_call3.c main_call3.v0 (broadcastInDim S8x512x1 ![] bcast_S_S8x512x1),
    StableHlo.TRef.binary (.of main_v20 : StableHlo.TRef sig ⟨S8x512x1, .i32⟩) main_call3.v0 main_call3.v1 (cmpi .slt),
    StableHlo.TRef.nullary main_call3.c_0 (constantI S_ 32 32000#32),
    StableHlo.TRef.unary main_call3.c_0 main_call3.v2 (broadcastInDim S8x512x1 ![] bcast_S_S8x512x1),
    StableHlo.TRef.binary (.of main_v20 : StableHlo.TRef sig ⟨S8x512x1, .i32⟩) main_call3.v2 main_call3.v3 addi,
    StableHlo.TRef.ternary main_call3.v1 main_call3.v3 (.of main_v20 : StableHlo.TRef sig ⟨S8x512x1, .i32⟩) main_call3.v4 select,
    StableHlo.TRef.reshape main_call3.v4 main_call3.v5 rfl shapeCasts_S8x512x1_S8x512x1x1,
    StableHlo.TRef.nullary main_call3.c_1 (constantI S1 32 31999#32),
    StableHlo.TRef.nullary main_call3.c_2 (constantI S_ 32 0#32),
    StableHlo.TRef.unary main_call3.c_2 main_call3.v6 (broadcastInDim S8x512x1x1 ![] bcast_S_S8x512x1x1),
    StableHlo.TRef.binary main_call3.v5 main_call3.v6 main_call3.v7 (cmpi .sge),
    StableHlo.TRef.unary main_call3.c_1 main_call3.v8 (broadcastInDim S1x1x1x1 ![3] bcast_S1_S1x1x1x1_3),
    StableHlo.TRef.unary main_call3.v8 main_call3.v9 (broadcastInDim S8x512x1x1 ![0, 1, 2, 3] bcast_S1x1x1x1_S8x512x1x1_0_1_2_3),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S8x512x1x1_S8x512x1_d3 h_S_),
    StableHlo.TRef.binary (.of main_v19 : StableHlo.TRef sig ⟨S8x512x32000, .f32⟩) main_call3.v5 main_call3.v13 (fun x i => Host.gather gather_S8x512x32000_S8x512x1x1_S8x512x1_n_2_01_01_2_3_111 x i),
    StableHlo.TRef.nullary main_call3.cst (constant S_ .f32 0x7FC00000#32),
    StableHlo.TRef.unary main_call3.cst main_call3.v14 (broadcastInDim S8x512x1 ![] bcast_S_S8x512x1),
    StableHlo.TRef.ternary main_call3.v12 main_call3.v13 main_call3.v14 main_call3.v15 select,
    StableHlo.reshape main_v21 main_v22 rfl shapeCasts_S8x512x1_S8x512,
    StableHlo.binary main_v22 main_v2 main_v23 (mulf : (⟨S8x512, .f32⟩ : BufTy).Contents (Elt F) → (⟨S8x512, .f32⟩ : BufTy).Contents (Elt F) → (⟨S8x512, .f32⟩ : BufTy).Contents (Elt F)) ]

/-- The loss: the reference sums and halves, the unmasked count and its floor at 1, the masked chosen sum, its
    negation and the quotient, the three differences, the scale 0.1, log sigmoid (softplus inside it), the sum over
    the four pairs, its negation, the division by 4, the final sum. -/
abbrev opsH : List (HloOp τ sig (Elt F)) :=
  [
    StableHlo.nullary main_cst_0 (constant S_ .f32 0x00000000#32),
    StableHlo.binary main_v23 main_cst_0 main_v24 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v24 main_v25 ((extractStridedSlice S4 ![0] · slices_S8_S4_0) : (⟨S8, .f32⟩ : BufTy).Contents (Elt F) → (⟨S4, .f32⟩ : BufTy).Contents (Elt F)),
    StableHlo.unary main_v24 main_v26 ((extractStridedSlice S4 ![4] · slices_S8_S4_4) : (⟨S8, .f32⟩ : BufTy).Contents (Elt F) → (⟨S4, .f32⟩ : BufTy).Contents (Elt F)),
    StableHlo.unary main_v2 main_v27 ((extractStridedSlice S4x512 ![0, 0] · slices_S8x512_S4x512_0_0) : (⟨S8x512, .f32⟩ : BufTy).Contents (Elt F) → (⟨S4x512, .f32⟩ : BufTy).Contents (Elt F)),
    StableHlo.nullary main_cst_1 (constant S_ .f32 0x00000000#32),
    StableHlo.binary main_v27 main_cst_1 main_v28 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_2 (constant S_ .f32 0x3F800000#32),
    StableHlo.binary main_v28 main_cst_2 main_v29 (maximumf : (⟨S_, .f32⟩ : BufTy).Contents (Elt F) → (⟨S_, .f32⟩ : BufTy).Contents (Elt F) → (⟨S_, .f32⟩ : BufTy).Contents (Elt F)),
    StableHlo.unary main_v11 main_v30 ((extractStridedSlice S4x512 ![0, 0] · slices_S8x512_S4x512_0_0) : (⟨S8x512, .f32⟩ : BufTy).Contents (Elt F) → (⟨S4x512, .f32⟩ : BufTy).Contents (Elt F)),
    StableHlo.unary main_v2 main_v31 ((extractStridedSlice S4x512 ![0, 0] · slices_S8x512_S4x512_0_0) : (⟨S8x512, .f32⟩ : BufTy).Contents (Elt F) → (⟨S4x512, .f32⟩ : BufTy).Contents (Elt F)),
    StableHlo.binary main_v30 main_v31 main_v32 (mulf : (⟨S4x512, .f32⟩ : BufTy).Contents (Elt F) → (⟨S4x512, .f32⟩ : BufTy).Contents (Elt F) → (⟨S4x512, .f32⟩ : BufTy).Contents (Elt F)),
    StableHlo.nullary main_cst_3 (constant S_ .f32 0x00000000#32),
    StableHlo.binary main_v32 main_cst_3 main_v33 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v33 main_v34 (Host.negf : (⟨S_, .f32⟩ : BufTy).Contents (Elt F) → (⟨S_, .f32⟩ : BufTy).Contents (Elt F)),
    StableHlo.binary main_v34 main_v29 main_v35 (Host.divf : (⟨S_, .f32⟩ : BufTy).Contents (Elt F) → (⟨S_, .f32⟩ : BufTy).Contents (Elt F) → (⟨S_, .f32⟩ : BufTy).Contents (Elt F)),
    StableHlo.binary main_v13 main_v25 main_v36 (subf : (⟨S4, .f32⟩ : BufTy).Contents (Elt F) → (⟨S4, .f32⟩ : BufTy).Contents (Elt F) → (⟨S4, .f32⟩ : BufTy).Contents (Elt F)),
    StableHlo.binary main_v14 main_v26 main_v37 (subf : (⟨S4, .f32⟩ : BufTy).Contents (Elt F) → (⟨S4, .f32⟩ : BufTy).Contents (Elt F) → (⟨S4, .f32⟩ : BufTy).Contents (Elt F)),
    StableHlo.binary main_v36 main_v37 main_v38 (subf : (⟨S4, .f32⟩ : BufTy).Contents (Elt F) → (⟨S4, .f32⟩ : BufTy).Contents (Elt F) → (⟨S4, .f32⟩ : BufTy).Contents (Elt F)),
    StableHlo.nullary main_cst_4 (constant S_ .f32 0x3DCCCCCD#32),
    StableHlo.unary main_cst_4 main_v39 (broadcastInDim S4 ![] bcast_S_S4 : (⟨S_, .f32⟩ : BufTy).Contents (Elt F) → (⟨S4, .f32⟩ : BufTy).Contents (Elt F)),
    StableHlo.binary main_v39 main_v38 main_v40 (mulf : (⟨S4, .f32⟩ : BufTy).Contents (Elt F) → (⟨S4, .f32⟩ : BufTy).Contents (Elt F) → (⟨S4, .f32⟩ : BufTy).Contents (Elt F)),
    StableHlo.TRef.unary (.of main_v40 : StableHlo.TRef sig ⟨S4, .f32⟩) main_call4.v0 Host.negf,
    StableHlo.TRef.nullary main_call4.call0.cst (constant S_ .f32 0x00000000#32),
    StableHlo.TRef.unary main_call4.call0.cst main_call4.call0.v0 (broadcastInDim S4 ![] bcast_S_S4),
    StableHlo.TRef.binary main_call4.v0 main_call4.call0.v0 main_call4.call0.v1 maximumf,
    StableHlo.TRef.unary main_call4.call0.cst main_call4.call0.v2 (broadcastInDim S4 ![] bcast_S_S4),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S4 ![] bcast_S_S4),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.nullary main_cst_5 (constant S_ .f32 0x00000000#32),
    StableHlo.binary main_v41 main_cst_5 main_v42 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.unary main_v42 main_v43 (Host.negf : (⟨S_, .f32⟩ : BufTy).Contents (Elt F) → (⟨S_, .f32⟩ : BufTy).Contents (Elt F)),
    StableHlo.nullary main_cst_6 (constant S_ .f32 0x40800000#32),
    StableHlo.binary main_v43 main_cst_6 main_v44 (Host.divf : (⟨S_, .f32⟩ : BufTy).Contents (Elt F) → (⟨S_, .f32⟩ : BufTy).Contents (Elt F) → (⟨S_, .f32⟩ : BufTy).Contents (Elt F)),
    StableHlo.binary main_v35 main_v44 main_v45 (addf : (⟨S_, .f32⟩ : BufTy).Contents (Elt F) → (⟨S_, .f32⟩ : BufTy).Contents (Elt F) → (⟨S_, .f32⟩ : BufTy).Contents (Elt F)) ]

end Cert.ReferenceIdeal.RefRun

end
-- ==== Proof.ReferenceRun.lean ====
/-
  The run of the reference program, read back as the stages of the loss.

  @main is a straight line of 140 host operations once its five calls are unfolded over their records'
  buffers. It is cut into eight consecutive windows; after each window the buffers still needed hold a stage of
  the loss as a function of the six argument arrays: the mask and the policy logits; their log-softmax; the
  masked log-probabilities of the targets; their per-sequence sums; the same three for the reference model;
  and the loss. No window writes an argument array. Every weakly fair execution therefore ends with the result
  buffer at the composed stage and the arguments unchanged.
-/
import proofs.«414215_j57698590654887_3_alg».proof.Proof.ReferenceStages
import proofs.«414215_j57698590654887_3_alg».proof.Proof.ReferenceOps
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

section Program

variable {F : FTy → Type} [FloatOps F]

/-- @main's 140 operations in order, the five calls unfolded over their records' buffers. -/
abbrev ops : List (HloOp τ sig (Elt F)) :=
  opsA ++ (opsB ++ (opsC ++ (opsD ++ (opsE ++ (opsF ++ (opsG ++ opsH))))))

set_option maxRecDepth 8192 in
set_option maxHeartbeats 1000000 in
/-- @main is that straight line: with the functions' bodies unfolded at their calls and sequencing
    reassociated, both sides are one chain of the same steps. -/
theorem main_eq (c : Dev nD) : main (F := F) c = seq ops := by
  simp only [main, fn_log_softmax.body, fn_take_along_axis.body, fn_softplus.body, fn_log_sigmoid.body,
    ops, opsA, opsB, opsC, opsD, opsE, opsF, opsG, opsH, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of a list built from the one-result builders touches TensorCore references only. -/
macro "bufs_sub_all" : tactic =>
  `(tactic| simp only [List.Forall, nullary_bufs_sub, unary_bufs_sub, binary_bufs_sub, ternary_bufs_sub, reshape_bufs_sub,
      and_self])

theorem opsA_sub : (opsA : List (HloOp τ sig (Elt F))).Forall fun op => op.bufs ⊆ tcRefs τ sig := by bufs_sub_all
theorem opsB_sub : (opsB : List (HloOp τ sig (Elt F))).Forall fun op => op.bufs ⊆ tcRefs τ sig := by bufs_sub_all
theorem opsC_sub : (opsC : List (HloOp τ sig (Elt F))).Forall fun op => op.bufs ⊆ tcRefs τ sig := by bufs_sub_all
theorem opsD_sub : (opsD : List (HloOp τ sig (Elt F))).Forall fun op => op.bufs ⊆ tcRefs τ sig := by bufs_sub_all
theorem opsE_sub : (opsE : List (HloOp τ sig (Elt F))).Forall fun op => op.bufs ⊆ tcRefs τ sig := by bufs_sub_all
theorem opsF_sub : (opsF : List (HloOp τ sig (Elt F))).Forall fun op => op.bufs ⊆ tcRefs τ sig := by bufs_sub_all
theorem opsG_sub : (opsG : List (HloOp τ sig (Elt F))).Forall fun op => op.bufs ⊆ tcRefs τ sig := by bufs_sub_all
theorem opsH_sub : (opsH : List (HloOp τ sig (Elt F))).Forall fun op => op.bufs ⊆ tcRefs τ sig := by bufs_sub_all

theorem ops_sub : (ops : List (HloOp τ sig (Elt F))).Forall fun op => op.bufs ⊆ tcRefs τ sig := by
  simp only [ops, List.forall_append]
  exact ⟨opsA_sub, opsB_sub, opsC_sub, opsD_sub, opsE_sub, opsF_sub, opsG_sub, opsH_sub⟩

/-- Every operation of a literal list of the builders determines its results. -/
macro "fresh_all" : tactic =>
  `(tactic| (intro _ h; (repeat (cases h with | head => rfl | tail _ h => ?_)); exact nomatch h))

theorem ops_fresh : ∀ op ∈ (ops : List (HloOp τ sig (Elt F))), op.fresh = ∅ := by
  have hA : ∀ op ∈ (opsA : List (HloOp τ sig (Elt F))), op.fresh = ∅ := by fresh_all
  have hB : ∀ op ∈ (opsB : List (HloOp τ sig (Elt F))), op.fresh = ∅ := by fresh_all
  have hC : ∀ op ∈ (opsC : List (HloOp τ sig (Elt F))), op.fresh = ∅ := by fresh_all
  have hD : ∀ op ∈ (opsD : List (HloOp τ sig (Elt F))), op.fresh = ∅ := by fresh_all
  have hE : ∀ op ∈ (opsE : List (HloOp τ sig (Elt F))), op.fresh = ∅ := by fresh_all
  have hF : ∀ op ∈ (opsF : List (HloOp τ sig (Elt F))), op.fresh = ∅ := by fresh_all
  have hG : ∀ op ∈ (opsG : List (HloOp τ sig (Elt F))), op.fresh = ∅ := by fresh_all
  have hH : ∀ op ∈ (opsH : List (HloOp τ sig (Elt F))), op.fresh = ∅ := by fresh_all
  intro op h
  simp only [ops, List.mem_append] at h
  rcases h with h | h | h | h | h | h | h | h
  exacts [hA op h, hB op h, hC op h, hD op h, hE op h, hF op h, hG op h, hH op h]

/-- The contents after two lists run one after the other. -/
theorem after_append' {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

end Program

section Values

/-- A device's buffer contents at the ideal instance. -/
local notation "𝕍" => Valuation τ sig (Elt Ideal)

/-! ### The contents window by window -/

/-- The device's buffer contents after the first window, and so on to the eighth, which is the end. -/
def valA (V : 𝕍) : 𝕍 := after (opsA (F := Ideal)) V
def valB (V : 𝕍) : 𝕍 := after (opsB (F := Ideal)) (valA V)
def valC (V : 𝕍) : 𝕍 := after (opsC (F := Ideal)) (valB V)
def valD (V : 𝕍) : 𝕍 := after (opsD (F := Ideal)) (valC V)
def valE (V : 𝕍) : 𝕍 := after (opsE (F := Ideal)) (valD V)
def valF (V : 𝕍) : 𝕍 := after (opsF (F := Ideal)) (valE V)
def valG (V : 𝕍) : 𝕍 := after (opsG (F := Ideal)) (valF V)
def valH (V : 𝕍) : 𝕍 := after (opsH (F := Ideal)) (valG V)

theorem after_ops (V : 𝕍) : after (ops (F := Ideal)) V = valH V := by
  simp only [ops, after_append']
  rfl

/-- The buffers each window writes, in order. -/
abbrev opsA_W : List (Ref sig .tc) := [main_c, main_v0, main_v1, main_v2, main_v3, main_v4, main_v5, main_v6]
abbrev opsB_W : List (Ref sig .tc) :=
  [main_call0_cst, main_call0_v0, main_call0_cst_0, main_call0_v1, main_call0_v2, main_call0_v3, main_call0_v4,
    main_call0_v5, main_call0_v6, main_call0_cst_1, main_call0_v7, main_call0_v8, main_call0_v9, main_call0_v10, main_v7]
abbrev opsC_W : List (Ref sig .tc) :=
  [main_v8, main_call1_c, main_call1_v0, main_call1_v1, main_call1_c_0, main_call1_v2, main_call1_v3, main_call1_v4,
    main_call1_v5, main_call1_c_1, main_call1_c_2, main_call1_v6, main_call1_v7, main_call1_v8, main_call1_v9,
    main_call1_v10, main_call1_v11, main_call1_c_3, main_call1_v12, main_call1_v13, main_call1_cst, main_call1_v14,
    main_v9, main_v10, main_v11]
abbrev opsD_W : List (Ref sig .tc) := [main_cst, main_v12, main_v13, main_v14]
abbrev opsE_W : List (Ref sig .tc) := [main_v15, main_v16, main_v17, main_v18]
abbrev opsF_W : List (Ref sig .tc) :=
  [main_call2_cst, main_call2_v0, main_call2_cst_0, main_call2_v1, main_call2_v2, main_call2_v3, main_call2_v4,
    main_call2_v5, main_call2_v6, main_call2_cst_1, main_call2_v7, main_call2_v8, main_call2_v9, main_call2_v10, main_v19]
abbrev opsG_W : List (Ref sig .tc) :=
  [main_v20, main_call3_c, main_call3_v0, main_call3_v1, main_call3_c_0, main_call3_v2, main_call3_v3, main_call3_v4,
    main_call3_v5, main_call3_c_1, main_call3_c_2, main_call3_v6, main_call3_v7, main_call3_v8, main_call3_v9,
    main_call3_v10, main_call3_v11, main_call3_c_3, main_call3_v12, main_call3_v13, main_call3_cst, main_call3_v14,
    main_v21, main_v22, main_v23]
abbrev opsH_W : List (Ref sig .tc) :=
  [main_cst_0, main_v24, main_v25, main_v26, main_v27, main_cst_1, main_v28, main_cst_2, main_v29, main_v30, main_v31,
    main_v32, main_cst_3, main_v33, main_v34, main_v35, main_v36, main_v37, main_v38, main_cst_4, main_v39, main_v40,
    main_call4_v0, main_call4_call0_cst, main_call4_call0_v0, main_call4_call0_v1, main_call4_call0_v2,
    main_call4_call0_v3, main_call4_call0_v4, main_call4_call0_v5, main_call4_call0_v6, main_call4_call0_v7,
    main_call4_call0_v8, main_call4_call0_v9, main_call4_call0_v10, main_call4_call0_v11, main_call4_v1, main_v41,
    main_cst_5, main_v42, main_v43, main_cst_6, main_v44, main_v45]

/-- Each operation of a literal list writes one buffer, and it is on the list given. -/
macro "writes_sub_all" : tactic =>
  `(tactic| (simp only [List.Forall]
             (repeat' apply And.intro) <;>
               (simp only [nullary_writes, unary_writes, binary_writes, ternary_writes, reshape_writes,
                  Finset.singleton_subset_iff, List.mem_toFinset]
                exact List.mem_map_of_mem (by decide))))

theorem opsA_writes : (opsA (F := Ideal)).Forall fun op => op.writes ⊆ (opsA_W.map (Proc.devRef (τ := τ) .tc)).toFinset := by
  writes_sub_all
theorem opsB_writes : (opsB (F := Ideal)).Forall fun op => op.writes ⊆ (opsB_W.map (Proc.devRef (τ := τ) .tc)).toFinset := by
  writes_sub_all
theorem opsC_writes : (opsC (F := Ideal)).Forall fun op => op.writes ⊆ (opsC_W.map (Proc.devRef (τ := τ) .tc)).toFinset := by
  writes_sub_all
theorem opsD_writes : (opsD (F := Ideal)).Forall fun op => op.writes ⊆ (opsD_W.map (Proc.devRef (τ := τ) .tc)).toFinset := by
  writes_sub_all
theorem opsE_writes : (opsE (F := Ideal)).Forall fun op => op.writes ⊆ (opsE_W.map (Proc.devRef (τ := τ) .tc)).toFinset := by
  writes_sub_all
theorem opsF_writes : (opsF (F := Ideal)).Forall fun op => op.writes ⊆ (opsF_W.map (Proc.devRef (τ := τ) .tc)).toFinset := by
  writes_sub_all
theorem opsG_writes : (opsG (F := Ideal)).Forall fun op => op.writes ⊆ (opsG_W.map (Proc.devRef (τ := τ) .tc)).toFinset := by
  writes_sub_all
theorem opsH_writes : (opsH (F := Ideal)).Forall fun op => op.writes ⊆ (opsH_W.map (Proc.devRef (τ := τ) .tc)).toFinset := by
  writes_sub_all

/-- A buffer a window does not write keeps its contents through it. -/
theorem valA_keep (V : 𝕍) {r : Ref sig .tc} (h : r ∉ opsA_W) :
    valA V (no_index (Proc.devRef .tc r)) = V (Proc.devRef .tc r) := after_of_writes_sub opsA _ opsA_writes h
theorem valB_keep (V : 𝕍) {r : Ref sig .tc} (h : r ∉ opsB_W) :
    valB V (no_index (Proc.devRef .tc r)) = valA V (Proc.devRef .tc r) := after_of_writes_sub opsB _ opsB_writes h
theorem valC_keep (V : 𝕍) {r : Ref sig .tc} (h : r ∉ opsC_W) :
    valC V (no_index (Proc.devRef .tc r)) = valB V (Proc.devRef .tc r) := after_of_writes_sub opsC _ opsC_writes h
theorem valD_keep (V : 𝕍) {r : Ref sig .tc} (h : r ∉ opsD_W) :
    valD V (no_index (Proc.devRef .tc r)) = valC V (Proc.devRef .tc r) := after_of_writes_sub opsD _ opsD_writes h
theorem valE_keep (V : 𝕍) {r : Ref sig .tc} (h : r ∉ opsE_W) :
    valE V (no_index (Proc.devRef .tc r)) = valD V (Proc.devRef .tc r) := after_of_writes_sub opsE _ opsE_writes h
theorem valF_keep (V : 𝕍) {r : Ref sig .tc} (h : r ∉ opsF_W) :
    valF V (no_index (Proc.devRef .tc r)) = valE V (Proc.devRef .tc r) := after_of_writes_sub opsF _ opsF_writes h
theorem valG_keep (V : 𝕍) {r : Ref sig .tc} (h : r ∉ opsG_W) :
    valG V (no_index (Proc.devRef .tc r)) = valF V (Proc.devRef .tc r) := after_of_writes_sub opsG _ opsG_writes h
theorem valH_keep (V : 𝕍) {r : Ref sig .tc} (h : r ∉ opsH_W) :
    valH V (no_index (Proc.devRef .tc r)) = valG V (Proc.devRef .tc r) := after_of_writes_sub opsH _ opsH_writes h

/-- A buffer no window writes (an argument's) holds at the end what it held at the launch. -/
theorem ops_keep (V : 𝕍) {r : Ref sig .tc} (hA : r ∉ opsA_W) (hB : r ∉ opsB_W) (hC : r ∉ opsC_W) (hD : r ∉ opsD_W)
    (hE : r ∉ opsE_W) (hF : r ∉ opsF_W) (hG : r ∉ opsG_W) (hH : r ∉ opsH_W) :
    after (ops (F := Ideal)) V (Proc.devRef .tc r) = V (Proc.devRef .tc r) := by
  rw [after_ops]
  exact (valH_keep V hH).trans ((valG_keep V hG).trans ((valF_keep V hF).trans ((valE_keep V hE).trans
    ((valD_keep V hD).trans ((valC_keep V hC).trans ((valB_keep V hB).trans (valA_keep V hA)))))))

/-- A change of type along an equation of a type with itself changes nothing. (Stated and proved as a
    proposition, so that rewriting with it never asks whether a typed buffer's contents and the untyped ones are
    the same by unfolding what stands under the change of type.) -/
theorem cast_eq' {α : Sort _} (h : α = α) (a : α) : cast h a = a := by cases h; rfl

/-! ### The stages, read off the windows -/

/-- The mask, after the first window. -/
theorem valA_v2 (V : 𝕍) : valA V (no_index (Proc.devRef .tc main_v2)) = maskV (V (Proc.devRef .tc main_arg2)) := by
  unfold valA
  simp only [opsA]
  after_results_simp
  rfl

/-- The policy logits, after the first window. -/
theorem valA_v6 (V : 𝕍) : valA V (no_index (Proc.devRef .tc main_v6))
    = logitsV (V (Proc.devRef .tc main_arg1)) (V (Proc.devRef .tc main_arg0)) (V (Proc.devRef .tc main_arg3)) := by
  unfold valA
  simp only [opsA]
  after_results_simp
  rfl

set_option maxHeartbeats 1000000 in
/-- Their log-softmax, after the second. -/
theorem valB_v7 (V : 𝕍) : valB V (no_index (Proc.devRef .tc main_v7))
    = logSoftmaxV (logitsV (V (Proc.devRef .tc main_arg1)) (V (Proc.devRef .tc main_arg0)) (V (Proc.devRef .tc main_arg3))) := by
  unfold valB
  simp only [opsB]
  after_results_simp
  simp only [valA_v6]
  simp only [cast_eq']
  simp only [logSoftmaxV, lsmShiftV]

/-- The policy's and the reference model's masked per-token arrays, read off a device's argument buffers. -/
def polV (V : 𝕍) : FVec Ideal S8x512 .f32 :=
  tokV (V (Proc.devRef .tc main_arg1)) (V (Proc.devRef .tc main_arg0)) (V (Proc.devRef .tc main_arg3))
    (V (Proc.devRef .tc main_arg2))
def rfmV (V : 𝕍) : FVec Ideal S8x512 .f32 :=
  tokV (V (Proc.devRef .tc main_arg1)) (V (Proc.devRef .tc main_arg4)) (V (Proc.devRef .tc main_arg5))
    (V (Proc.devRef .tc main_arg2))

set_option maxHeartbeats 2000000 in
/-- The policy's masked per-token array, after the third. -/
theorem valC_v11 (V : 𝕍) : valC V (no_index (Proc.devRef .tc main_v11)) = polV V := by
  unfold valC
  simp only [opsC]
  after_results_simp
  simp (disch := decide) only [valB_v7, valB_keep, valA_v2, valA_keep]
  simp only [cast_eq']
  simp only [polV, tokV, takeV, takeIdxV]
  rfl

/-- The per-sequence sums' two halves, after the fourth. -/
theorem valD_v13 (V : 𝕍) : valD V (no_index (Proc.devRef .tc main_v13))
    = extractStridedSlice S4 ![0]
        (Host.reduceAdd (F := Ideal) (polV V) (constant (F := Ideal) S_ .f32 0x00000000#32) reducesTo_S8x512_S8_d1 h_S_)
        slices_S8_S4_0 := by
  unfold valD
  simp only [opsD]
  after_results_simp
  simp only [valC_v11]
theorem valD_v14 (V : 𝕍) : valD V (no_index (Proc.devRef .tc main_v14))
    = extractStridedSlice S4 ![4]
        (Host.reduceAdd (F := Ideal) (polV V) (constant (F := Ideal) S_ .f32 0x00000000#32) reducesTo_S8x512_S8_d1 h_S_)
        slices_S8_S4_4 := by
  unfold valD
  simp only [opsD]
  after_results_simp
  simp only [valC_v11]

/-- The reference model's logits, after the fifth. -/
theorem valE_v18 (V : 𝕍) : valE V (no_index (Proc.devRef .tc main_v18))
    = logitsV (V (Proc.devRef .tc main_arg1)) (V (Proc.devRef .tc main_arg4)) (V (Proc.devRef .tc main_arg5)) := by
  unfold valE
  simp only [opsE]
  after_results_simp
  simp (disch := decide) only [valD_keep, valC_keep, valB_keep, valA_keep]
  rfl

set_option maxHeartbeats 1000000 in
/-- Their log-softmax, after the sixth. -/
theorem valF_v19 (V : 𝕍) : valF V (no_index (Proc.devRef .tc main_v19))
    = logSoftmaxV (logitsV (V (Proc.devRef .tc main_arg1)) (V (Proc.devRef .tc main_arg4)) (V (Proc.devRef .tc main_arg5))) := by
  unfold valF
  simp only [opsF]
  after_results_simp
  simp only [valE_v18]
  simp only [cast_eq']
  simp only [logSoftmaxV, lsmShiftV]

set_option maxHeartbeats 2000000 in
/-- The reference model's masked per-token array, after the seventh. -/
theorem valG_v23 (V : 𝕍) : valG V (no_index (Proc.devRef .tc main_v23)) = rfmV V := by
  unfold valG
  simp only [opsG]
  after_results_simp
  simp (disch := decide) only [valF_v19, valF_keep, valE_keep, valD_keep, valC_keep, valB_keep, valA_v2, valA_keep]
  simp only [cast_eq']
  simp only [rfmV, tokV, takeV, takeIdxV]
  rfl

set_option maxHeartbeats 2000000 in
/-- The loss, at the end. -/
theorem valH_v45 (V : 𝕍) : valH V (no_index (Proc.devRef .tc main_v45))
    = refOut (V (Proc.devRef .tc main_arg1)) (V (Proc.devRef .tc main_arg0)) (V (Proc.devRef .tc main_arg3))
        (V (Proc.devRef .tc main_arg4)) (V (Proc.devRef .tc main_arg5)) (V (Proc.devRef .tc main_arg2)) := by
  unfold valH
  simp only [opsH]
  after_results_simp
  simp (disch := decide) only [valG_v23, valG_keep, valF_keep, valE_keep, valD_v13, valD_v14, valD_keep, valC_v11,
    valC_keep, valB_keep, valA_v2, valA_keep]
  simp only [cast_eq']
  simp only [refOut, refTail, logSigmoidV, softplusV, polV, rfmV]

/-- The result buffer at the end of the whole line. -/
theorem out_eq (V : 𝕍) : after (ops (F := Ideal)) V (Proc.devRef .tc main_v45)
    = refOut (V (Proc.devRef .tc main_arg1)) (V (Proc.devRef .tc main_arg0)) (V (Proc.devRef .tc main_arg3))
        (V (Proc.devRef .tc main_arg4)) (V (Proc.devRef .tc main_arg5)) (V (Proc.devRef .tc main_arg2)) := by
  rw [after_ops]
  exact valH_v45 V

end Values

/-- On the device, from any memory with zero counters: every weakly fair execution of @main terminates with the
    result buffer at the loss of the six argument arrays' launch contents, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = refOut (m ((c.tc : Thread nD τ).loc main_arg1)) (m ((c.tc : Thread nD τ).loc main_arg0))
          (m ((c.tc : Thread nD τ).loc main_arg3)) (m ((c.tc : Thread nD τ).loc main_arg4)) (m ((c.tc : Thread nD τ).loc main_arg5))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v45).trans (out_eq (launchContents m c)),
        (h c main_arg0).trans (ops_keep (launchContents m c) (by decide) (by decide) (by decide) (by decide) (by decide) (by decide) (by decide) (by decide)),
        (h c main_arg1).trans (ops_keep (launchContents m c) (by decide) (by decide) (by decide) (by decide) (by decide) (by decide) (by decide) (by decide)),
        (h c main_arg2).trans (ops_keep (launchContents m c) (by decide) (by decide) (by decide) (by decide) (by decide) (by decide) (by decide) (by decide)),
        (h c main_arg3).trans (ops_keep (launchContents m c) (by decide) (by decide) (by decide) (by decide) (by decide) (by decide) (by decide) (by decide)),
        (h c main_arg4).trans (ops_keep (launchContents m c) (by decide) (by decide) (by decide) (by decide) (by decide) (by decide) (by decide) (by decide)),
        (h c main_arg5).trans (ops_keep (launchContents m c) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.ReferenceRead.lean ====
/-
  The reference's per-token stage read at an index. The stage is the composition of the reference's own
  operations: the contraction of the features with the class rows plus the bias (the logits), the log-softmax
  over the 32000 classes computed with the row maximum as the shift, the entry at the token's target class, and
  the factor that is 1 where the target is not the ignore index. Each operation is first read at coordinates
  (b, t, v) from its operands at coordinates; composed, token (b, t)'s value is the log-softmax of its logits at
  its target class, which is the per-token log-probability stated over the extended reals. Two facts carry the
  composition: a target below 32000 passes every range test as the word it is, and real logits have a real row
  maximum, so the shifted log-softmax is the unshifted one.
-/
import proofs.«414215_j57698590654887_3_alg».proof.Proof.ReferenceStages
import proofs.«414215_j57698590654887_3_alg».proof.Proof.LibOnlineLogSumExp
import proofs.«414215_j57698590654887_3_alg».proof.Proof.TokenLogProb
import Idealize.ShloMosaic.Lib.Pipeline.Value
import Idealize.ShloMosaic.Lib.IdealHost
import Idealize.ShloMosaic.Lib.KernelVsHost
import Idealize.ShloMosaic.Lib.StableHlo.Predicate

noncomputable section

namespace Cert.ReferenceIdeal.RefRead

open Idealize.ShloMosaic Idealize.ShloMosaic.ValueIdx
open Cert.ReferenceIdeal

/-! ## Layout operations read at coordinates -/

section Layout
variable {α : Type}

/-- A per-token array given a trailing unit axis reads, at (b, t, u), the token's entry. -/
theorem bcast_tok_unit (h : S8x512.BroadcastsInDim S8x512x1 ![0, 1]) (x : S8x512.Idx → α)
    (b : Fin 8) (t : Fin 512) (u : Fin 1) :
    broadcastInDim S8x512x1 ![0, 1] h x (ix3 b t u) = x (ix2 b t) :=
  broadcastInDim_apply _ h x _ _ (fun a => by match a with | ⟨0, _⟩ => rfl | ⟨1, _⟩ => rfl)

/-- A per-token column broadcast along the class axis reads, at (b, t, v), the column's entry for (b, t). -/
theorem bcast_unit_class (h : S8x512x1.BroadcastsInDim S8x512x32000 ![0, 1, 2]) (x : S8x512x1.Idx → α)
    (b : Fin 8) (t : Fin 512) (v : Fin 32000) :
    broadcastInDim S8x512x32000 ![0, 1, 2] h x (ix3 b t v) = x (ix3 b t (0 : Fin 1)) :=
  broadcastInDim_apply _ h x _ _ (fun a => by match a with | ⟨0, _⟩ => rfl | ⟨1, _⟩ => rfl | ⟨2, _⟩ => rfl)

/-- A per-class vector given two leading unit axes reads, at (p, q, v), the vector's entry for class v. -/
theorem bcast_class_lead (h : S32000.BroadcastsInDim S1x1x32000 ![2]) (x : S32000.Idx → α)
    (p q : Fin 1) (v : Fin 32000) :
    broadcastInDim S1x1x32000 ![2] h x (ix3 p q v) = x (ix1 v) :=
  broadcastInDim_apply _ h x _ _ (fun a => by match a with | ⟨0, _⟩ => rfl)

/-- A per-class row broadcast over the tokens reads, at (b, t, v), the row's entry for class v. -/
theorem bcast_lead_tok (h : S1x1x32000.BroadcastsInDim S8x512x32000 ![0, 1, 2]) (x : S1x1x32000.Idx → α)
    (b : Fin 8) (t : Fin 512) (v : Fin 32000) :
    broadcastInDim S8x512x32000 ![0, 1, 2] h x (ix3 b t v) = x (ix3 (0 : Fin 1) (0 : Fin 1) v) :=
  broadcastInDim_apply _ h x _ _ (fun a => by match a with | ⟨0, _⟩ => rfl | ⟨1, _⟩ => rfl | ⟨2, _⟩ => rfl)

/-- Dropping the trailing unit axis: the entry at (b, t) is the entry at (b, t, 0), the same row-major position. -/
theorem cast_drop_unit (h : S8x512x1.ShapeCasts S8x512) (x : S8x512x1.Idx → α) (b : Fin 8) (t : Fin 512) :
    shapeCast S8x512 x h (ix2 b t) = x (ix3 b t (0 : Fin 1)) :=
  shapeCast_apply x h _ _ (by
    rw [Shape.rowMajor_val_three, Shape.rowMajor_val_two]
    show ((b.val * 512 + t.val) * 1 + 0) = b.val * 512 + t.val
    omega)

/-- Adding a trailing unit axis: the entry at (b, t, u, u') is the entry at (b, t, u), the same row-major position. -/
theorem cast_add_unit (h : S8x512x1.ShapeCasts S8x512x1x1) (x : S8x512x1.Idx → α) (b : Fin 8) (t : Fin 512)
    (u u' : Fin 1) :
    shapeCast S8x512x1x1 x h (ix4 b t u u') = x (ix3 b t u) :=
  shapeCast_apply x h _ _ (by
    rw [Shape.rowMajor_val_three, Shape.rowMajor_val_four]
    show ((b.val * 512 + t.val) * 1 + u.val) = ((b.val * 512 + t.val) * 1 + u.val) * 1 + u'.val
    omega)

end Layout

/-! ## Words -/

section Words
open Idealize.ShloMosaic.StableHlo.Predicate

/-- A word below 32000 is not the ignore index -100 (the word 4294967196). -/
theorem ne_ignore_of_class {w : BitVec 32} (hw : w.toNat < 32000) : IntOp.cmpi .ne w 4294967196#32 = 1#1 := by
  have hne : w ≠ 4294967196#32 := by
    intro e
    rw [e] at hw
    exact absurd hw (by decide)
  show BitVec.ofBool (w != 4294967196#32) = 1#1
  rw [bne_iff_ne.mpr hne]
  rfl

/-- A word below 32000 is not negative read signed. -/
theorem not_negative_of_class {w : BitVec 32} (hw : w.toNat < 32000) : IntOp.cmpi .slt w 0#32 = 0#1 :=
  eq_zero_of_ne_one fun h => by
    have := (slt_iff_toNat (a := w) (b := 0#32) (by omega) (by decide)).mp h
    simp at this

/-- A word below 32000 is at least 0 read signed. -/
theorem at_least_zero_of_class {w : BitVec 32} (hw : w.toNat < 32000) : IntOp.cmpi .sge w 0#32 = 1#1 :=
  (sge_iff_toNat (a := w) (b := 0#32) (by omega) (by decide)).mpr (by simp)

/-- A word below 32000 is at most 31999 read signed. -/
theorem at_most_last_of_class {w : BitVec 32} (hw : w.toNat < 32000) : IntOp.cmpi .sle w 31999#32 = 1#1 :=
  (sle_iff_toNat (a := w) (b := 31999#32) (by omega) (by decide)).mpr (by
    show w.toNat ≤ 31999
    omega)

/-- A word below 32000 has the same value read signed and unsigned. -/
theorem signed_value_of_class {w : BitVec 32} (hw : w.toNat < 32000) : w.toInt.toNat = w.toNat := by
  rw [toInt_eq_toNat_of_lt (by omega)]
  simp

/-- The set bit converted to a float is the number 1. -/
theorem one_bit_as_float : FloatOps.uitofp (F := Ideal) .f32 (1#1 : BitVec 1) = (1 : EReal) := by
  show (((1#1 : BitVec 1).toNat : ℝ) : EReal) = 1
  simp

end Words

/-! ## The reductions over the class axis -/

section Reductions

/-- A token index with a class inserted on the reduced axis is the (batch, position, class) index. -/
theorem lift_class (h : S8x512x32000.Reduces [2] S8x512) (b : Fin 8) (t : Fin 512)
    (k : Fin (S8x512x32000.size 2)) : h.lift (ix2 b t) k = ix3 b t (⟨k.val, k.isLt⟩ : Fin 32000) := by
  funext c; apply Fin.ext
  fin_cases c <;> rfl

/-- Dropping the class axis of a (batch, position, class) array leaves a (batch, position) array. -/
theorem reduces_class : S8x512x32000.Reduces [2] S8x512 := by decide

/-- The word 0xFF800000 is minus infinity. -/
theorem neg_inf_word : Ideal.ofBits .f32 0xFF800000#32 = (⊥ : EReal) := by simp [Ideal.ofBits, Ideal.ieee]

/-- The maximum-reduce over the class axis started at minus infinity: at token (b, t), the fold of max from the
    bottom element over the token's row. -/
theorem rowMax_apply (h' : S8x512x32000.ReducesTo [2] S8x512) (hu : 0 < S_.numel) (z : FVec Ideal S8x512x32000 .f32)
    (b : Fin 8) (t : Fin 512) :
    Host.reduce (FloatOps.maximumf (F := Ideal)) z (constant (F := Ideal) S_ .f32 0xFF800000#32) h' hu (ix2 b t)
      = (Finset.univ : Finset (Fin 32000)).fold max (⊥ : EReal) (fun k => z (ix3 b t k)) := by
  rw [Host.reduce_eq_fold_single (FloatOps.maximumf (F := Ideal)) z _ h' reduces_class hu]
  have hf : (z ∘ reduces_class.lift (ix2 b t)) = fun k : Fin 32000 => z (ix3 b t k) :=
    funext fun k => congrArg z (lift_class reduces_class b t k)
  rw [hf]
  show (Finset.univ : Finset (Fin 32000)).fold max (Ideal.ofBits .f32 0xFF800000#32) _ = _
  rw [neg_inf_word]

/-- The add-reduce over the class axis started at zero: at token (b, t), the sum of the token's row. -/
theorem rowSum_apply (h' : S8x512x32000.ReducesTo [2] S8x512) (hu : 0 < S_.numel) (z : FVec Ideal S8x512x32000 .f32)
    (b : Fin 8) (t : Fin 512) :
    Host.reduceAdd (F := Ideal) z (constant (F := Ideal) S_ .f32 0x00000000#32) h' hu (ix2 b t)
      = ∑ k : Fin 32000, z (ix3 b t k) := by
  rw [hostReduceAdd_apply, Ideal.hostReduceAdd_single h' reduces_class]
  show Ideal.ofBits .f32 0x00000000#32 + _ = _
  rw [Ideal.ofBits_zero_f32, zero_add]
  exact Finset.sum_congr rfl fun k _ => congrArg z (lift_class reduces_class b t k)

/-- A (batch, position, unit) index with a coordinate inserted on the trailing unit axis. -/
theorem lift_last_unit (h : S8x512x1x1.Reduces [3] S8x512x1) (b : Fin 8) (t : Fin 512) (u : Fin 1)
    (k : Fin (S8x512x1x1.size 3)) : h.lift (ix3 b t u) k = ix4 b t u (⟨k.val, k.isLt⟩ : Fin 1) := by
  funext c; apply Fin.ext
  fin_cases c <;> rfl

/-- Dropping the trailing unit axis of a rank-4 array leaves the rank-3 array. -/
theorem reduces_last_unit : S8x512x1x1.Reduces [3] S8x512x1 := by decide

/-- The and-reduce over the trailing unit axis started at the set bit: the one entry there, and-ed with the set bit. -/
theorem allOf_apply (h' : S8x512x1x1.ReducesTo [3] S8x512x1) (hu : 0 < S_.numel) (m : IVec S8x512x1x1 1)
    (b : Fin 8) (t : Fin 512) (u : Fin 1) :
    Host.reduce IntOp.andi m (constantI S_ 1 1#1) h' hu (ix3 b t u) = IntOp.andi (m (ix4 b t u (0 : Fin 1))) 1#1 := by
  rw [Host.reduce_eq_fold_single IntOp.andi m _ h' reduces_last_unit hu]
  have hf : (m ∘ reduces_last_unit.lift (ix3 b t u)) = fun k : Fin 1 => m (ix4 b t u k) :=
    funext fun k => congrArg m (lift_last_unit reduces_last_unit b t u k)
  rw [hf]
  show (Finset.univ : Finset (Fin 1)).fold IntOp.andi (1#1) _ = _
  rw [Fin.univ_succ]
  simp

end Reductions

variable [Cert.ReferenceIdeal.Facts]

/-! ## The gather along the class axis -/

section Gather
variable {α : Type}

/-- The position at which result index j reads its start index: j's three coordinates, and 0 on the index-vector
    axis. -/
theorem take_start_index (j : S8x512x1.Idx)
    (c : Fin gather_S8x512x32000_S8x512x1x1_S8x512x1_n_2_01_01_2_3_111.startIndexMap.length) :
    gather_S8x512x32000_S8x512x1x1_S8x512x1_n_2_01_01_2_3_111.siIdx j c = ix4 (j 0) (j 1) (j 2) (0 : Fin 1) := by
  funext a; refine Fin.ext ?_
  match a with
  | ⟨0, _⟩ => rfl
  | ⟨1, _⟩ => rfl
  | ⟨2, _⟩ => rfl
  | ⟨3, _⟩ =>
    have hc : c.val < 1 := c.isLt
    show c.val = 0
    omega

/-- On the batch axis (a batching axis) the operand index is the result's batch coordinate. -/
theorem take_axis_batch (j : S8x512x1.Idx) (idx : IVec S8x512x1x1 32) :
    (gather_S8x512x32000_S8x512x1x1_S8x512x1_n_2_01_01_2_3_111.operandIdx j idx 0).val = (j 0).val := by
  show gather_S8x512x32000_S8x512x1x1_S8x512x1_n_2_01_01_2_3_111.start j idx 0
      + gather_S8x512x32000_S8x512x1x1_S8x512x1_n_2_01_01_2_3_111.batchCoord j 0
      + gather_S8x512x32000_S8x512x1x1_S8x512x1_n_2_01_01_2_3_111.offCoord j 0 = _
  have hmem : (0 : Fin S8x512x32000.rank) ∈ gather_S8x512x32000_S8x512x1x1_S8x512x1_n_2_01_01_2_3_111.operandBatchingDims := by
    show (0 : Fin 3) ∈ ([0, 1] : List (Fin 3)); decide
  rw [GatherDims.start_batching _ _ _ _ hmem,
    GatherDims.offCoord_eq_zero _ _ _ (fun h => ((GatherDims.mem_sKept _ _).mp h).2 hmem)]
  simp only [Nat.zero_add, Nat.add_zero]
  rfl

/-- On the position axis (a batching axis) the operand index is the result's position coordinate. -/
theorem take_axis_pos (j : S8x512x1.Idx) (idx : IVec S8x512x1x1 32) :
    (gather_S8x512x32000_S8x512x1x1_S8x512x1_n_2_01_01_2_3_111.operandIdx j idx 1).val = (j 1).val := by
  show gather_S8x512x32000_S8x512x1x1_S8x512x1_n_2_01_01_2_3_111.start j idx 1
      + gather_S8x512x32000_S8x512x1x1_S8x512x1_n_2_01_01_2_3_111.batchCoord j 1
      + gather_S8x512x32000_S8x512x1x1_S8x512x1_n_2_01_01_2_3_111.offCoord j 1 = _
  have hmem : (1 : Fin S8x512x32000.rank) ∈ gather_S8x512x32000_S8x512x1x1_S8x512x1_n_2_01_01_2_3_111.operandBatchingDims := by
    show (1 : Fin 3) ∈ ([0, 1] : List (Fin 3)); decide
  rw [GatherDims.start_batching _ _ _ _ hmem,
    GatherDims.offCoord_eq_zero _ _ _ (fun h => ((GatherDims.mem_sKept _ _).mp h).2 hmem)]
  simp only [Nat.zero_add, Nat.add_zero]
  rfl

/-- On the class axis (collapsed, and the one the start index names) the operand index is the start index read
    signed and clamped into 0 .. 31999. -/
theorem take_axis_class (j : S8x512x1.Idx) (idx : IVec S8x512x1x1 32) :
    (gather_S8x512x32000_S8x512x1x1_S8x512x1_n_2_01_01_2_3_111.operandIdx j idx 2).val
      = min (idx (ix4 (j 0) (j 1) (j 2) (0 : Fin 1))).toInt.toNat 31999 := by
  show gather_S8x512x32000_S8x512x1x1_S8x512x1_n_2_01_01_2_3_111.start j idx 2
      + gather_S8x512x32000_S8x512x1x1_S8x512x1_n_2_01_01_2_3_111.batchCoord j 2
      + gather_S8x512x32000_S8x512x1x1_S8x512x1_n_2_01_01_2_3_111.offCoord j 2 = _
  have hnb : (2 : Fin S8x512x32000.rank) ∉ gather_S8x512x32000_S8x512x1x1_S8x512x1_n_2_01_01_2_3_111.operandBatchingDims := by
    show (2 : Fin 3) ∉ ([0, 1] : List (Fin 3)); decide
  have hcol : (2 : Fin S8x512x32000.rank) ∈ gather_S8x512x32000_S8x512x1x1_S8x512x1_n_2_01_01_2_3_111.collapsedSliceDims := by
    show (2 : Fin 3) ∈ ([2] : List (Fin 3)); decide
  have hmap : (2 : Fin S8x512x32000.rank) ∈ gather_S8x512x32000_S8x512x1x1_S8x512x1_n_2_01_01_2_3_111.startIndexMap := by
    show (2 : Fin 3) ∈ ([2] : List (Fin 3)); decide
  rw [GatherDims.batchCoord_eq_zero _ _ _ hnb,
    GatherDims.offCoord_eq_zero _ _ _ (fun h => ((GatherDims.mem_sKept _ _).mp h).1 hcol)]
  simp only [Nat.add_zero]
  unfold GatherDims.start
  rw [dif_pos hmap, take_start_index]
  rfl

/-- The gather at (b, t, u): row (b, t) of the operand at the start index, read signed and clamped into
    0 .. 31999. -/
theorem take_apply (lp : S8x512x32000.Idx → α) (idx : IVec S8x512x1x1 32) (b : Fin 8) (t : Fin 512) (u : Fin 1) :
    Host.gather gather_S8x512x32000_S8x512x1x1_S8x512x1_n_2_01_01_2_3_111 lp idx (ix3 b t u)
      = lp (ix3 b t (⟨min (idx (ix4 b t u (0 : Fin 1))).toInt.toNat 31999,
          Nat.lt_of_le_of_lt (Nat.min_le_right _ _) (by decide)⟩ : Fin 32000)) := by
  unfold Host.gather
  refine congrArg lp (funext fun a => Fin.ext ?_)
  match a with
  | ⟨0, _⟩ => exact take_axis_batch _ _
  | ⟨1, _⟩ => exact take_axis_pos _ _
  | ⟨2, _⟩ => exact take_axis_class _ _

end Gather

/-! ## The contraction over the hidden axis -/

section Dot

/-- The left operand's batch coordinate is the result's. -/
theorem feat_axis_batch (i : S8x512x32000.Idx) (q : dot_S8x512x4096_S32000x4096_S8x512x32000_2_1_01_0_n_n.contr.Idx) :
    (dot_S8x512x4096_S32000x4096_S8x512x32000_2_1_01_0_n_n.lhsIdx i q 0).val = (i 0).val := by
  have hb : ¬(0 : Fin S8x512x4096.rank) ∈ dot_S8x512x4096_S32000x4096_S8x512x32000_2_1_01_0_n_n.lhsBatch := by
    show ¬(0 : Fin 3) ∈ ([] : List (Fin 3)); decide
  have hn : (0 : Fin S8x512x4096.rank) ∈ dot_S8x512x4096_S32000x4096_S8x512x32000_2_1_01_0_n_n.lhsNonContracting := by
    show (0 : Fin 3) ∈ ([0, 1] : List (Fin 3)); decide
  unfold DotDims.lhsIdx
  rw [dif_neg hb, dif_pos hn]
  rfl

/-- The left operand's position coordinate is the result's. -/
theorem feat_axis_pos (i : S8x512x32000.Idx) (q : dot_S8x512x4096_S32000x4096_S8x512x32000_2_1_01_0_n_n.contr.Idx) :
    (dot_S8x512x4096_S32000x4096_S8x512x32000_2_1_01_0_n_n.lhsIdx i q 1).val = (i 1).val := by
  have hb : ¬(1 : Fin S8x512x4096.rank) ∈ dot_S8x512x4096_S32000x4096_S8x512x32000_2_1_01_0_n_n.lhsBatch := by
    show ¬(1 : Fin 3) ∈ ([] : List (Fin 3)); decide
  have hn : (1 : Fin S8x512x4096.rank) ∈ dot_S8x512x4096_S32000x4096_S8x512x32000_2_1_01_0_n_n.lhsNonContracting := by
    show (1 : Fin 3) ∈ ([0, 1] : List (Fin 3)); decide
  unfold DotDims.lhsIdx
  rw [dif_neg hb, dif_pos hn]
  rfl

/-- The left operand's hidden coordinate is the contraction index. -/
theorem feat_axis_hidden (i : S8x512x32000.Idx) (q : dot_S8x512x4096_S32000x4096_S8x512x32000_2_1_01_0_n_n.contr.Idx) :
    (dot_S8x512x4096_S32000x4096_S8x512x32000_2_1_01_0_n_n.lhsIdx i q 2).val = (q ⟨0, Nat.one_pos⟩).val :=
  dot_S8x512x4096_S32000x4096_S8x512x32000_2_1_01_0_n_n.lhsIdx_val_of_single rfl i q

/-- The right operand's class coordinate is the result's class coordinate. -/
theorem row_axis_class (i : S8x512x32000.Idx) (q : dot_S8x512x4096_S32000x4096_S8x512x32000_2_1_01_0_n_n.contr.Idx) :
    (dot_S8x512x4096_S32000x4096_S8x512x32000_2_1_01_0_n_n.rhsIdx i q 0).val = (i 2).val := by
  have hb : ¬(0 : Fin S32000x4096.rank) ∈ dot_S8x512x4096_S32000x4096_S8x512x32000_2_1_01_0_n_n.rhsBatch := by
    show ¬(0 : Fin 2) ∈ ([] : List (Fin 2)); decide
  have hn : (0 : Fin S32000x4096.rank) ∈ dot_S8x512x4096_S32000x4096_S8x512x32000_2_1_01_0_n_n.rhsNonContracting := by
    show (0 : Fin 2) ∈ ([0] : List (Fin 2)); decide
  unfold DotDims.rhsIdx
  rw [dif_neg hb, dif_pos hn]
  rfl

/-- The right operand's hidden coordinate is the contraction index. -/
theorem row_axis_hidden (i : S8x512x32000.Idx) (q : dot_S8x512x4096_S32000x4096_S8x512x32000_2_1_01_0_n_n.contr.Idx) :
    (dot_S8x512x4096_S32000x4096_S8x512x32000_2_1_01_0_n_n.rhsIdx i q 1).val = (q ⟨0, Nat.one_pos⟩).val :=
  dot_S8x512x4096_S32000x4096_S8x512x32000_2_1_01_0_n_n.rhsIdx_val_of_single rfl i q

/-- The contraction at (b, t, v): the inner product of token (b, t)'s features with class v's weight row. -/
theorem dot_apply (X : FVec Ideal S8x512x4096 .f32) (W : FVec Ideal S32000x4096 .f32)
    (b : Fin 8) (t : Fin 512) (v : Fin 32000) :
    Host.dotGeneral (F := Ideal) dot_S8x512x4096_S32000x4096_S8x512x32000_2_1_01_0_n_n none X W (ix3 b t v)
      = ∑ h : Fin 4096, X (ix3 b t h) * W (ix2 v h) := by
  simp only [Host.dotGeneral]
  rw [Ideal.dotGeneral_apply,
    ← Equiv.sum_comp (contrEquiv1 dot_S8x512x4096_S32000x4096_S8x512x32000_2_1_01_0_n_n 4096 rfl rfl).symm]
  refine Finset.sum_congr rfl fun h _ => ?_
  have hh := contrEquiv1_symm_val dot_S8x512x4096_S32000x4096_S8x512x32000_2_1_01_0_n_n 4096 rfl rfl h
  have el : dot_S8x512x4096_S32000x4096_S8x512x32000_2_1_01_0_n_n.lhsIdx (ix3 b t v)
      ((contrEquiv1 dot_S8x512x4096_S32000x4096_S8x512x32000_2_1_01_0_n_n 4096 rfl rfl).symm h) = ix3 b t h :=
    funext fun a => Fin.ext (by
      match a with
      | ⟨0, _⟩ => exact feat_axis_batch _ _
      | ⟨1, _⟩ => exact feat_axis_pos _ _
      | ⟨2, _⟩ => exact (feat_axis_hidden _ _).trans hh)
  have er : dot_S8x512x4096_S32000x4096_S8x512x32000_2_1_01_0_n_n.rhsIdx (ix3 b t v)
      ((contrEquiv1 dot_S8x512x4096_S32000x4096_S8x512x32000_2_1_01_0_n_n 4096 rfl rfl).symm h) = ix2 v h :=
    funext fun a => Fin.ext (by
      match a with
      | ⟨0, _⟩ => exact row_axis_class _ _
      | ⟨1, _⟩ => exact (row_axis_hidden _ _).trans hh)
  rw [el, er]

end Dot

/-! ## The stages at coordinates -/

section Stages
open Cert.ReferenceIdeal.RefRun Cert.Dpo
open Cert.ReferenceIdeal.Facts₀ Cert.ReferenceIdeal.Facts

/-- The host's logarithm at an index is the extended reals' logarithm of the element. -/
theorem hostLog_apply {s : Shape} (x : FVec Ideal s .f32) (i : s.Idx) : Host.log (F := Ideal) x i = Ideal.log (x i) := rfl

/-- The host's exponential at an index is the extended reals' exponential of the element. -/
theorem hostExp_apply {s : Shape} (x : FVec Ideal s .f32) (i : s.Idx) : Host.exp (F := Ideal) x i = Ideal.exp (x i) := rfl

/-- A target that names a class differs from the ignore index, so its mask factor is 1. -/
theorem maskV_apply (tgt : IVec S8x512 32) (b : Fin 8) (t : Fin 512) (hw : (tgt (ix2 b t)).toNat < 32000) :
    maskV tgt (ix2 b t) = 1 := by
  unfold maskV
  rw [broadcastInDim_constantI]
  show FloatOps.uitofp (F := Ideal) .f32 (IntOp.cmpi .ne (tgt (ix2 b t)) 4294967196#32) = 1
  rw [ne_ignore_of_class hw, one_bit_as_float]

/-- The logit of token (b, t) at class v: the inner product of its features with the class row, plus the bias. -/
theorem logitsV_apply (X : FVec Ideal S8x512x4096 .f32) (W : FVec Ideal S32000x4096 .f32) (B : FVec Ideal S32000 .f32)
    (b : Fin 8) (t : Fin 512) (v : Fin 32000) :
    logitsV X W B (ix3 b t v)
      = logit (fun h => X (ix3 b t h)) (fun v h => W (ix2 v h)) (fun v => B (ix1 v)) v := by
  unfold logitsV
  rw [addf_apply, dot_apply, bcast_lead_tok, bcast_class_lead]
  rfl

/-- The shifted logit: the logit minus the row maximum, the maximum folded from minus infinity over the classes
    and taken once more against minus infinity. -/
theorem lsmShiftV_apply (z : FVec Ideal S8x512x32000 .f32) (b : Fin 8) (t : Fin 512) (v : Fin 32000) :
    lsmShiftV z (ix3 b t v)
      = z (ix3 b t v) - max (⊥ : EReal) ((Finset.univ : Finset (Fin 32000)).fold max (⊥ : EReal) (fun k => z (ix3 b t k))) := by
  unfold lsmShiftV
  rw [subf_apply, bcast_unit_class, bcast_tok_unit, maximumf_apply, broadcastInDim_scalar_apply, constant_apply,
    neg_inf_word, rowMax_apply]

/-- The log-softmax at (b, t, v): the shifted logit minus the logarithm of the row's sum of exponentials of
    shifted logits. -/
theorem logSoftmaxV_apply (z : FVec Ideal S8x512x32000 .f32) (b : Fin 8) (t : Fin 512) (v : Fin 32000) :
    logSoftmaxV z (ix3 b t v)
      = lsmShiftV z (ix3 b t v) - Ideal.log (∑ k : Fin 32000, Ideal.exp (lsmShiftV z (ix3 b t k))) := by
  unfold logSoftmaxV
  rw [subf_apply, bcast_unit_class, hostLog_apply, bcast_tok_unit, rowSum_apply]
  rfl

/-- On a row of real logits r the row maximum is a real number s, every shifted logit is r k - s, and the shift
    cancels: the stage is the log-softmax of r. -/
theorem logSoftmaxV_real (z : FVec Ideal S8x512x32000 .f32) (b : Fin 8) (t : Fin 512) (r : Fin 32000 → ℝ)
    (hz : ∀ k, z (ix3 b t k) = ((r k : ℝ) : EReal)) (v : Fin 32000) :
    logSoftmaxV z (ix3 b t v) = ((logSoftmax r v : ℝ) : EReal) := by
  obtain ⟨s, hs⟩ := fold_max_bot_isReal (n := 32000) (by norm_num) r
  have hrow : (fun k => z (ix3 b t k)) = fun k => ((r k : ℝ) : EReal) := funext hz
  have hshift : ∀ k, lsmShiftV z (ix3 b t k) = ((r k : ℝ) : EReal) - (s : EReal) := fun k => by
    rw [lsmShiftV_apply, hrow, hs, max_bot_left, hz]
  rw [logSoftmaxV_apply, hshift v, Finset.sum_congr rfl (fun k _ => congrArg Ideal.exp (hshift k))]
  exact logSoftmax_shift r s v

/-- An index that names a class is not negative, so it is kept as it is (and given the trailing unit axis). -/
theorem takeIdxV_apply (idx : IVec S8x512x1 32) (b : Fin 8) (t : Fin 512) (u u' : Fin 1)
    (hw : (idx (ix3 b t u)).toNat < 32000) : takeIdxV idx (ix4 b t u u') = idx (ix3 b t u) := by
  unfold takeIdxV
  rw [cast_add_unit, select_apply]
  show Scalar.select (IntOp.cmpi .slt (idx (ix3 b t u))
      (broadcastInDim S8x512x1 ![] bcast_S_S8x512x1 (constantI S_ 32 0#32) (ix3 b t u))) _ _ = _
  rw [broadcastInDim_constantI, broadcast_apply, not_negative_of_class hw, select_zero]

/-- The upper bound the index is tested against, the word 31999 broadcast twice, is that word everywhere. -/
theorem last_class_apply (j : S8x512x1x1.Idx) :
    broadcastInDim S8x512x1x1 ![0, 1, 2, 3] bcast_S1x1x1x1_S8x512x1x1_0_1_2_3
      (broadcastInDim S1x1x1x1 ![3] bcast_S1_S1x1x1x1_3 (constantI S1 32 31999#32)) j = 31999#32 := rfl

/-- A word that names a class passes both range tests. -/
theorem in_range_bit {w : BitVec 32} (hw : w.toNat < 32000) :
    IntOp.andi (IntOp.andi (IntOp.cmpi .sge w 0#32) (IntOp.cmpi .sle w 31999#32)) 1#1 = 1#1 := by
  rw [at_least_zero_of_class hw, at_most_last_of_class hw]
  decide

/-- The entry taken from row (b, t) of lp at an index that names a class: the range test passes, the clamp does
    nothing, and the gathered entry is lp at that class. -/
theorem takeV_apply (lp : FVec Ideal S8x512x32000 .f32) (idx : IVec S8x512x1 32) (b : Fin 8) (t : Fin 512) (u : Fin 1)
    (hw : (idx (ix3 b t u)).toNat < 32000) :
    takeV lp idx (ix3 b t u) = lp (ix3 b t (⟨(idx (ix3 b t u)).toNat, hw⟩ : Fin 32000)) := by
  have hi : takeIdxV idx (ix4 b t u (0 : Fin 1)) = idx (ix3 b t u) := takeIdxV_apply idx b t u 0 hw
  unfold takeV
  rw [select_apply, allOf_apply, take_apply]
  show Scalar.select
      (IntOp.andi
        (IntOp.andi
          (IntOp.cmpi .sge (takeIdxV idx (ix4 b t u (0 : Fin 1)))
            (broadcastInDim S8x512x1x1 ![] bcast_S_S8x512x1x1 (constantI S_ 32 0#32) (ix4 b t u (0 : Fin 1))))
          (IntOp.cmpi .sle (takeIdxV idx (ix4 b t u (0 : Fin 1)))
            (broadcastInDim S8x512x1x1 ![0, 1, 2, 3] bcast_S1x1x1x1_S8x512x1x1_0_1_2_3
              (broadcastInDim S1x1x1x1 ![3] bcast_S1_S1x1x1x1_3 (constantI S1 32 31999#32)) (ix4 b t u (0 : Fin 1)))))
        1#1) _ _ = _
  rw [last_class_apply, broadcastInDim_constantI, broadcast_apply]
  generalize takeIdxV idx (ix4 b t u (0 : Fin 1)) = w at hi ⊢
  subst hi
  rw [in_range_bit hw, select_one]
  refine congrArg lp (congrArg (ix3 b t) (Fin.ext ?_))
  show min (idx (ix3 b t u)).toInt.toNat 31999 = (idx (ix3 b t u)).toNat
  rw [signed_value_of_class hw]
  omega

/-- Token (b, t)'s stage value when its target names a class: the log-softmax of its logits at that class. -/
theorem tokV_apply (X : FVec Ideal S8x512x4096 .f32) (W : FVec Ideal S32000x4096 .f32) (B : FVec Ideal S32000 .f32)
    (tgt : IVec S8x512 32) (b : Fin 8) (t : Fin 512) (hw : (tgt (ix2 b t)).toNat < 32000) :
    tokV X W B tgt (ix2 b t)
      = logSoftmaxV (logitsV X W B) (ix3 b t (⟨(tgt (ix2 b t)).toNat, hw⟩ : Fin 32000)) := by
  have hidx : broadcastInDim S8x512x1 ![0, 1] bcast_S8x512_S8x512x1_0_1 tgt (ix3 b t (0 : Fin 1)) = tgt (ix2 b t) :=
    bcast_tok_unit _ _ _ _ _
  unfold tokV
  rw [mulf_apply, maskV_apply tgt b t hw, mul_one, cast_drop_unit,
    takeV_apply _ _ b t 0 (by rw [hidx]; exact hw)]
  exact congrArg _ (congrArg (ix3 b t) (Fin.ext (congrArg BitVec.toNat hidx)))

/-- The reference's per-token stage is the array of per-token log-probabilities: on real inputs and targets that
    name classes, token (b, t)'s value is the log-softmax of its real logits at its target class. -/
theorem tokV_eq (X : FVec Ideal S8x512x4096 .f32) (W : FVec Ideal S32000x4096 .f32) (B : FVec Ideal S32000 .f32)
    (tgt : IVec S8x512 32) (hX : ∀ i, IsReal (X i)) (hW : ∀ i, IsReal (W i)) (hB : ∀ i, IsReal (B i))
    (ht : ∀ i, (tgt i).toNat < 32000) : tokV X W B tgt = tokArr X W B tgt := by
  funext i
  obtain ⟨b, t, rfl⟩ : ∃ (b : Fin 8) (t : Fin 512), i = ix2 b t := ⟨i 0, i 1, eq_ix2 i⟩
  have hw := ht (ix2 b t)
  have hcls : classOf (tgt (ix2 b t)) = (⟨(tgt (ix2 b t)).toNat, hw⟩ : Fin 32000) := Fin.ext (Nat.mod_eq_of_lt hw)
  rw [tokV_apply X W B tgt b t hw]
  show _ = tokLogp (fun h => X (ix3 b t h)) (fun v h => W (ix2 v h)) (fun v => B (ix1 v)) (classOf (tgt (ix2 b t)))
  rw [hcls]
  unfold tokLogp
  exact logSoftmaxV_real (logitsV X W B) b t _ (fun k => by
    rw [logitsV_apply]
    exact logit_isReal (fun h => hX _) (fun v h => hW _) (fun v => hB _) k) _

end Stages

end Cert.ReferenceIdeal.RefRead

end
-- ==== Proof.TailBridge.lean ====
/-
  The two programs' closing arithmetic agrees when every target is a class index.

  Both programs end with loss = nll + dpo of two 8 x 512 arrays of per-token log-probabilities, P (the policy
  model's) and R (the reference model's), and the mask of the targets that are not the ignore value -100.
  The dpo summand is the same chain of operations in both. The nll summands differ in their numerators: one
  program sums each sequence over its 512 tokens and then sums the first four of those eight sums; the other
  multiplies the first four sequences by the mask entry by entry and sums all 4 x 512 products at once.

  A target whose word is below 32000 is not the word of -100, so the mask is 1 at every token. A product
  with 1 is the factor itself, and a sum over the pairs (b, t) is the sum over b of the sums over t; the
  initial value of every sum is 0. So the numerators agree, and with them the two results.
-/
import proofs.«414215_j57698590654887_3_alg».proof.Proof.KernelTailDefs
import proofs.«414215_j57698590654887_3_alg».proof.Proof.ReferenceStages
import Idealize.ShloMosaic.PureOps.Ideal.Laws
import Idealize.ShloMosaic.Lib.ValueIdx
import Idealize.ShloMosaic.Lib.ValueIdxRank1
import Idealize.ShloMosaic.Lib.ValueLayout

noncomputable section

open scoped BigOperators

namespace Cert.Dpo.Bridge

open Idealize.ShloMosaic Idealize.ShloMosaic.ValueIdx
open Cert.KernelIdeal (S8x512 S4x512 S8 S4 S_)
open Cert.KernelIdeal.Facts₀ Cert.KernelIdeal.Facts
open Cert.KernelIdeal.TailValue

variable [Cert.KernelIdeal.Facts] [Cert.ReferenceIdeal.Facts]

/-! ## The mask -/

/-- The two programs build the mask by the same operations. -/
theorem maskV_eq (tgt : IVec S8x512 32) : Cert.ReferenceIdeal.RefRun.maskV tgt = maskV tgt := rfl

/-- A word below 32000 is not the word of -100, so the comparison "not equal" answers 1. -/
theorem cmpi_ne_ignore (w : BitVec 32) (h : w.toNat < 32000) : IntOp.cmpi .ne w 4294967196#32 = 1#1 := by
  have hne : w ≠ 4294967196#32 := by
    intro e
    rw [e] at h
    exact absurd h (by decide)
  show BitVec.ofBool (w != 4294967196#32) = 1#1
  rw [bne_iff_ne.mpr hne]
  rfl

/-- When every target is a class index the mask is 1 at every token. -/
theorem maskV_one (tgt : IVec S8x512 32) (ht : ∀ i, (tgt i).toNat < 32000) :
    maskV tgt = fun _ => (1 : EReal) := by
  funext i
  show FloatOps.uitofp (F := Ideal) .f32 (IntOp.cmpi .ne (tgt i) 4294967196#32) = 1
  rw [cmpi_ne_ignore _ (ht i)]
  show (((1#1 : BitVec 1).toNat : ℝ) : EReal) = 1
  simp

/-! ## The dpo summand -/

/-- The two programs compute softplus by the same operations. -/
theorem softplusV_eq (x : FVec Ideal S4 .f32) : Cert.ReferenceIdeal.RefRun.softplusV x = softplusV x := rfl

/-- The two programs compute log_sigmoid by the same operations. -/
theorem logSigmoidV_eq (x : FVec Ideal S4 .f32) : Cert.ReferenceIdeal.RefRun.logSigmoidV x = logSigmoidV x := rfl

/-- The masked numerator: the sum of all 4 x 512 products of the first four sequences with the mask. -/
def maskedSum (P mask : FVec Ideal S8x512 .f32) : FVec Ideal S_ .f32 :=
  Host.reduceAdd (F := Ideal)
    (mulf (F := Ideal)
      (extractStridedSlice S4x512 ![0, 0] P slices_S8x512_S4x512_0_0)
      (extractStridedSlice S4x512 ![0, 0] mask slices_S8x512_S4x512_0_0))
    zero0 reducesTo_S4x512_S_d0_1 h_S_

/-- The second program's result is the masked numerator, negated, over the mask count, plus the dpo summand. -/
theorem refTail_split (P R mask : FVec Ideal S8x512 .f32) :
    Cert.ReferenceIdeal.RefRun.refTail P R mask
      = addf (F := Ideal)
          (Host.divf (F := Ideal) (Host.negf (F := Ideal) (maskedSum P mask)) (maskCount mask))
          (dpoV P R) := rfl

/-! ## The nll numerators -/

/-- The initial value of every sum, the f32 word 0, is the number 0. -/
theorem zero0_apply (j : S_.Idx) : zero0 j = 0 := Ideal.ofBits_zero_f32

/-- The sum of four entries, from 0. -/
theorem sum4_apply (v : FVec Ideal S4 .f32) (j : S_.Idx) : sum4 v j = 0 + ∑ a : Fin 4, v (ix1 a) := by
  show Ideal.hostReduceAdd reducesTo_S4_S_d0 v (zero0 (Shape.Idx.first h_S_)) j = _
  rw [Ideal.hostReduceAdd_total _ (fun b => b.elim0), zero0_apply]
  exact congrArg (0 + ·) (Equiv.sum_comp (idxEquiv1 (n := 4)).symm v).symm

/-- A sequence's sum over its 512 tokens, from 0. -/
theorem rowSum_apply (A : FVec Ideal S8x512 .f32) (b : Fin 8) :
    rowSum A (ix1 b) = 0 + ∑ t : Fin 512, A (ix2 b t) := by
  have h : S8x512.Reduces [1] S8 := by decide
  show Ideal.hostReduceAdd reducesTo_S8x512_S8_d1 A (zero0 (Shape.Idx.first h_S_)) (ix1 b) = _
  rw [Ideal.hostReduceAdd_single _ h, zero0_apply]
  refine congrArg (0 + ·) (Finset.sum_congr rfl fun t _ => congrArg A ?_)
  funext c
  match c with
  | ⟨0, _⟩ => rfl
  | ⟨1, _⟩ => rfl

/-- The first four of eight entries. -/
theorem lo4_apply (v : FVec Ideal S8 .f32) (a : Fin 4) : lo4 v (ix1 a) = v (ix1 (Fin.castLE (by decide) a)) :=
  extractStridedSlice_apply _ _ _ _ _ (fun ax => by
    match ax with
    | ⟨0, _⟩ => exact (Nat.zero_add _).symm)

/-- The first four of eight sequences. -/
theorem loRows_apply (A : FVec Ideal S8x512 .f32) (a : Fin 4) (t : Fin 512) :
    extractStridedSlice S4x512 ![0, 0] A slices_S8x512_S4x512_0_0 (ix2 a t) = A (ix2 (Fin.castLE (by decide) a) t) :=
  slice2_axis0_apply 0 A _ a t _ (Nat.zero_add _).symm

/-- With the mask 1 at every token, the masked numerator is the sum of the first four sequences' sums:
    a product with 1 is the factor, the sum over the pairs (b, t) is the sum over b of the sums over t,
    and each sum starts from 0. -/
theorem maskedSum_one (P : FVec Ideal S8x512 .f32) :
    maskedSum P (fun _ => (1 : EReal)) = sum4 (lo4 (rowSum P)) := by
  funext j
  rw [sum4_apply]
  show Ideal.hostReduceAdd reducesTo_S4x512_S_d0_1 _ (zero0 (Shape.Idx.first h_S_)) j = _
  rw [Ideal.hostReduceAdd_total _ (fun b => b.elim0), zero0_apply, sum_idx2]
  refine congrArg (0 + ·) (Finset.sum_congr rfl fun a _ => ?_)
  rw [lo4_apply, rowSum_apply, zero_add]
  refine Finset.sum_congr rfl fun t _ => ?_
  rw [mulf_apply, loRows_apply]
  exact mul_one _

/-! ## The two results -/

/-- When every target is a class index the two programs' closing arithmetic returns the same value: the
    masks are the same array of ones, the numerators agree by `maskedSum_one`, and the mask count and
    the dpo summand are the same operations on the same arrays. -/
theorem tail_eq (P R : FVec Ideal Cert.KernelIdeal.S8x512 .f32) (tgt : IVec Cert.KernelIdeal.S8x512 32)
    (ht : ∀ i, (tgt i).toNat < 32000) :
    Cert.KernelIdeal.TailValue.kerTail P R (Cert.KernelIdeal.TailValue.maskV tgt)
      = Cert.ReferenceIdeal.RefRun.refTail P R (Cert.ReferenceIdeal.RefRun.maskV tgt) := by
  rw [maskV_eq, refTail_split, maskV_one tgt ht, maskedSum_one]
  rfl

end Cert.Dpo.Bridge

end
-- ==== Proof.lean ====
/-
  The kernel and its reference compute the same DPO loss.

  For every token both programs form the logits of a policy model and of a frozen reference model (an inner
  product with each of 32000 class rows, plus a bias) and take the log-softmax at the token's target class.
  The reference does it in one pass over the 32000 classes, shifting by the row maximum; the kernel consumes
  the classes in 125 chunks of 256, carrying a running maximum (started at a large negative real number), a
  running sum of shifted exponentials rescaled whenever the maximum moves, and the target's logit. Over the
  reals the shift cancels, so both are the same real number (Proof/LibOnlineLogSumExp.lean), provided the
  inputs are real numbers and the target is one of the 32000 classes, which is the precondition
  (Proof/PreFacts.lean). Then the same tail follows in both programs: per-sequence sums, the difference of
  log-ratios between the chosen and the rejected half, a log-sigmoid, and a masked negative log-likelihood,
  which the kernel sums row by row and the reference in one sum over the masked entries; with every target a
  class the mask is 1 everywhere, and the two sums agree (Proof/TailBridge.lean).

  The kernel's side: what each grid point leaves in the carried scratch is read off the run's found pieces
  (Proof/KernelPieces.lean), row by row it is one step of the online recurrence (Proof/KernelRow.lean), by
  induction over the points the last chunk's output is the per-token log-probability (Proof/KernelRegion.lean),
  the two flushed blocks cover the output array (Proof/KernelCover.lean), and the host operations after the
  region are read off the frame run's post (Proof/KernelTail.lean). The reference's side: its run
  (Proof/ReferenceRun.lean) and its per-token value read at an index (Proof/ReferenceRead.lean).
-/
import proofs.«414215_j57698590654887_3_alg».proof.Defs
import proofs.«414215_j57698590654887_3_alg».proof.Proof.Gen.Kernel
import proofs.«414215_j57698590654887_3_alg».proof.Proof.Gen.Kernel.Frame
import proofs.«414215_j57698590654887_3_alg».proof.Proof.Gen.KernelIdeal
import proofs.«414215_j57698590654887_3_alg».proof.Proof.Gen.KernelIdeal.Frame
import proofs.«414215_j57698590654887_3_alg».proof.Proof.Gen.ReferenceIdeal
import proofs.«414215_j57698590654887_3_alg».proof.Proof.Gen.Pre_finite_inputs
import proofs.«414215_j57698590654887_3_alg».proof.Proof.PreFacts
import proofs.«414215_j57698590654887_3_alg».proof.Proof.KernelRegion
import proofs.«414215_j57698590654887_3_alg».proof.Proof.KernelTail
import proofs.«414215_j57698590654887_3_alg».proof.Proof.ReferenceRun
import proofs.«414215_j57698590654887_3_alg».proof.Proof.ReferenceRead
import proofs.«414215_j57698590654887_3_alg».proof.Proof.TailBridge
import Idealize.ShloMosaic.Adequacy
import Idealize.ShloMosaic.Init

noncomputable section

namespace Cert.Proof

open Idealize.ShloMosaic Idealize.SL.Sem

/-- The word-level kernel runs, faults nowhere and keeps its arguments: the frame run. -/
theorem frame_kernel : Cert.frame_Kernel := fun m ρ _ => Cert.Kernel.Gen.frame m ρ

/-- The same of the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.RefRun.run m ρ)

/-- Both programs end at the loss of the same two arrays of per-token log-probabilities: the kernel's run ends at
    its tail of them, the reference's run at its own tail of its own per-token values, which are those arrays
    when the inputs are real and the targets are classes, and the two tails agree when every target is a class. -/
theorem algebraic : Cert.algebraic_KernelIdeal_ReferenceIdeal := by
  intro m ρ m' ρ' hpre hagree
  have hg : ∀ c : Dev Cert.KernelIdeal.nD, Cert.Dpo.Good
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg2)) :=
    fun c => Cert.Dpo.good_of_pre _ _ _ _ _ _ (hpre c)
  refine ⟨_, Cert.KernelIdeal.TailValue.run_of m ρ (fun c => Cert.KernelIdeal.RegionValue.final6 m c (hg c)), ?_⟩
  refine (θ_run Cert.ReferenceIdeal.defs _ _).mono (fun r h c => ⟨?_, (h c).2⟩)
    (Cert.ReferenceIdeal.RefRun.run m' ρ')
  obtain ⟨e0, e1, e2, e3, e4, e5⟩ := hagree c
  rw [(h c).1, e0, e1, e2, e3, e4, e5]
  unfold Cert.ReferenceIdeal.RefRun.refOut
  rw [Cert.ReferenceIdeal.RefRead.tokV_eq _ _ _ _ (hg c).realX (hg c).realW (hg c).realB (hg c).tgtLt,
    Cert.ReferenceIdeal.RefRead.tokV_eq _ _ _ _ (hg c).realX (hg c).realWr (hg c).realBr (hg c).tgtLt]
  exact (Cert.Dpo.Bridge.tail_eq _ _ _ (hg c).tgtLt).symm

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
